-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x1 : Shape := ⟨2, ![256, 1]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S800000 32) (main_arg4 : IVec S800000 32) (main_v13 : IVec S_ 1) (main_v15 : IVec S800000 1) (main_c_5 : IVec S_ 1) : IVec S_ 1 :=
  let main_v16 : IVec S_ 1 := (fun x v => Host.reduce IntOp.andi x v reducesTo_S800000_S_d0 h_S_) main_v15 main_c_5
  let main_v17 : IVec S_ 1 := andi main_v13 main_v16
  let main_c_6 : IVec S_ 32 := constantI S_ 32 50000#32
  let main_v18 : IVec S800000 32 := broadcastInDim S800000 ![] bcast_S_S800000 main_c_6
  let main_v19 : IVec S800000 1 := cmpi .slt main_arg3 main_v18
  let main_c_7 : IVec S_ 1 := constantI S_ 1 1#1
  let main_v20 : IVec S_ 1 := (fun x v => Host.reduce IntOp.andi x v reducesTo_S800000_S_d0 h_S_) main_v19 main_c_7
  let main_v21 : IVec S_ 1 := andi main_v17 main_v20
  let main_c_8 : IVec S_ 32 := constantI S_ 32 0#32
  let main_v22 : IVec S800000 32 := broadcastInDim S800000 ![] bcast_S_S800000 main_c_8
  let main_v23 : IVec S800000 1 := cmpi .sge main_arg4 main_v22
  let main_c_9 : IVec S_ 1 := constantI S_ 1 1#1
  let main_v24 : IVec S_ 1 := (fun x v => Host.reduce IntOp.andi x v reducesTo_S800000_S_d0 h_S_) main_v23 main_c_9
  let main_v25 : IVec S_ 1 := andi main_v21 main_v24
  let main_c_10 : IVec S_ 32 := constantI S_ 32 50000#32
  let main_v26 : IVec S800000 32 := broadcastInDim S800000 ![] bcast_S_S800000 main_c_10
  let main_v27 : IVec S800000 1 := cmpi .slt main_arg4 main_v26
  let main_c_11 : IVec S_ 1 := constantI S_ 1 1#1
  let main_v28 : IVec S_ 1 := (fun x v => Host.reduce IntOp.andi x v reducesTo_S800000_S_d0 h_S_) main_v27 main_c_11
  let main_v29 : IVec S_ 1 := andi main_v25 main_v28
  main_v29

def fn {F : FTy → Type} [FloatOps F] (main_arg0 : FVec F S50000x128 .f32) (main_arg1 : FVec F S256x1 .f32) (main_arg2 : FVec F S800000 .f32) (main_arg3 : IVec S800000 32) (main_arg4 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_c_4 : IVec S_ 32 := constantI S_ 32 0#32
  let main_v14 : IVec S800000 32 := broadcastInDim S800000 ![] bcast_S_S800000 main_c_4
  let main_v15 : IVec S800000 1 := cmpi .sge main_arg3 main_v14
  let main_c_5 : IVec S_ 1 := constantI S_ 1 1#1
  fn_part1 (F := F) main_arg3 main_arg4 main_v13 main_v15 main_c_5
-- ==== Kernel.lean ====
abbrev S50000x128 : Shape := ⟨2, ![50000, 128]⟩
abbrev S256x1 : Shape := ⟨2, ![256, 1]⟩
abbrev S800000 : Shape := ⟨1, ![800000]⟩
abbrev S_ : Shape := ⟨0, ![]⟩
abbrev S50048x128 : Shape := ⟨2, ![50048, 128]⟩
abbrev S128x1 : Shape := ⟨2, ![128, 1]⟩
abbrev S128x2 : Shape := ⟨2, ![128, 2]⟩
abbrev S50048x2 : Shape := ⟨2, ![50048, 2]⟩
abbrev S6256x128 : Shape := ⟨2, ![6256, 128]⟩
abbrev S6256x2 : Shape := ⟨2, ![6256, 2]⟩
abbrev S50048x1 : Shape := ⟨2, ![50048, 1]⟩
abbrev S50048 : Shape := ⟨1, ![50048]⟩
abbrev S800000x1 : Shape := ⟨2, ![800000, 1]⟩
abbrev S1 : Shape := ⟨1, ![1]⟩
abbrev S128x128 : Shape := ⟨2, ![128, 128]⟩
abbrev S2176x128 : Shape := ⟨2, ![2176, 128]⟩
abbrev S1x2176 : Shape := ⟨2, ![1, 2176]⟩
abbrev S128x2176 : Shape := ⟨2, ![128, 2176]⟩

abbrev nBuf : Space → Nat
  | .hbm => 63
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S256x1, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S_, .f32⟩
  | .hbm, ⟨7, _⟩ => ⟨S50048x128, .f32⟩
  | .hbm, ⟨8, _⟩ => ⟨S50048x128, .bf16⟩
  | .hbm, ⟨9, _⟩ => ⟨S128x1, .f32⟩
  | .hbm, ⟨10, _⟩ => ⟨S128x1, .f32⟩
  | .hbm, ⟨11, _⟩ => ⟨S128x2, .f32⟩
  | .hbm, ⟨12, _⟩ => ⟨S50048x2, .f32⟩
  | .hbm, ⟨13, _⟩ => ⟨S50048x1, .f32⟩
  | .hbm, ⟨14, _⟩ => ⟨S50048, .f32⟩
  | .hbm, ⟨15, _⟩ => ⟨S50048x1, .f32⟩
  | .hbm, ⟨16, _⟩ => ⟨S50048, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S_, .f32⟩
  | .hbm, ⟨37, _⟩ => ⟨S_, .f32⟩
  | .hbm, ⟨38, _⟩ => ⟨S800000, .f32⟩
  | .hbm, ⟨39, _⟩ => ⟨S800000, .i1⟩
  | .hbm, ⟨40, _⟩ => ⟨S_, .f32⟩
  | .hbm, ⟨41, _⟩ => ⟨S800000, .f32⟩
  | .hbm, ⟨42, _⟩ => ⟨S800000, .f32⟩
  | .hbm, ⟨43, _⟩ => ⟨S800000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S800000, .f32⟩
  | .hbm, ⟨50, _⟩ => ⟨S800000, .f32⟩
  | .hbm, ⟨51, _⟩ => ⟨S800000, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S800000, .f32⟩
  | .hbm, ⟨56, _⟩ => ⟨S800000, .f32⟩
  | .hbm, ⟨57, _⟩ => ⟨S800000, .f32⟩
  | .hbm, ⟨58, _⟩ => ⟨S800000x1, .i32⟩
  | .hbm, ⟨59, _⟩ => ⟨S800000x1, .i32⟩
  | .hbm, ⟨60, _⟩ => ⟨S800000x1, .f32⟩
  | .hbm, ⟨61, _⟩ => ⟨S50048x128, .f32⟩
  | .hbm, ⟨62, _⟩ => ⟨S50000x128, .f32⟩
  | .local _ .vmem, ⟨0, _⟩ => ⟨S6256x128, .f32⟩
  | .local _ .vmem, ⟨1, _⟩ => ⟨S6256x128, .f32⟩
  | .local _ .vmem, ⟨2, _⟩ => ⟨S128x2, .f32⟩
  | .local _ .vmem, ⟨3, _⟩ => ⟨S6256x2, .f32⟩
  | .local _ .vmem, ⟨4, _⟩ => ⟨S6256x2, .f32⟩
  | .local _ .vmem, ⟨5, _⟩ => ⟨S50048x128, .bf16⟩
  | .local _ .vmem, ⟨6, _⟩ => ⟨S128x1, .i32⟩
  | .local _ .vmem, ⟨7, _⟩ => ⟨S128x1, .i32⟩
  | .local _ .vmem, ⟨8, _⟩ => ⟨S128x1, .i32⟩
  | .local _ .vmem, ⟨9, _⟩ => ⟨S128x1, .i32⟩
  | .local _ .vmem, ⟨10, _⟩ => ⟨S128x1, .f32⟩
  | .local _ .vmem, ⟨11, _⟩ => ⟨S128x1, .f32⟩
  | .local _ .vmem, ⟨12, _⟩ => ⟨S50048x128, .f32⟩
  | .local _ .vmem, ⟨13, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![6250], ![false]⟩

@[reducible] def k1_t1_loop : Scf.Loop 32 :=
  let c0_i32_8 : BitVec 32 := 0#32
  let c23_i32 : BitVec 32 := 23#32
  let v13 : BitVec 32 := Scalar.addi c0_i32_8 c23_i32
  let c1_i32 : BitVec 32 := 1#32
  ⟨c0_i32_8, v13, c1_i32⟩
def k1_mult1 (k1_t1 : Fin k1_t1_loop.trips) : BitVec 32 :=
  let c0_i32_17 : BitVec 32 := 0#32
  let c0_i32_8 : BitVec 32 := 0#32
  let c1_i32 : BitVec 32 := 1#32
  let arg7 : BitVec 32 := Scf.iv c0_i32_8 c1_i32 k1_t1
  let c1_i32_16 : BitVec 32 := 1#32
  let v17 : BitVec 32 := Scalar.muli arg7 c1_i32_16
  let v18 : BitVec 32 := Scalar.addi c0_i32_17 v17
  let c2176_i32 : BitVec 32 := 2176#32
  let v19 : BitVec 32 := Scalar.muli v18 c2176_i32
  v19
def k1_off1 (k1_t1 : Fin k1_t1_loop.trips) : Fin 2 → Nat :=
  let c0_i32_17 : BitVec 32 := 0#32
  let c0_i32_8 : BitVec 32 := 0#32
  let c1_i32 : BitVec 32 := 1#32
  let arg7 : BitVec 32 := Scf.iv c0_i32_8 c1_i32 k1_t1
  let c1_i32_16 : BitVec 32 := 1#32
  let v17 : BitVec 32 := Scalar.muli arg7 c1_i32_16
  let v18 : BitVec 32 := Scalar.addi c0_i32_17 v17
  let c2176_i32 : BitVec 32 := 2176#32
  let v19 : BitVec 32 := Scalar.muli v18 c2176_i32
  let v20 : BitVec 32 := v19
  let v21 : Index := Scalar.indexCast v20
  let c0_18 : Index := 0#32
  ![v21.toNat, 0]
@[reducible] def k1_t2_loop : Scf.Loop 32 :=
  let c0_i32_12 : BitVec 32 := 0#32
  let c23_i32_13 : BitVec 32 := 23#32
  let v16 : BitVec 32 := Scalar.addi c0_i32_12 c23_i32_13
  let c1_i32_14 : BitVec 32 := 1#32
  ⟨c0_i32_12, v16, c1_i32_14⟩
def k1_mult2 (k1_t2 : Fin k1_t2_loop.trips) : BitVec 32 :=
  let c0_i32_17 : BitVec 32 := 0#32
  let c0_i32_12 : BitVec 32 := 0#32
  let c1_i32_14 : BitVec 32 := 1#32
  let arg7 : BitVec 32 := Scf.iv c0_i32_12 c1_i32_14 k1_t2
  let c1_i32_16 : BitVec 32 := 1#32
  let v17 : BitVec 32 := Scalar.muli arg7 c1_i32_16
  let v18 : BitVec 32 := Scalar.addi c0_i32_17 v17
  let c2176_i32 : BitVec 32 := 2176#32
  let v19 : BitVec 32 := Scalar.muli v18 c2176_i32
  v19
def k1_off2 (k1_t2 : Fin k1_t2_loop.trips) : Fin 2 → Nat :=
  let c0_i32_17 : BitVec 32 := 0#32
  let c0_i32_12 : BitVec 32 := 0#32
  let c1_i32_14 : BitVec 32 := 1#32
  let arg7 : BitVec 32 := Scf.iv c0_i32_12 c1_i32_14 k1_t2
  let c1_i32_16 : BitVec 32 := 1#32
  let v17 : BitVec 32 := Scalar.muli arg7 c1_i32_16
  let v18 : BitVec 32 := Scalar.addi c0_i32_17 v17
  let c2176_i32 : BitVec 32 := 2176#32
  let v19 : BitVec 32 := Scalar.muli v18 c2176_i32
  let v20 : BitVec 32 := v19
  let v32 : Index := Scalar.indexCast v20
  let c0_19 : Index := 0#32
  ![v32.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S50048x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S50048x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  pads_S50000x128_S50048x128_0480_000 : S50000x128.Pads (![0, 0] : Fin 2 → Nat) ![48, 0] ![0, 0] S50048x128
  h_S_ : 0 < S_.numel
  bitsLt_bf16_f32 : FTy.bits .bf16 < FTy.bits .f32
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  inb_S6256x128_S6256x128_0_0 : ∀ a, (![0, 0] : Fin 2 → Nat) a + S6256x128.size a ≤ S6256x128.size a
  h_S6256x128 : 0 < S6256x128.numel
  shapeCasts_S6256x128_S6256x128 : S6256x128.ShapeCasts S6256x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S6256x2_S6256x2_0_0 : ∀ a, (![0, 0] : Fin 2 → Nat) a + S6256x2.size a ≤ S6256x2.size a
  h_S6256x2 : 0 < S6256x2.numel
  slices_S50048x2_S50048x1_0_0 : S50048x2.Slices ![0, 0] S50048x1
  shapeCasts_S50048x1_S50048 : S50048x1.ShapeCasts S50048
  slices_S50048x2_S50048x1_0_1 : S50048x2.Slices ![0, 1] S50048x1
  bcast_S_S800000 : S_.BroadcastsInDim S800000 (![] : Fin 0 → Fin S800000.rank)
  bcast_S800000_S800000x1_0 : S800000.BroadcastsInDim S800000x1 (![0] : Fin 1 → Fin S800000x1.rank)
  reducesTo_S800000_S_d0 : S800000.ReducesTo [0] S_
  bcast_S_S1 : S_.BroadcastsInDim S1 (![] : Fin 0 → Fin S1.rank)
  bcast_S1_S800000_0 : S1.BroadcastsInDim S800000 (![0] : Fin 1 → Fin S800000.rank)
  shapeCasts_S800000_S800000x1 : S800000.ShapeCasts S800000x1
  inb_S50048x128_S50048x128_0_0 : ∀ a, (![0, 0] : Fin 2 → Nat) a + S50048x128.size a ≤ S50048x128.size a
  h_S50048x128 : 0 < S50048x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S2176x128 : 0 < S2176x128.numel
  shapeCasts_S2176x128_S2176x128 : S2176x128.ShapeCasts S2176x128
  iota_S1x2176_d1_w32 : S1x2176.Iotas .tc 32 [1]
  broadcasts_S128x1_S128x2176 : S128x1.Broadcasts S128x2176
  broadcasts_S1x2176_S128x2176 : S1x2176.Broadcasts S128x2176
  natLt_1_32 : 1 < 32
  transposes_S128x2176_p1_0_S2176x128 : S128x2176.Transposes [1, 0] S2176x128
  slices_S50048x128_S50000x128_0_0 : S50048x128.Slices ![0, 0] S50000x128
  dot_S6256x128_S128x2_S6256x2_1_0_0_1_n_n_wf : DotDims.WF S6256x128 S128x2 S6256x2 [1] [0] [0] [1] [] []
  gather_S50048_S800000x1_S800000_n_0_n_n_0_1_1_wf : GatherDims.WF S50048 S800000x1 S800000 [] [0] [] [0] [] 1 ![1]
  dot_S128x2176_S2176x128_S128x128_1_0_0_1_n_n_wf : DotDims.WF S128x2176 S2176x128 S128x128 [1] [0] [0] [1] [] []
  dot_S2176x128_S128x128_S2176x128_1_0_0_1_n_n_wf : DotDims.WF S2176x128 S128x128 S2176x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6256x128.size a ≤ S50048x128.size a
  hwx0_0 : ∀ i : grid0.Coords, EltTy.bits .f32 = 32 ∨ (Rect.block (s := S50048x128) S6256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6256x2.size a ≤ S50048x2.size a
  hwx0_2 : ∀ i : grid0.Coords, EltTy.bits .f32 = 32 ∨ (Rect.block (s := S50048x2) S6256x2.size (cc0_transform_2 i) (hinb0_2 i)).WholeWords (EltTy.packing .f32)
  hrank1 : 0 < grid1.rank
  k1_t1_ok : k1_t1_loop.OK
  k1_mult1_dvd : ∀ k1_t1 : Fin k1_t1_loop.trips, 2176 ∣ (k1_mult1 k1_t1).toNat
  k1_off1_inb : ∀ k1_t1 : Fin k1_t1_loop.trips, ∀ a, (k1_off1 k1_t1) a + S2176x128.size a ≤ S50048x128.size a
  k1_t2_ok : k1_t2_loop.OK
  k1_mult2_dvd : ∀ k1_t2 : Fin k1_t2_loop.trips, 2176 ∣ (k1_mult2 k1_t2).toNat
  k1_off2_inb : ∀ k1_t2 : Fin k1_t2_loop.trips, ∀ a, (k1_off2 k1_t2) a + S2176x128.size a ≤ S50048x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S50048x128.size a ≤ S50048x128.size a
  hwx1_0 : ∀ i : grid1.Coords, EltTy.bits .bf16 = 32 ∨ (Rect.block (s := S50048x128) S50048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S800000x1.size a
  hwx1_1 : ∀ i : grid1.Coords, EltTy.bits .i32 = 32 ∨ (Rect.block (s := S800000x1) S128x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S800000x1.size a
  hwx1_2 : ∀ i : grid1.Coords, EltTy.bits .i32 = 32 ∨ (Rect.block (s := S800000x1) S128x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S800000x1.size a
  hwx1_3 : ∀ i : grid1.Coords, EltTy.bits .f32 = 32 ∨ (Rect.block (s := S800000x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50048x128.size a ≤ S50048x128.size a
  hwx1_4 : ∀ i : grid1.Coords, EltTy.bits .f32 = 32 ∨ (Rect.block (s := S50048x128) S50048x128.size (cc1_transform_4 i) (hinb1_4 i)).WholeWords (EltTy.packing .f32)

variable [Facts₀]

def dot_S6256x128_S128x2_S6256x2_1_0_0_1_n_n : DotDims S6256x128 S128x2 S6256x2 where
  lhsContracting := [1]
  rhsContracting := [0]
  lhsNonContracting := [0]
  rhsNonContracting := [1]
  lhsBatch := []
  rhsBatch := []
  wf := dot_S6256x128_S128x2_S6256x2_1_0_0_1_n_n_wf
def gather_S50048_S800000x1_S800000_n_0_n_n_0_1_1 : GatherDims S50048 S800000x1 S800000 where
  offsetDims := []
  collapsedSliceDims := [0]
  operandBatchingDims := []
  startIndicesBatchingDims := []
  startIndexMap := [0]
  indexVectorDim := 1
  sliceSizes := ![1]
  wf := gather_S50048_S800000x1_S800000_n_0_n_n_0_1_1_wf
def dot_S128x2176_S2176x128_S128x128_1_0_0_1_n_n : DotDims S128x2176 S2176x128 S128x128 where
  lhsContracting := [1]
  rhsContracting := [0]
  lhsNonContracting := [0]
  rhsNonContracting := [1]
  lhsBatch := []
  rhsBatch := []
  wf := dot_S128x2176_S2176x128_S128x128_1_0_0_1_n_n_wf
def dot_S2176x128_S128x128_S2176x128_1_0_0_1_n_n : DotDims S2176x128 S128x128 S2176x128 where
  lhsContracting := [1]
  rhsContracting := [0]
  lhsNonContracting := [0]
  rhsNonContracting := [1]
  lhsBatch := []
  rhsBatch := []
  wf := dot_S2176x128_S128x128_S2176x128_1_0_0_1_n_n_wf

abbrev win0_0 : Pipeline.Window sig grid0 :=
  Pipeline.Window.ofSpec (Memref.whole main_v0) S6256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S6256x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S50048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v37) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40) S50048x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S256x1 : Shape := ⟨2, ![256, 1]⟩
abbrev S800000 : Shape := ⟨1, ![800000]⟩
abbrev S128x1 : Shape := ⟨2, ![128, 1]⟩
abbrev S50000x1 : Shape := ⟨2, ![50000, 1]⟩
abbrev S50000 : Shape := ⟨1, ![50000]⟩
abbrev S_ : Shape := ⟨0, ![]⟩
abbrev S800000x1 : Shape := ⟨2, ![800000, 1]⟩
abbrev S1 : Shape := ⟨1, ![1]⟩
abbrev S800000x128 : Shape := ⟨2, ![800000, 128]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x1, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x1, .f32⟩
  | .hbm, ⟨6, _⟩ => ⟨S50000x1, .f32⟩
  | .hbm, ⟨7, _⟩ => ⟨S50000, .f32⟩
  | .hbm, ⟨8, _⟩ => ⟨S128x1, .f32⟩
  | .hbm, ⟨9, _⟩ => ⟨S50000x1, .f32⟩
  | .hbm, ⟨10, _⟩ => ⟨S50000, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S800000, .f32⟩
  | .hbm, ⟨30, _⟩ => ⟨S_, .f32⟩
  | .hbm, ⟨31, _⟩ => ⟨S_, .f32⟩
  | .hbm, ⟨32, _⟩ => ⟨S800000, .f32⟩
  | .hbm, ⟨33, _⟩ => ⟨S800000, .i1⟩
  | .hbm, ⟨34, _⟩ => ⟨S_, .f32⟩
  | .hbm, ⟨35, _⟩ => ⟨S800000, .f32⟩
  | .hbm, ⟨36, _⟩ => ⟨S800000, .f32⟩
  | .hbm, ⟨37, _⟩ => ⟨S800000, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S800000, .f32⟩
  | .hbm, ⟨44, _⟩ => ⟨S800000, .f32⟩
  | .hbm, ⟨45, _⟩ => ⟨S800000, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S800000, .f32⟩
  | .hbm, ⟨50, _⟩ => ⟨S800000, .f32⟩
  | .hbm, ⟨51, _⟩ => ⟨S800000, .f32⟩
  | .hbm, ⟨52, _⟩ => ⟨S800000x1, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  slices_S256x1_S128x1_0_0 : S256x1.Slices ![0, 0] S128x1
  shapeCasts_S50000x1_S50000 : S50000x1.ShapeCasts S50000
  slices_S256x1_S128x1_128_0 : S256x1.Slices ![128, 0] S128x1
  bcast_S_S800000 : S_.BroadcastsInDim S800000 (![] : Fin 0 → Fin S800000.rank)
  bcast_S800000_S800000x1_0 : S800000.BroadcastsInDim S800000x1 (![0] : Fin 1 → Fin S800000x1.rank)
  reducesTo_S800000_S_d0 : S800000.ReducesTo [0] S_
  h_S_ : 0 < S_.numel
  bcast_S_S1 : S_.BroadcastsInDim S1 (![] : Fin 0 → Fin S1.rank)
  bcast_S1_S800000_0 : S1.BroadcastsInDim S800000 (![0] : Fin 1 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x1_S50000x1_1_0_0_1_n_n_wf : DotDims.WF S50000x128 S128x1 S50000x1 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The specification both programs are compared with, over the extended reals. It names no program.

  A graph has 50000 nodes carrying 128 features each (the array h) and 800000 edges; edge e goes from node col e to
  node row e and carries a value adj e. The attention vector att has 256 entries: its first half scores the target
  node, its second half the source node.
    * the score of edge e is  s (row e) + t (col e),  s n = sum over k of h n k * att k,  t n = sum over k of h n k * att (128 + k);
    * a leaky rectifier (slope 0.2 on the negatives), then ONE softmax over all 800000 edges, then the product with
      the edge's value give the weight w e of the edge: the function weights below, which neither side ever opens;
    * entry (n, d) of the result is the sum, over the edges e arriving at node n, of  w e * h (col e) d.
-/
import Idealize.ShloMosaic.PureOps.Ideal.Laws
import Idealize.ShloMosaic.Lib.ValueIdx
import Idealize.ShloMosaic.Lib.Pipeline.Value

noncomputable section

open scoped BigOperators

namespace Cert.Spec

open Idealize.ShloMosaic Idealize.ShloMosaic.ValueIdx

/-- The node features: 50000 nodes by 128 features. -/
abbrev SH : Shape := ⟨2, ![50000, 128]⟩
/-- The attention vector: 256 entries kept as a column. -/
abbrev SA : Shape := ⟨2, ![256, 1]⟩
/-- One entry per edge. -/
abbrev SE : Shape := ⟨1, ![800000]⟩
/-- A scalar. -/
abbrev S0 : Shape := ⟨0, ![]⟩
/-- A vector of one entry. -/
abbrev S1 : Shape := ⟨1, ![1]⟩

/-- The node an index word names: its value as a signed integer, kept inside the table of 50000 nodes. For a word
    between 0 and 49999 this is the word's value. -/
def node (x : BitVec 32) : Fin 50000 := ⟨min x.toInt.toNat 49999, by omega⟩

/-- The target score of node n: its features against the first half of the attention vector. -/
def sAt (h : FVec Ideal SH .f32) (att : FVec Ideal SA .f32) (n : Fin 50000) : EReal :=
  ∑ k : Fin 128, h (ix2 n k) * att (ix2 (⟨k.val, by omega⟩ : Fin 256) (0 : Fin 1))

/-- The source score of node n: its features against the second half of the attention vector. -/
def tAt (h : FVec Ideal SH .f32) (att : FVec Ideal SA .f32) (n : Fin 50000) : EReal :=
  ∑ k : Fin 128, h (ix2 n k) * att (ix2 (⟨128 + k.val, by omega⟩ : Fin 256) (0 : Fin 1))

/-- The score of every edge: the target score of the node it arrives at plus the source score of the node it leaves. -/
def logits (h : FVec Ideal SH .f32) (att : FVec Ideal SA .f32) (row col : IVec SE 32) : FVec Ideal SE .f32 :=
  fun i => sAt h att (node (row i)) + tAt h att (node (col i))

/-- The shape relations the weight function's operations take: a scalar spread over the edges, a scalar made a
    one-entry vector, that vector spread over the edges, the edges reduced to a scalar. -/
structure TailFacts : Prop where
  b0E : S0.BroadcastsInDim SE (![] : Fin 0 → Fin SE.rank)
  b01 : S0.BroadcastsInDim S1 (![] : Fin 0 → Fin S1.rank)
  b1E : S1.BroadcastsInDim SE (![0] : Fin 1 → Fin SE.rank)
  red : SE.ReducesTo [0] S0
  h0 : 0 < S0.numel

/-- The rectified scores: a score that is at least zero is kept, a negative one is multiplied by 0.2. -/
def rectified (tf : TailFacts) (e : FVec Ideal SE .f32) : FVec Ideal SE .f32 :=
  select (cmpf .oge e (broadcastInDim SE ![] tf.b0E (constant (F := Ideal) S0 .f32 0x00000000#32))) e
    (mulf (broadcastInDim SE ![] tf.b0E (id (constant (F := Ideal) S0 .f32 0x3E4CCCCD#32))) e)

/-- The exponentials of the rectified scores, each taken after subtracting the largest rectified score. -/
def shiftedExp (tf : TailFacts) (e : FVec Ideal SE .f32) : FVec Ideal SE .f32 :=
  Host.exp (subf (rectified tf e)
    (broadcastInDim SE ![0] tf.b1E (broadcastInDim S1 ![] tf.b01
      (maximumf (constant (F := Ideal) S0 .f32 0xFF800000#32)
        (Host.reduce FloatOps.maximumf (rectified tf e) (constant (F := Ideal) S0 .f32 0xFF800000#32) tf.red tf.h0)))))

/-- The weight of every edge from the scores e and the edge values adj: rectify, take the softmax over ALL edges,
    multiply by the edge's value. Both programs apply exactly these operations; no proof opens them. -/
def weights (tf : TailFacts) (e adj : FVec Ideal SE .f32) : FVec Ideal SE .f32 :=
  mulf adj (Host.divf (shiftedExp tf e)
    (broadcastInDim SE ![0] tf.b1E (broadcastInDim S1 ![] tf.b01
      (Host.reduceAdd (shiftedExp tf e) (constant (F := Ideal) S0 .f32 0x00000000#32) tf.red tf.h0))))

/-- Entry (n, d) of the result: over the edges e arriving at node n, the sum of the edge's weight times feature d of
    the node the edge leaves. -/
def outAt (tf : TailFacts) (h : FVec Ideal SH .f32) (att : FVec Ideal SA .f32) (adj : FVec Ideal SE .f32)
    (row col : IVec SE 32) (n : Fin 50000) (d : Fin 128) : EReal :=
  ∑ e : Fin 800000, if (row (ix1 e)).toInt = (n.val : ℤ)
    then weights tf (logits h att row col) adj (ix1 e) * h (ix2 (node (col (ix1 e))) d) else 0

/-- The result array. -/
def out (tf : TailFacts) (h : FVec Ideal SH .f32) (att : FVec Ideal SA .f32) (adj : FVec Ideal SE .f32)
    (row col : IVec SE 32) : FVec Ideal SH .f32 :=
  fun i => outAt tf h att adj row col (i 0) (i 1)

theorem out_apply (tf : TailFacts) (h : FVec Ideal SH .f32) (att : FVec Ideal SA .f32) (adj : FVec Ideal SE .f32)
    (row col : IVec SE 32) (n : Fin 50000) (d : Fin 128) :
    out tf h att adj row col (ix2 n d) = outAt tf h att adj row col n d := rfl

/-- An array over the node features' shape is the result array as soon as it is so entry by entry. -/
theorem eq_out_of_apply (tf : TailFacts) (h : FVec Ideal SH .f32) (att : FVec Ideal SA .f32) (adj : FVec Ideal SE .f32)
    (row col : IVec SE 32) (X : FVec Ideal SH .f32)
    (hX : ∀ (n : Fin 50000) (d : Fin 128), X (ix2 n d) = outAt tf h att adj row col n d) :
    X = out tf h att adj row col := by
  funext i
  obtain ⟨n, d, rfl⟩ : ∃ (n : Fin 50000) (d : Fin 128), i = ix2 n d := ⟨i 0, i 1, eq_ix2 i⟩
  exact hX n d

end Cert.Spec

end
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.KernelTerm.lean ====
/-
  The scores of the edges as the kernel's program computes them from the two-column array st of node scores (column 0
  the target scores, column 1 the source scores, 50048 rows of which the first 50000 are nodes): each column read as a
  vector of 50048 entries; the index words of row and of col, each with 50048 added where the word is negative; the
  first vector gathered at the rows' words, the second at the cols' words; their sum, one score per edge.
-/
import proofs.«430319_j52965536694517_1_alg».proof.KernelIdeal
import proofs.«430319_j52965536694517_1_alg».proof.Proof.Spec

noncomputable section

namespace Cert.KernelTerm

open Cert.KernelIdeal Cert.KernelIdeal.Facts₀ Idealize.ShloMosaic

/-- An index word made non-negative the way the kernel's program does it: 50048 is added to a negative word, any other
    word is kept. -/
def wrapK [Cert.KernelIdeal.Facts] (x : IVec S800000 32) : IVec S800000 32 :=
  select (cmpi .slt x (broadcastInDim S800000 ![] bcast_S_S800000 (constantI S_ 32 0#32)))
    (addi x (broadcastInDim S800000 ![] bcast_S_S800000 (constantI S_ 32 50048#32))) x

/-- The scores of the edges from the array of node scores (the program's operations %6 to %24). -/
def logitsTermK [Cert.KernelIdeal.Facts] (st : FVec Ideal S50048x2 .f32) (row col : IVec S800000 32) :
    FVec Ideal S800000 .f32 :=
  addf
    (Host.gather gather_S50048_S800000x1_S800000_n_0_n_n_0_1_1
      (shapeCast S50048 (extractStridedSlice S50048x1 ![0, 0] st slices_S50048x2_S50048x1_0_0)
        shapeCasts_S50048x1_S50048)
      (broadcastInDim S800000x1 ![0] bcast_S800000_S800000x1_0 (wrapK row)))
    (Host.gather gather_S50048_S800000x1_S800000_n_0_n_n_0_1_1
      (shapeCast S50048 (extractStridedSlice S50048x1 ![0, 1] st slices_S50048x2_S50048x1_0_1)
        shapeCasts_S50048x1_S50048)
      (broadcastInDim S800000x1 ![0] bcast_S800000_S800000x1_0 (wrapK col)))

end Cert.KernelTerm

end
-- ==== Proof.KernelChain.lean ====
/-
  The program's run read between its two regions, over the extended reals.

  Region 0 is entered with the feature table padded by 48 zero rows and with the attention vector's two halves side by
  side, and leaves two score columns, one row per node of the padded table. The operations that follow gather column 0
  at the edges' row indices and column 1 at their column indices (a negative index word counting from the padded
  table's end) and add the two: the edge scores. The inlined rectifier, the largest score, the exponentials, their sum,
  the quotient and the product with the edge values are then, operation for operation, the specification's weight
  function applied to these scores and the edge values. Region 1 is entered with the feature table rounded to bf16,
  the two index arrays as columns and the weights as a column; the result is its accumulator cut back to the 50000
  nodes.
-/
import proofs.«430319_j52965536694517_1_alg».proof.Proof.Gen.KernelIdeal.Frame
import proofs.«430319_j52965536694517_1_alg».proof.Proof.Spec
import proofs.«430319_j52965536694517_1_alg».proof.Proof.LibTRef
import proofs.«430319_j52965536694517_1_alg».proof.Proof.KernelTerm

set_option maxRecDepth 16384

noncomputable section

namespace Cert.KernelIdeal.Chain

open Idealize.ShloMosaic Idealize.ShloMosaic.TcCoe
open Cert.KernelIdeal Cert.KernelIdeal.Gen

variable (m : (ℓ : Loc nD τ sig) → Buf (Elt Ideal) ℓ) (ρ : Dev nD → PrngReg)

/-- The shape relations the weight function takes, from the program's own facts. -/
theorem tfK [Cert.KernelIdeal.Facts] : Cert.Spec.TailFacts :=
  ⟨Facts₀.bcast_S_S800000, Facts₀.bcast_S_S1, Facts₀.bcast_S1_S800000_0, Facts₀.reducesTo_S800000_S_d0, Facts₀.h_S_⟩

/-- The two score columns region 0 leaves: column 0 the target scores, column 1 the source scores, one row per node of
    the padded table. -/
def st (c : Dev nD) : FVec Ideal S50048x2 .f32 := (dat0 (F := Ideal) (V3 m ρ) c).arrAt 2 cfg0.N

/-- The program's edge scores: region 0's score columns gathered at the launch's row and column indices (a negative
    index word counting from the padded table's end) and added. -/
def logitsK (c : Dev nD) : FVec Ideal S800000 .f32 :=
  Cert.KernelTerm.logitsTermK (st m ρ c) (m ((c : Thread nD τ).loc main_arg3)) (m ((c : Thread nD τ).loc main_arg4))

/-! ## The result: the last stretch slices region 1's accumulator back to the 50000 nodes -/

theorem out_eq (c : Dev nD) : W9 m ρ c (Proc.devRef .tc main_v41)
    = extractStridedSlice S50000x128 ![0, 0] ((dat1 (F := Ideal) (V7 m ρ) c).arrAt 4 cfg1.N) slices_S50048x128_S50000x128_0_0 := by
  have h : W9 m ρ c (Proc.devRef .tc main_v41)
      = extractStridedSlice S50000x128 ![0, 0] (W8 m ρ c (Proc.devRef .tc main_v40)) slices_S50048x128_S50000x128_0_0 := by
    show StableHlo.after hostOps2 (W8 m ρ c) (Proc.devRef .tc main_v41) = _
    after_results
  rw [h]
  exact congrArg (fun x => extractStridedSlice S50000x128 ![0, 0] x slices_S50048x128_S50000x128_0_0) (W8_arr m ρ c 4)

/-! ## Region 0's entry: the padded features and the attention vector's two halves side by side -/

theorem V3_v0 (c : Dev nD) : V3 m ρ c main_v0
    = (pad S50048x128 ![0, 0] ![48, 0] ![0, 0] (m ((c : Thread nD τ).loc main_arg0)) (sitofp .f32 (constantI S_ 32 0#32))
        pads_S50000x128_S50048x128_0480_000 h_S_ : FVec Ideal S50048x128 .f32) := by
  show StableHlo.after hostOps0_2 (W2 m ρ c) (Proc.devRef .tc main_v0) = _
  after_results
  rfl

theorem V3_v4 (c : Dev nD) : V3 m ρ c main_v4
    = (concatenate S128x2 1
        [⟨S128x1, extractStridedSlice S128x1 ![0, 0] (m ((c : Thread nD τ).loc main_arg1)) slices_S256x1_S128x1_0_0⟩,
         ⟨S128x1, extractStridedSlice S128x1 ![128, 0] (m ((c : Thread nD τ).loc main_arg1)) slices_S256x1_S128x1_128_0⟩]
        concatenates_S128x1_S128x1_S128x2_d1 : FVec Ideal S128x2 .f32) := by
  show StableHlo.after hostOps0_2 (W2 m ρ c) (Proc.devRef .tc main_v4) = _
  after_results

/-! ## Between the regions

Region 0 writes its three arrays only; the launch's arguments and the rounded feature table pass through it as entered. -/

/-- The rounded feature table is made before region 0 from the padded one, and nothing writes either afterwards. -/
theorem W3_v1 (c : Dev nD) : W3 m ρ c (Proc.devRef .tc main_v1)
    = (truncf .bf16 (V3 m ρ c main_v0) bitsLt_bf16_f32 : FVec Ideal S50048x128 .bf16) := by
  show StableHlo.after hostOps0_2 (W2 m ρ c) (Proc.devRef .tc main_v1)
    = (truncf .bf16 (StableHlo.after hostOps0_2 (W2 m ρ c) (Proc.devRef .tc main_v0) : FVec Ideal S50048x128 .f32)
        bitsLt_bf16_f32 : FVec Ideal S50048x128 .bf16)
  generalize W2 m ρ c = V
  after_results

theorem W4_arg2 (c : Dev nD) : W4 m ρ c (Proc.devRef .tc main_arg2) = m ((c : Thread nD τ).loc main_arg2) :=
  (W4_of_ne m ρ c main_arg2 (by decide)).trans (by
    show StableHlo.after hostOps0_2 (W2 m ρ c) (Proc.devRef .tc main_arg2) = _
    after_results)

theorem W4_arg3 (c : Dev nD) : W4 m ρ c (Proc.devRef .tc main_arg3) = m ((c : Thread nD τ).loc main_arg3) :=
  (W4_of_ne m ρ c main_arg3 (by decide)).trans (by
    show StableHlo.after hostOps0_2 (W2 m ρ c) (Proc.devRef .tc main_arg3) = _
    after_results)

theorem W4_arg4 (c : Dev nD) : W4 m ρ c (Proc.devRef .tc main_arg4) = m ((c : Thread nD τ).loc main_arg4) :=
  (W4_of_ne m ρ c main_arg4 (by decide)).trans (by
    show StableHlo.after hostOps0_2 (W2 m ρ c) (Proc.devRef .tc main_arg4) = _
    after_results)

theorem W4_v1 (c : Dev nD) : W4 m ρ c (Proc.devRef .tc main_v1)
    = (truncf .bf16 (V3 m ρ c main_v0) bitsLt_bf16_f32 : FVec Ideal S50048x128 .bf16) :=
  (W4_of_ne m ρ c main_v1 (by decide)).trans (W3_v1 m ρ c)

theorem W4_v5 (c : Dev nD) : W4 m ρ c (Proc.devRef .tc main_v5) = st m ρ c := W4_arr m ρ c 2

/-! ### The first stretch after region 0: the edge scores -/

set_option maxHeartbeats 1000000 in
theorem W5_v24 (c : Dev nD) : W5 m ρ c (Proc.devRef .tc main_v24) = logitsK m ρ c := by
  have e5 := W4_v5 m ρ c
  have e3 := W4_arg3 m ρ c
  have e4 := W4_arg4 m ρ c
  show StableHlo.after hostOps1 (W4 m ρ c) (Proc.devRef .tc main_v24) = _
  generalize W4 m ρ c = V at e5 e3 e4 ⊢
  after_results_simp
  rw [e5, e3, e4]
  rfl

/-- The rectifier's slope, the stretch's last constant. -/
theorem W5_cst (c : Dev nD) : W5 m ρ c (Proc.devRef .tc main_cst) = (constant (F := Ideal) S_ .f32 0x3E4CCCCD#32 : FVec Ideal S_ .f32) := by
  show StableHlo.after hostOps1 (W4 m ρ c) (Proc.devRef .tc main_cst) = _
  generalize W4 m ρ c = V
  after_results

theorem W5_arg2 (c : Dev nD) : W5 m ρ c (Proc.devRef .tc main_arg2) = m ((c : Thread nD τ).loc main_arg2) := by
  have e := W4_arg2 m ρ c
  show StableHlo.after hostOps1 (W4 m ρ c) (Proc.devRef .tc main_arg2) = _
  generalize W4 m ρ c = V at e ⊢
  after_results
  exact e

/-! ### The rectifier, inlined: the second stretch -/

theorem W6_v25 (c : Dev nD) : W6 m ρ c (Proc.devRef .tc main_v25) = Cert.Spec.rectified tfK (logitsK m ρ c) := by
  have e := W5_v24 m ρ c
  have ek := W5_cst m ρ c
  show StableHlo.after hostOps1_1 (W5 m ρ c) (Proc.devRef .tc main_v25) = _
  generalize W5 m ρ c = V at e ek ⊢
  after_results
  rw [e, ek]
  rfl

theorem W6_arg2 (c : Dev nD) : W6 m ρ c (Proc.devRef .tc main_arg2) = m ((c : Thread nD τ).loc main_arg2) := by
  have e := W5_arg2 m ρ c
  show StableHlo.after hostOps1_1 (W5 m ρ c) (Proc.devRef .tc main_arg2) = _
  generalize W5 m ρ c = V at e ⊢
  after_results
  exact e

/-- The two index arrays and the rounded feature table pass through the two stretches after region 0 unwritten. -/
theorem W6_arg3 (c : Dev nD) : W6 m ρ c (Proc.devRef .tc main_arg3) = m ((c : Thread nD τ).loc main_arg3) := by
  have e := W4_arg3 m ρ c
  show StableHlo.after hostOps1_1 (StableHlo.after hostOps1 (W4 m ρ c)) (Proc.devRef .tc main_arg3) = _
  generalize W4 m ρ c = V at e ⊢
  after_results
  exact e

theorem W6_arg4 (c : Dev nD) : W6 m ρ c (Proc.devRef .tc main_arg4) = m ((c : Thread nD τ).loc main_arg4) := by
  have e := W4_arg4 m ρ c
  show StableHlo.after hostOps1_1 (StableHlo.after hostOps1 (W4 m ρ c)) (Proc.devRef .tc main_arg4) = _
  generalize W4 m ρ c = V at e ⊢
  after_results
  exact e

theorem W6_v1 (c : Dev nD) : W6 m ρ c (Proc.devRef .tc main_v1)
    = (truncf .bf16 (V3 m ρ c main_v0) bitsLt_bf16_f32 : FVec Ideal S50048x128 .bf16) := by
  have e := W4_v1 m ρ c
  show StableHlo.after hostOps1_1 (StableHlo.after hostOps1 (W4 m ρ c)) (Proc.devRef .tc main_v1) = _
  generalize W4 m ρ c = V at e ⊢
  after_results
  exact e

/-! ## Region 1's entry: the rounded features, the two index columns, the weight column -/

theorem V7_v1 (c : Dev nD) : V7 m ρ c main_v1
    = (truncf .bf16 (V3 m ρ c main_v0) bitsLt_bf16_f32 : FVec Ideal S50048x128 .bf16) := by
  have e := W6_v1 m ρ c
  show StableHlo.after hostOps1_2 (W6 m ρ c) (Proc.devRef .tc main_v1) = _
  generalize W6 m ρ c = V at e ⊢
  after_results
  exact e

theorem V7_v37 (c : Dev nD) : V7 m ρ c main_v37
    = (shapeCast S800000x1 (m ((c : Thread nD τ).loc main_arg4)) shapeCasts_S800000_S800000x1 : IVec S800000x1 32) := by
  have e := W6_arg4 m ρ c
  show StableHlo.after hostOps1_2 (W6 m ρ c) (Proc.devRef .tc main_v37) = _
  generalize W6 m ρ c = V at e ⊢
  after_results
  rw [e]
  rfl

theorem V7_v38 (c : Dev nD) : V7 m ρ c main_v38
    = (shapeCast S800000x1 (m ((c : Thread nD τ).loc main_arg3)) shapeCasts_S800000_S800000x1 : IVec S800000x1 32) := by
  have e := W6_arg3 m ρ c
  show StableHlo.after hostOps1_2 (W6 m ρ c) (Proc.devRef .tc main_v38) = _
  generalize W6 m ρ c = V at e ⊢
  after_results
  rw [e]
  rfl

/-- The weight column: the third stretch applies to the rectified scores exactly the weight function's remaining
    operations (the largest score, the exponentials, their sum, the quotient, the product with the edge values), then
    makes the result a column. -/
theorem V7_v39 (c : Dev nD) : V7 m ρ c main_v39
    = (shapeCast S800000x1 (Cert.Spec.weights tfK (logitsK m ρ c) (m ((c : Thread nD τ).loc main_arg2)))
        shapeCasts_S800000_S800000x1 : FVec Ideal S800000x1 .f32) := by
  have e := W6_v25 m ρ c
  have e2 := W6_arg2 m ρ c
  show StableHlo.after hostOps1_2 (W6 m ρ c) (Proc.devRef .tc main_v39) = _
  generalize W6 m ρ c = V at e e2 ⊢
  after_results_simp
  rw [e, e2]
  rfl

end Cert.KernelIdeal.Chain

end
-- ==== Proof.LibGatherVec.lean ====
/-
  Entries of a vector gathered by a column of start indices, read at one entry. For a table of K entries and N start
  indices kept as an N × 1 column, with the table's only axis collapsed and start-indexed, no offset axes, no batching
  axes and the index vector on axis 1 (what indexing a vector by a vector of positions lowers to), entry n of the
  result is the table's entry r, where r is start index n read as a signed integer and clamped into 0 … K - 1.
-/
import Idealize.ShloMosaic.Lib.ValueIdx

namespace Cert.LibGatherVec

open Idealize.ShloMosaic Idealize.ShloMosaic.ValueIdx

/-- The vector gather at entry n: the table at the clamped start index of position n. -/
theorem gather_vec_apply {α : Type} {K N w : Nat}
    (d : GatherDims ⟨1, ![K]⟩ ⟨2, ![N, 1]⟩ ⟨1, ![N]⟩)
    (hoff : d.offsetDims = []) (hcoll : d.collapsedSliceDims = [0]) (hob : d.operandBatchingDims = [])
    (hsim : d.startIndexMap = [0]) (hivd : d.indexVectorDim = 1) (hK : 0 < K)
    (x : (⟨1, ![K]⟩ : Shape).Idx → α) (idx : IVec ⟨2, ![N, 1]⟩ w) (n : Fin N) :
    Host.gather d x idx (ix1 n)
      = x (ix1 (⟨min (idx (ix2 n (0 : Fin 1))).toInt.toNat (K - 1), by omega⟩ : Fin K)) := by
  unfold Host.gather
  congr 1
  funext a
  -- the table's axis is no batching axis, so the batching coordinate vanishes
  have hb : ∀ c : Fin 1, c ∉ d.operandBatchingDims := fun c => by rw [hob]; exact List.not_mem_nil
  refine Fin.ext ?_
  show d.start (ix1 n) idx a + d.batchCoord (ix1 n) a + d.offCoord (ix1 n) a = _
  rw [GatherDims.batchCoord_eq_zero _ _ _ (hb a), Nat.add_zero]
  match a with
  | ⟨0, _⟩ =>
    -- the one axis: collapsed (offset coordinate 0, slice size 1) and start-indexed, so the operand index is the
    -- start index of position n clamped to K - 1
    show d.start (ix1 n) idx (0 : Fin 1) + d.offCoord (ix1 n) (0 : Fin 1)
      = min (idx (ix2 n (0 : Fin 1))).toInt.toNat (K - 1)
    have hc : (0 : Fin 1) ∈ d.collapsedSliceDims := by rw [hcoll]; exact List.mem_singleton.mpr rfl
    have hk : (0 : Fin 1) ∉ d.sKept := fun h => ((GatherDims.mem_sKept _ _).mp h).1 hc
    have hm : (0 : Fin 1) ∈ d.startIndexMap := by rw [hsim]; exact List.mem_singleton.mpr rfl
    have hsl : d.sliceSizes 0 = 1 := d.slice_collapsed 0 hc
    -- the start index of result entry n is read at (n, 0): the batch coordinate n on axis 0, component 0 on the
    -- index vector's axis 1
    have hsi : d.siIdx (ix1 n) ⟨List.idxOf (0 : Fin 1) d.startIndexMap, List.idxOf_lt_length_iff.2 hm⟩
        = ix2 n (0 : Fin 1) := by
      funext b
      match b with
      | ⟨0, _⟩ =>
        unfold GatherDims.siIdx
        rw [dif_neg (by rw [hivd]; simp)]
        unfold GatherDims.siCoord
        apply Fin.ext
        simp only [Fin.val_cast]
        have e : ∀ X : Fin 1, ((ix1 n) X).val = n.val := fun X => by
          have : X = 0 := Subsingleton.elim _ _
          subst this; rfl
        exact e _
      | ⟨1, _⟩ =>
        unfold GatherDims.siIdx
        rw [dif_pos (by rw [hivd])]
        apply Fin.ext
        show List.idxOf (0 : Fin 1) d.startIndexMap = 0
        rw [hsim]; simp
    rw [GatherDims.offCoord_eq_zero _ _ _ hk, Nat.add_zero]
    unfold GatherDims.start
    rw [dif_pos hm, hsi]
    show min (idx (ix2 n (0 : Fin 1))).toInt.toNat (K - d.sliceSizes 0) = min (idx (ix2 n (0 : Fin 1))).toInt.toNat (K - 1)
    rw [hsl]

end Cert.LibGatherVec
-- ==== Proof.KernelLogits.lean ====
/-
  The kernel program's scores are the specification's scores.

  The program holds the node scores as a two-column array st of 50048 rows: row n, column j is the sum over the 128
  features k of the padded features at (n, k) times the side-by-side attention matrix at (k, j). The padded features
  are the features on the first 50000 rows and zero on the last 48; the attention matrix has the first 128 entries of
  the attention column as its column 0 and the last 128 as its column 1. So on a row below 50000, column 0 of st is
  the specification's target score of that node and column 1 its source score. An index word between 0 and 49999 is
  left alone by the correction "add 50048 where the word is negative", and is its own clamp into 0 … 50047, so the
  gathers read the two columns at the nodes the words name, and their sum is the specification's score of the edge.
-/
import proofs.«430319_j52965536694517_1_alg».proof.KernelIdeal
import proofs.«430319_j52965536694517_1_alg».proof.Proof.Spec
import proofs.«430319_j52965536694517_1_alg».proof.Proof.KernelTerm
import proofs.«430319_j52965536694517_1_alg».proof.Proof.LibGatherVec
import Idealize.ShloMosaic.Lib.KernelVsHost
import Idealize.ShloMosaic.Lib.Pipeline.Value
import Idealize.ShloMosaic.Lib.ValueIdx

noncomputable section

open scoped BigOperators

namespace Cert.KernelLogits

open Idealize.ShloMosaic Idealize.ShloMosaic.ValueIdx
open Cert.KernelIdeal Cert.KernelIdeal.Facts₀

variable [Cert.KernelIdeal.Facts]

/-! ## The padded features -/

/-- On a row below 50000 the padded features are the features. -/
theorem pad_apply_lt (h : FVec Ideal S50000x128 .f32) (n : Fin 50048) (k : Fin 128) (hn : n.val < 50000) :
    (pad S50048x128 ![0, 0] ![48, 0] ![0, 0] h (sitofp .f32 (constantI S_ 32 0#32))
        pads_S50000x128_S50048x128_0480_000 h_S_ : FVec Ideal S50048x128 .f32) (ix2 n k)
      = h (ix2 (⟨n.val, hn⟩ : Fin 50000) k) :=
  pad_apply_of_inside ![0, 0] ![48, 0] ![0, 0] h _ pads_S50000x128_S50048x128_0480_000 h_S_ (ix2 n k)
    (ix2 (⟨n.val, hn⟩ : Fin 50000) k)
    (fun a => match a with
      | ⟨0, _⟩ => by
        show n.val = 0 + n.val * (0 + 1)
        omega
      | ⟨1, _⟩ => by
        show k.val = 0 + k.val * (0 + 1)
        omega)

/-- On the last 48 rows the padded features are zero: the padding value is the integer word 0 converted. -/
theorem pad_apply_ge (h : FVec Ideal S50000x128 .f32) (n : Fin 50048) (k : Fin 128) (hn : 50000 ≤ n.val) :
    (pad S50048x128 ![0, 0] ![48, 0] ![0, 0] h (sitofp .f32 (constantI S_ 32 0#32))
        pads_S50000x128_S50048x128_0480_000 h_S_ : FVec Ideal S50048x128 .f32) (ix2 n k) = 0 := by
  refine (pad_apply_of_not_inside ![0, 0] ![48, 0] ![0, 0] h _ pads_S50000x128_S50048x128_0480_000 h_S_ (ix2 n k)
    (0 : Fin 2) ?_).trans ?_
  · show ¬(0 ≤ n.val ∧ (n.val - 0) % (0 + 1) = 0 ∧ (n.val - 0) / (0 + 1) < 50000)
    omega
  · show ((((0#32 : BitVec 32).toInt : ℤ) : ℝ) : EReal) = 0
    simp

/-! ## The attention matrix -/

/-- Column 0 of the side-by-side attention matrix is the first 128 entries of the attention column. -/
theorem cat_apply_0 (att : FVec Ideal S256x1 .f32) (k : Fin 128) :
    (concatenate S128x2 1 [⟨S128x1, extractStridedSlice S128x1 ![0, 0] att slices_S256x1_S128x1_0_0⟩,
        ⟨S128x1, extractStridedSlice S128x1 ![128, 0] att slices_S256x1_S128x1_128_0⟩]
        concatenates_S128x1_S128x1_S128x2_d1 : FVec Ideal S128x2 .f32) (ix2 k (0 : Fin 2))
      = att (ix2 (⟨k.val, by omega⟩ : Fin 256) (0 : Fin 1)) := by
  refine (concatenate_pair_apply_left 1 _ _ concatenates_S128x1_S128x1_S128x2_d1 (ix2 k (0 : Fin 2)) rfl
    (ix2 k (0 : Fin 1)) (fun b => match b with | ⟨0, _⟩ => rfl | ⟨1, _⟩ => rfl)).trans ?_
  exact extractStridedSlice_apply ![0, 0] att _ (ix2 k (0 : Fin 1)) (ix2 (⟨k.val, by omega⟩ : Fin 256) (0 : Fin 1))
    (fun a => match a with
      | ⟨0, _⟩ => (Nat.zero_add _).symm
      | ⟨1, _⟩ => (Nat.zero_add _).symm)

/-- Column 1 of the side-by-side attention matrix is the last 128 entries of the attention column. -/
theorem cat_apply_1 (att : FVec Ideal S256x1 .f32) (k : Fin 128) :
    (concatenate S128x2 1 [⟨S128x1, extractStridedSlice S128x1 ![0, 0] att slices_S256x1_S128x1_0_0⟩,
        ⟨S128x1, extractStridedSlice S128x1 ![128, 0] att slices_S256x1_S128x1_128_0⟩]
        concatenates_S128x1_S128x1_S128x2_d1 : FVec Ideal S128x2 .f32) (ix2 k (1 : Fin 2))
      = att (ix2 (⟨128 + k.val, by omega⟩ : Fin 256) (0 : Fin 1)) := by
  refine (concatenate_pair_apply_right 1 _ _ concatenates_S128x1_S128x1_S128x2_d1 (ix2 k (1 : Fin 2)) rfl rfl
    (ix2 k (0 : Fin 1)) (fun b hb => match b with | ⟨0, _⟩ => rfl | ⟨1, _⟩ => absurd rfl hb) rfl).trans ?_
  exact extractStridedSlice_apply ![128, 0] att _ (ix2 k (0 : Fin 1)) (ix2 (⟨128 + k.val, by omega⟩ : Fin 256) (0 : Fin 1))
    (fun a => match a with
      | ⟨0, _⟩ => rfl
      | ⟨1, _⟩ => (Nat.zero_add _).symm)

/-! ## The node scores -/

/-- Column 0 of st on a row that is a node is the specification's target score of the node. -/
theorem st_s (st : FVec Ideal S50048x2 .f32) (h : FVec Ideal S50000x128 .f32) (att : FVec Ideal S256x1 .f32)
    (hst : ∀ (n : Fin 50048) (j : Fin 2), st (ix2 n j) = ∑ k : Fin 128,
      (pad S50048x128 ![0, 0] ![48, 0] ![0, 0] h (sitofp .f32 (constantI S_ 32 0#32))
        pads_S50000x128_S50048x128_0480_000 h_S_ : FVec Ideal S50048x128 .f32) (ix2 n k)
      * (concatenate S128x2 1 [⟨S128x1, extractStridedSlice S128x1 ![0, 0] att slices_S256x1_S128x1_0_0⟩,
        ⟨S128x1, extractStridedSlice S128x1 ![128, 0] att slices_S256x1_S128x1_128_0⟩]
        concatenates_S128x1_S128x1_S128x2_d1 : FVec Ideal S128x2 .f32) (ix2 k j))
    (m : Fin 50000) :
    st (ix2 (⟨m.val, by omega⟩ : Fin 50048) (0 : Fin 2)) = Cert.Spec.sAt h att m := by
  rw [hst]
  unfold Cert.Spec.sAt
  refine Finset.sum_congr rfl fun k _ => ?_
  rw [pad_apply_lt h _ k m.isLt, cat_apply_0]

/-- Column 1 of st on a row that is a node is the specification's source score of the node. -/
theorem st_t (st : FVec Ideal S50048x2 .f32) (h : FVec Ideal S50000x128 .f32) (att : FVec Ideal S256x1 .f32)
    (hst : ∀ (n : Fin 50048) (j : Fin 2), st (ix2 n j) = ∑ k : Fin 128,
      (pad S50048x128 ![0, 0] ![48, 0] ![0, 0] h (sitofp .f32 (constantI S_ 32 0#32))
        pads_S50000x128_S50048x128_0480_000 h_S_ : FVec Ideal S50048x128 .f32) (ix2 n k)
      * (concatenate S128x2 1 [⟨S128x1, extractStridedSlice S128x1 ![0, 0] att slices_S256x1_S128x1_0_0⟩,
        ⟨S128x1, extractStridedSlice S128x1 ![128, 0] att slices_S256x1_S128x1_128_0⟩]
        concatenates_S128x1_S128x1_S128x2_d1 : FVec Ideal S128x2 .f32) (ix2 k j))
    (m : Fin 50000) :
    st (ix2 (⟨m.val, by omega⟩ : Fin 50048) (1 : Fin 2)) = Cert.Spec.tAt h att m := by
  rw [hst]
  unfold Cert.Spec.tAt
  refine Finset.sum_congr rfl fun k _ => ?_
  rw [pad_apply_lt h _ k m.isLt, cat_apply_1]

/-- Column 0 of st read as a vector: entry n is st at (n, 0). -/
theorem sColK_apply (st : FVec Ideal S50048x2 .f32) (n : Fin 50048) :
    shapeCast S50048 (extractStridedSlice S50048x1 ![0, 0] st slices_S50048x2_S50048x1_0_0)
        shapeCasts_S50048x1_S50048 (ix1 n) = st (ix2 n (0 : Fin 2)) := by
  refine (shapeCast_apply _ _ (ix1 n) (ix2 n (0 : Fin 1)) ?_).trans ?_
  · rw [Shape.rowMajor_val_two, Shape.rowMajor_val_one]
    show n.val * 1 + 0 = n.val
    omega
  · exact extractStridedSlice_apply ![0, 0] st _ (ix2 n (0 : Fin 1)) (ix2 n (0 : Fin 2))
      (fun a => match a with
        | ⟨0, _⟩ => (Nat.zero_add _).symm
        | ⟨1, _⟩ => rfl)

/-- Column 1 of st read as a vector: entry n is st at (n, 1). -/
theorem tColK_apply (st : FVec Ideal S50048x2 .f32) (n : Fin 50048) :
    shapeCast S50048 (extractStridedSlice S50048x1 ![0, 1] st slices_S50048x2_S50048x1_0_1)
        shapeCasts_S50048x1_S50048 (ix1 n) = st (ix2 n (1 : Fin 2)) := by
  refine (shapeCast_apply _ _ (ix1 n) (ix2 n (0 : Fin 1)) ?_).trans ?_
  · rw [Shape.rowMajor_val_two, Shape.rowMajor_val_one]
    show n.val * 1 + 0 = n.val
    omega
  · exact extractStridedSlice_apply ![0, 1] st _ (ix2 n (0 : Fin 1)) (ix2 n (1 : Fin 2))
      (fun a => match a with
        | ⟨0, _⟩ => (Nat.zero_add _).symm
        | ⟨1, _⟩ => rfl)

/-! ## The index words -/

/-- A word whose signed value is not negative is not below zero, so the select between "the word plus 50048" and the
    word returns the word. -/
theorem wrapK_word (x : BitVec 32) (hx : 0 ≤ x.toInt) :
    Scalar.select (IntOp.cmpi .slt x 0#32) (IntOp.addi x 50048#32) x = x := by
  have h : IntOp.cmpi .slt x 0#32 = 0#1 := by
    show BitVec.ofBool (x.slt 0#32) = 0#1
    have h0 : x.slt 0#32 = false := by
      rw [BitVec.slt_eq_decide]
      have : (0#32 : BitVec 32).toInt = 0 := by decide
      rw [this]
      exact decide_eq_false (by omega)
    rw [h0]; rfl
  rw [h]
  exact select_zero _ _

/-- The correction of a whole vector of index words none of which is negative is that vector. -/
theorem wrapK_eq (x : IVec S800000 32) (hx : ∀ i, 0 ≤ (x i).toInt) : Cert.KernelTerm.wrapK x = x := by
  funext i
  exact wrapK_word (x i) (hx i)

/-- A vector over the edges kept as a column reads, at (e, 0), the vector at e. -/
theorem col_apply {α : Type} (v : S800000.Idx → α) (e : Fin 800000) :
    broadcastInDim S800000x1 ![0] bcast_S800000_S800000x1_0 v (ix2 e (0 : Fin 1)) = v (ix1 e) :=
  broadcastInDim_apply _ _ v _ (ix1 e) (fun a => match a with
    | ⟨0, _⟩ => by
      show e.val = if (800000 : Nat) = 1 then 0 else e.val
      rw [if_neg (by decide)])

/-- A vector of 50048 entries gathered at a column of index words reads, at an edge whose word w is between 0 and
    49999, the vector at the node w names. -/
theorem gatherK_apply (x : FVec Ideal S50048 .f32) (idx : IVec S800000x1 32) (e : Fin 800000) (w : BitVec 32)
    (hw : idx (ix2 e (0 : Fin 1)) = w) (hx : 0 ≤ w.toInt ∧ w.toInt < 50000) :
    Host.gather gather_S50048_S800000x1_S800000_n_0_n_n_0_1_1 x idx (ix1 e)
      = x (ix1 (⟨(Cert.Spec.node w).val, by have := (Cert.Spec.node w).isLt; omega⟩ : Fin 50048)) := by
  subst hw
  rw [Cert.LibGatherVec.gather_vec_apply gather_S50048_S800000x1_S800000_n_0_n_n_0_1_1 rfl rfl rfl rfl rfl (by decide)
    x idx e]
  refine congrArg (fun m => x (ix1 m)) (Fin.ext ?_)
  show min (idx (ix2 e (0 : Fin 1))).toInt.toNat (50048 - 1) = min (idx (ix2 e (0 : Fin 1))).toInt.toNat 49999
  omega

/-! ## The scores -/

/-- The program's scores at edge e, the index words taken as they are and between 0 and 49999. -/
theorem logitsK_apply (st : FVec Ideal S50048x2 .f32) (h : FVec Ideal S50000x128 .f32) (att : FVec Ideal S256x1 .f32)
    (row col : IVec S800000 32)
    (hst : ∀ (n : Fin 50048) (j : Fin 2), st (ix2 n j) = ∑ k : Fin 128,
      (pad S50048x128 ![0, 0] ![48, 0] ![0, 0] h (sitofp .f32 (constantI S_ 32 0#32))
        pads_S50000x128_S50048x128_0480_000 h_S_ : FVec Ideal S50048x128 .f32) (ix2 n k)
      * (concatenate S128x2 1 [⟨S128x1, extractStridedSlice S128x1 ![0, 0] att slices_S256x1_S128x1_0_0⟩,
        ⟨S128x1, extractStridedSlice S128x1 ![128, 0] att slices_S256x1_S128x1_128_0⟩]
        concatenates_S128x1_S128x1_S128x2_d1 : FVec Ideal S128x2 .f32) (ix2 k j))
    (e : Fin 800000)
    (hr : 0 ≤ (row (ix1 e)).toInt ∧ (row (ix1 e)).toInt < 50000)
    (hc : 0 ≤ (col (ix1 e)).toInt ∧ (col (ix1 e)).toInt < 50000) :
    addf
      (Host.gather gather_S50048_S800000x1_S800000_n_0_n_n_0_1_1
        (shapeCast S50048 (extractStridedSlice S50048x1 ![0, 0] st slices_S50048x2_S50048x1_0_0)
          shapeCasts_S50048x1_S50048)
        (broadcastInDim S800000x1 ![0] bcast_S800000_S800000x1_0 row))
      (Host.gather gather_S50048_S800000x1_S800000_n_0_n_n_0_1_1
        (shapeCast S50048 (extractStridedSlice S50048x1 ![0, 1] st slices_S50048x2_S50048x1_0_1)
          shapeCasts_S50048x1_S50048)
        (broadcastInDim S800000x1 ![0] bcast_S800000_S800000x1_0 col)) (ix1 e)
      = Cert.Spec.logits h att row col (ix1 e) := by
  rw [addf_apply, gatherK_apply _ _ e (row (ix1 e)) (col_apply row e) hr,
    gatherK_apply _ _ e (col (ix1 e)) (col_apply col e) hc, sColK_apply, tColK_apply,
    st_s st h att hst, st_t st h att hst]
  rfl

/-- The kernel program's scores are the specification's, for an array st of node scores that is the padded features
    times the attention matrix and index words between 0 and 49999. -/
theorem logitsTermK_eq (st : FVec Ideal S50048x2 .f32) (h : FVec Ideal S50000x128 .f32) (att : FVec Ideal S256x1 .f32)
    (row col : IVec S800000 32)
    (hst : ∀ (n : Fin 50048) (j : Fin 2), st (ix2 n j) = ∑ k : Fin 128,
      (pad S50048x128 ![0, 0] ![48, 0] ![0, 0] h (sitofp .f32 (constantI S_ 32 0#32))
        pads_S50000x128_S50048x128_0480_000 h_S_ : FVec Ideal S50048x128 .f32) (ix2 n k)
      * (concatenate S128x2 1 [⟨S128x1, extractStridedSlice S128x1 ![0, 0] att slices_S256x1_S128x1_0_0⟩,
        ⟨S128x1, extractStridedSlice S128x1 ![128, 0] att slices_S256x1_S128x1_128_0⟩]
        concatenates_S128x1_S128x1_S128x2_d1 : FVec Ideal S128x2 .f32) (ix2 k j))
    (hrow : ∀ i, 0 ≤ (row i).toInt ∧ (row i).toInt < 50000) (hcol : ∀ i, 0 ≤ (col i).toInt ∧ (col i).toInt < 50000) :
    Cert.KernelTerm.logitsTermK st row col = Cert.Spec.logits h att row col := by
  unfold Cert.KernelTerm.logitsTermK
  rw [wrapK_eq row (fun i => (hrow i).1), wrapK_eq col (fun i => (hcol i).1)]
  funext i
  obtain ⟨e, rfl⟩ : ∃ e : Fin 800000, i = ix1 e := ⟨i 0, eq_ix1 i⟩
  exact logitsK_apply st h att row col hst e (hrow (ix1 e)) (hcol (ix1 e))

end Cert.KernelLogits

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Region0.lean ====
/-
  The first call's result array, read at an entry.

  The first call walks a grid of 8 points. At point t it multiplies rows 6256·t … 6256·t + 6255 of the padded
  feature array (50048 rows of 128 features) by the 128 × 2 attention matrix and writes the 6256 × 2 product back as
  rows 6256·t … 6256·t + 6255 of the 50048 × 2 result. The 8 row blocks tile the result (50048 = 8 · 6256: the block
  holding row n is the one at point n / 6256), and a row of a product depends on that row of the left operand only, so
  every block written back is the matching block of ONE array: the product of the whole padded feature array with the
  attention matrix. Hence entry (n, j) of the result is the sum over the 128 features k of
  feature k of row n times entry (k, j) of the attention matrix.

  Everything is stated at arbitrary contents V of the buffers when the call is entered.
-/
import proofs.«430319_j52965536694517_1_alg».proof.Proof.Gen.KernelIdeal.Frame
import proofs.«430319_j52965536694517_1_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable (V : (c : Dev nD) → (b : Ref sig .tc) → Buf (Elt Ideal) ((c : Thread nD τ).loc b))

/-! ## The product at an entry -/

/-- Entry (n, j) of the product of a 50048 × 128 array H with a 128 × 2 array A. -/
def prodAt (H : FVec Ideal S50048x128 .f32) (A : FVec Ideal S128x2 .f32) (n : Fin 50048) (j : Fin 2) : EReal :=
  ∑ k : Fin 128, H (ix2 n k) * A (ix2 k j)

/-- The whole 50048 × 2 product. -/
def prodArr (H : FVec Ideal S50048x128 .f32) (A : FVec Ideal S128x2 .f32) : FVec Ideal S50048x2 .f32 :=
  fun i => prodAt H A (i 0) (i 1)

theorem prodArr_apply (H : FVec Ideal S50048x128 .f32) (A : FVec Ideal S128x2 .f32) (n : Fin 50048) (j : Fin 2) :
    prodArr H A (ix2 n j) = prodAt H A n j := rfl

/-! ## One block's product -/

/-- The body's dimension numbers are those of a plain product: rows × contraction by contraction × columns, no
    batch axis. -/
theorem dims_eq : dot_S6256x128_S128x2_S6256x2_1_0_0_1_n_n = DotDims.plain 6256 128 2 := rfl

/-- What the body stores, at row r and column j of the block: the sum over the 128 contracted coordinates of the
    left block at (r, k) times the right block at (k, j). The accumulator is the zero array and the two reshapes
    keep their shapes. -/
theorem pay_apply (x0 : Vec Ideal S6256x128 .f32) (x1 : Vec Ideal S128x2 .f32) (r : Fin 6256) (j : Fin 2) :
    k0_pay1 (F := Ideal) x0 x1 (ix2 r j) = ∑ k : Fin 128, x0 (ix2 r k) * x1 (ix2 k j) := by
  unfold k0_pay1
  rw [shapeCast_self, shapeCast_self, dims_eq]
  exact Cert.LibPlainDot.matmul_plain_apply 6256 128 2 (some .fp32) x0 x1 r j

/-! ## Where the blocks sit -/

theorem hz : (![0, 0] : Fin 2 → Nat) = fun _ => 0 := funext fun a => by fin_cases a <;> rfl

/-- The block indices over the grid: at point t the feature window and the result window are at row block t,
    column block 0; the attention matrix is one block, at (0, 0), at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the feature block at point t is row 6256·t + r of the padded feature array. -/
theorem blk0_apply (c : Dev nD) (t : Fin cfg0.N) (r : Fin 6256) (k : Fin 128) (i : S50048x128.Idx)
    (h0 : (i 0).val = 6256 * t.val + r.val) (h1 : (i 1).val = k.val) :
    (iblk0 V c 0 t : Vec Ideal S6256x128 .f32) (ix2 r k) = (V c main_v0 : S50048x128.Idx → EReal) i := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 6256 + 1 * r.val = (i 0).val; rw [e0, h0]; omega
  | ⟨1, _⟩ => show win0_0.index t (1 : Fin 2) * 128 + 1 * k.val = (i 1).val; rw [e1, h1]; omega

/-- The attention block at any point is the whole attention matrix. -/
theorem blk1_apply (c : Dev nD) (t : Fin cfg0.N) (k : Fin 128) (j : Fin 2) :
    (iblk0 V c 1 t : Vec Ideal S128x2 .f32) (ix2 k j) = (V c main_v4 : S128x2.Idx → EReal) (ix2 k j) := by
  obtain ⟨-, -, e2, e3, -⟩ := idx_facts t
  unfold iblk0
  rw [View.read_apply]
  show V c main_v4 _ = V c main_v4 _
  congr 1
  funext a
  apply Fin.ext
  match a with
  | ⟨0, _⟩ => show win0_1.index t (0 : Fin 2) * 128 + 1 * k.val = k.val; rw [e2]; omega
  | ⟨1, _⟩ => show win0_1.index t (1 : Fin 2) * 2 + 1 * j.val = j.val; rw [e3]; omega

/-! ## What each point writes back -/

/-- Point t writes back block t of the whole product: entry (r, j) of the block's product is the sum over k of
    row 6256·t + r of the features times column j of the attention matrix, which is entry (6256·t + r, j) of the
    whole product. -/
theorem flushed_eq (c : Dev nD) (t : Fin cfg0.N) :
    (dat0 (F := Ideal) V c).flushed 2 t
      = ((cfg0.win 2).blk t).view.read (Elt Ideal) (prodArr (V c main_v0) (V c main_v4)) := by
  show (cfg0.win 2).cut (grid0.coords t) ((dat0 V c).after 2 t) = _
  rw [after0_2]
  unfold out0_2
  rw [View.canon_unit_zero hz]
  simp only [View.ld_unit_zero (S := S6256x128) hz, View.ld_unit_zero (S := S128x2) hz]
  funext y
  obtain ⟨r, j, rfl⟩ : ∃ (r : Fin 6256) (j : Fin 2), y = ix2 r j := ⟨y 0, y 1, eq_ix2 y⟩
  obtain ⟨-, -, -, -, e4, e5⟩ := idx_facts t
  show k0_pay1 (F := Ideal) (iblk0 V c 0 t) (iblk0 V c 1 t) (ix2 r j)
    = prodArr (V c main_v0) (V c main_v4) (((cfg0.win 2).blk t).view.emb (ix2 r j))
  rw [pay_apply]
  unfold prodArr prodAt
  refine Finset.sum_congr rfl fun k _ => ?_
  have hE0 : ((((cfg0.win 2).blk t).view.emb (ix2 r j)) 0).val = 6256 * t.val + r.val := by
    show win0_2.index t (0 : Fin 2) * 6256 + 1 * r.val = _
    rw [e4]; omega
  have hE1 : ((((cfg0.win 2).blk t).view.emb (ix2 r j)) 1) = j := by
    apply Fin.ext
    show win0_2.index t (1 : Fin 2) * 2 + 1 * j.val = _
    rw [e5]; omega
  rw [blk0_apply V c t r k (ix2 ((((cfg0.win 2).blk t).view.emb (ix2 r j)) 0) k) hE0 rfl, blk1_apply V c t k j, hE1]

/-! ## The blocks tile the result -/

/-- An entry of the result is in point t's block iff each coordinate is in the block's range on its axis. -/
theorem mem_blk (t : Fin cfg0.N) (i : S50048x2.Idx) :
    i ∈ ((cfg0.win 2).blk t).view.set ↔ ∀ a : Fin 2, win0_2.index t a * S6256x2.size a ≤ (i a).val ∧ (i a).val < win0_2.index t a * S6256x2.size a + S6256x2.size a := by
  show i ∈ ((View.whole main_v5).slice (win0_2.rect t)).set ↔ _
  rw [View.set_slice_whole, Rect.mem_set_unit]
  exact Iff.rfl

/-- Every entry of the result is in some written block: row n lies in the block of point n / 6256, which is below 8
    because n is below 50048 = 8 · 6256. -/
theorem cover (i : S50048x2.Idx) :
    ∃ t : Fin cfg0.N, (cfg0.win 2).flush t = true ∧ i ∈ ((cfg0.win 2).blk t).view.set := by
  have hi0 : (i 0).val < 50048 := (i 0).isLt
  have hi1 : (i 1).val < 2 := (i 1).isLt
  obtain ⟨t, ht⟩ : ∃ t : Fin cfg0.N, t.val = (i 0).val / 6256 :=
    ⟨⟨(i 0).val / 6256, by show _ < grid0.N; rw [N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 6256 ≤ (i 0).val ∧ (i 0).val < win0_2.index t (0 : Fin 2) * 6256 + 6256
    rw [e4, ht]; omega
  | ⟨1, _⟩ =>
    show win0_2.index t (1 : Fin 2) * 2 ≤ (i 1).val ∧ (i 1).val < win0_2.index t (1 : Fin 2) * 2 + 2
    rw [e5]; omega

/-! ## The result array -/

/-- After the 8 points the result array is the product of the padded feature array with the attention matrix,
    both as the call found them. -/
theorem arr0_eq (c : Dev nD) :
    (dat0 (F := Ideal) V c).arrAt 2 cfg0.N = prodArr (V c main_v0) (V c main_v4) :=
  (dat0 (F := Ideal) V c).arrAt_eq_of_cover 2 (prodArr (V c main_v0) (V c main_v4)) (fun t _ => flushed_eq V c t) cover

/-- Entry (n, j) of the result array. -/
theorem arr0_apply (c : Dev nD) (n : Fin 50048) (j : Fin 2) :
    (dat0 (F := Ideal) V c).arrAt 2 cfg0.N (ix2 n j) = prodAt (V c main_v0) (V c main_v4) n j := by
  rw [arr0_eq]; rfl

/-- The same with the two operands named: for H the padded feature array and A the attention matrix as the call
    found them, entry (n, j) of the result is the sum over k of H (n, k) · A (k, j). -/
theorem arr0_apply_of (c : Dev nD) (H : FVec Ideal S50048x128 .f32) (A : FVec Ideal S128x2 .f32)
    (hH : V c main_v0 = H) (hA : V c main_v4 = A) (n : Fin 50048) (j : Fin 2) :
    (dat0 (F := Ideal) V c).arrAt 2 cfg0.N (ix2 n j) = ∑ k : Fin 128, H (ix2 n k) * A (ix2 k j) := by
  subst hH hA
  exact arr0_apply V c n j

end Cert.KernelIdeal.R0

end
-- ==== Proof.Region1Gather.lean ====
/-
  The gather phase of one grid point, as a value. The point's 128 edges have column indices v3 and weights v7. The
  phase clears a 128 by 128 scratch and then walks the 23 tiles of 2176 nodes: at tile k it adds to the scratch the
  product of the 128 by 2176 matrix that holds edge e's weight in the column of the node the edge leaves (zero
  elsewhere) with the tile's 2176 by 128 features. What the scratch holds after k tiles is therefore a recursion over
  the tiles, each step one application of the tile's payload to the tile of the features and to what the tiles before
  left. This module reads that recursion off the loop's pieces: every tile rewrites the WHOLE scratch, so the scratch
  after a tile is that tile's payload, and the payload's two loads read the tile of the features and the scratch as
  the tile before left it.
-/
import proofs.«430319_j52965536694517_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.R1

open Cert.KernelIdeal Cert.KernelIdeal.Gen

variable {F : FTy → Type} [FloatOps F]

/-- The zero offsets, however they are spelt. -/
theorem hz : (![0, 0] : Fin 2 → Nat) = fun _ => 0 := funext fun a => by fin_cases a <;> rfl

/-- The rectangle of tile k of the features: 2176 rows from row 2176 k, all 128 columns. -/
abbrev featRect (k : Fin k1_t1_loop.trips) : Rect S50048x128 :=
  Rect.unit (s := S50048x128) (k1_off1 k) S2176x128.size (k1_off1_inb k)

/-- The scratch after k tiles of the gather phase, from the features x0 and the scratch M0 the phase starts with. -/
def msgsAt (v3 : Vec F S128x1 .i32) (v7 : Vec F S128x1 .f32) (x0 : Vec F S50048x128 .bf16) (M0 : Vec F S128x128 .f32) :
    ℕ → Vec F S128x128 .f32
  | 0 => M0
  | k + 1 =>
    if h : k < k1_t1_loop.trips then
      k1_pay3 v3 v7 ⟨k, h⟩ (View.ld x0 (featRect ⟨k, h⟩)) (msgsAt v3 v7 x0 M0 k)
    else msgsAt v3 v7 x0 M0 k

theorem msgsAt_succ (v3 : Vec F S128x1 .i32) (v7 : Vec F S128x1 .f32) (x0 : Vec F S50048x128 .bf16) (M0 : Vec F S128x128 .f32)
    (k : ℕ) (h : k < k1_t1_loop.trips) :
    msgsAt v3 v7 x0 M0 (k + 1) = k1_pay3 v3 v7 ⟨k, h⟩ (View.ld x0 (featRect ⟨k, h⟩)) (msgsAt v3 v7 x0 M0 k) := by
  rw [msgsAt, dif_pos h]

/-- What the scratch reads after the first k trips of the gather loop, started from contents G: the recursion, from
    what G reads. -/
theorem scratch_after (c : Dev nD) (i : grid1.Coords) (a1 : Memref sig .tc .vmem S50048x128 .bf16) (h1 : a1.IsWhole) (a2 : Memref sig .tc .vmem S128x1 .i32) (h2 : a2.IsWhole) (a3 : Memref sig .tc .vmem S128x1 .i32) (h3 : a3.IsWhole) (a4 : Memref sig .tc .vmem S128x1 .f32) (h4 : a4.IsWhole) (a5 : Memref sig .tc .vmem S50048x128 .f32) (h5 : a5.IsWhole) (a6 : Memref sig .tc .vmem S128x128 .f32) (h6 : a6.IsWhole)
    (v3 : Vec F S128x1 .i32) (v7 : Vec F S128x1 .f32) (x0 : Vec F S50048x128 .bf16) (G : BufTy.Contents (Elt F) a6.view.ty) :
    ∀ k : ℕ, k ≤ k1_t1_loop.trips →
      a6.view.read (Elt F) (a6.view.writes (Elt F) G
          (pb_k1_t1 (F := F) Variants.none c none i a1 h1 a2 h2 a3 h3 a4 h4 a5 h5 a6 h6 v3 v7 (h1.unread x0) G k))
        = msgsAt v3 v7 x0 (a6.view.read (Elt F) G) k := by
  intro k
  induction k with
  | zero => intro _; rfl
  | succ k ih =>
    intro hk
    have hk' : k < k1_t1_loop.trips := hk
    have hs := pb_k1_t1_succ (F := F) Variants.none c none i a1 h1 a2 h2 a3 h3 a4 h4 a5 h5 a6 h6 v3 v7 (h1.unread x0) G ⟨k, hk'⟩
    dsimp only at hs
    rw [hs]
    unfold tripL_k1_t1 trip_k1_t1
    dsimp only
    rw [List.singleton_append,
      View.read_writes_eq_canon _ _ _ (fun y => ⟨_, List.mem_cons_self, View.mem_set_unit_zero hz inb_S128x128_S128x128_0_0 y⟩),
      View.canon_cons_unit_zero hz, msgsAt_succ v3 v7 x0 _ k hk', View.readAt_eq_ld, View.readAt_eq_ld, h1.read_unread,
      View.ld_unit_zero hz, ih (Nat.le_of_lt hk')]

end Cert.KernelIdeal.R1

end
-- ==== Proof.Region1Scatter.lean ====
/-
  The scatter phase of one grid point, as a value. The point's 128 edges have row indices v5 and messages v14 (the
  128 by 128 scratch the gather phase left). The phase walks the 23 tiles of 2176 nodes of the accumulator: at tile k
  it reads the tile, adds the product of the 2176 by 128 matrix that holds a one where node (2176 k + r) is the node
  edge e arrives at with the messages, and stores the tile back. Each tile is read and written by its own trip only,
  so what a trip reads is what the accumulator held when the phase began, and after the phase node (2176 k + r)'s row
  is tile k's payload of that tile, at row r.
-/
import proofs.«430319_j52965536694517_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem

namespace Cert.KernelIdeal.R1

open Cert.KernelIdeal Cert.KernelIdeal.Gen

variable {F : FTy → Type} [FloatOps F]

/-- The rectangle of tile k of the accumulator: 2176 rows from row 2176 k, all 128 columns. -/
abbrev accRect (k : Fin k1_t2_loop.trips) : Rect S50048x128 :=
  Rect.unit (s := S50048x128) (k1_off2 k) S2176x128.size (k1_off2_inb k)

/-- Tile k starts at row 2176 k, -/
theorem off2_zero (k : Fin k1_t2_loop.trips) : (k1_off2 k) 0 = 2176 * k.val := by rw [k1_off2_eq]; rfl
/-- at column 0. -/
theorem off2_one (k : Fin k1_t2_loop.trips) : (k1_off2 k) 1 = 0 := by rw [k1_off2_eq]; rfl

/-- The piece tile k's trip writes, from the accumulator g the phase started from. -/
abbrev tilePiece (v5 : Vec F S128x1 .i32) (v14 : Vec F S128x128 .f32) (g : Vec F S50048x128 .f32) (k : Fin k1_t2_loop.trips) :
    View.Piece (Elt F) S50048x128 .f32 :=
  ⟨accRect k, k1_pay4 v5 v14 k (View.ld g (accRect k))⟩

/-- The pieces of the first k tiles, the last tile first. -/
def scatterPieces (v5 : Vec F S128x1 .i32) (v14 : Vec F S128x128 .f32) (g : Vec F S50048x128 .f32) :
    ℕ → List (View.Piece (Elt F) S50048x128 .f32)
  | 0 => []
  | k + 1 =>
    if h : k < k1_t2_loop.trips then tilePiece v5 v14 g ⟨k, h⟩ :: scatterPieces v5 v14 g k
    else scatterPieces v5 v14 g k

theorem scatterPieces_succ (v5 : Vec F S128x1 .i32) (v14 : Vec F S128x128 .f32) (g : Vec F S50048x128 .f32)
    (k : ℕ) (h : k < k1_t2_loop.trips) :
    scatterPieces v5 v14 g (k + 1) = tilePiece v5 v14 g ⟨k, h⟩ :: scatterPieces v5 v14 g k := by
  rw [scatterPieces, dif_pos h]

/-- Every piece of the first k tiles is the piece of a tile before k. -/
theorem mem_scatterPieces (v5 : Vec F S128x1 .i32) (v14 : Vec F S128x128 .f32) (g : Vec F S50048x128 .f32) :
    ∀ (k : ℕ) (p : View.Piece (Elt F) S50048x128 .f32), p ∈ scatterPieces v5 v14 g k →
      ∃ (k' : ℕ) (h : k' < k1_t2_loop.trips), k' < k ∧ p = tilePiece v5 v14 g ⟨k', h⟩
  | 0, p, hp => absurd hp List.not_mem_nil
  | k + 1, p, hp => by
    by_cases h : k < k1_t2_loop.trips
    · rw [scatterPieces_succ v5 v14 g k h] at hp
      rcases List.mem_cons.mp hp with rfl | hp'
      · exact ⟨k, h, Nat.lt_succ_self k, rfl⟩
      · obtain ⟨k', h', hlt, e⟩ := mem_scatterPieces v5 v14 g k p hp'
        exact ⟨k', h', Nat.lt_succ_of_lt hlt, e⟩
    · rw [scatterPieces, dif_neg h] at hp
      obtain ⟨k', h', hlt, e⟩ := mem_scatterPieces v5 v14 g k p hp
      exact ⟨k', h', Nat.lt_succ_of_lt hlt, e⟩

/-- The piece of a tile before k is among the pieces of the first k tiles. -/
theorem tilePiece_mem (v5 : Vec F S128x1 .i32) (v14 : Vec F S128x128 .f32) (g : Vec F S50048x128 .f32)
    (k' : Fin k1_t2_loop.trips) : ∀ k : ℕ, k'.val < k → tilePiece v5 v14 g k' ∈ scatterPieces v5 v14 g k
  | 0, h => absurd h (Nat.not_lt_zero _)
  | k + 1, h => by
    by_cases hk : k < k1_t2_loop.trips
    · rw [scatterPieces_succ v5 v14 g k hk]
      rcases Nat.lt_succ_iff_lt_or_eq.mp h with hlt | heq
      · exact List.mem_cons_of_mem _ (tilePiece_mem v5 v14 g k' k hlt)
      · have : k' = ⟨k, hk⟩ := Fin.ext heq
        subst this
        exact List.mem_cons_self
    · rw [scatterPieces, dif_neg hk]
      exact tilePiece_mem v5 v14 g k' k (by have := k'.isLt; omega)

/-- An index of tile k is in tile k' only if k' = k: the tiles' row ranges do not meet. -/
theorem tile_eq_of_mem (k k' : Fin k1_t2_loop.trips) (j : (accRect k).shape.Idx)
    (hm : (accRect k).toLoadRect.idx j ∈ (accRect k').set) : k' = k := by
  have h0 := (Rect.mem_set_unit.mp hm) 0
  have e0 : (((accRect k).toLoadRect.idx j) 0 : ℕ) = (k1_off2 k) 0 + 1 * (j 0 : ℕ) := rfl
  have hj : (j 0 : ℕ) < 2176 := (j 0).isLt
  have hs : S2176x128.size 0 = 2176 := rfl
  rw [e0, off2_zero, off2_zero, hs] at h0
  apply Fin.ext
  omega

/-- The loop's pieces after k trips, started from contents G, are the pieces of the first k tiles from what G reads:
    each trip reads its own tile, which the trips before did not write. -/
theorem pieces_eq (c : Dev nD) (i : grid1.Coords) (a1 : Memref sig .tc .vmem S50048x128 .bf16) (h1 : a1.IsWhole) (a2 : Memref sig .tc .vmem S128x1 .i32) (h2 : a2.IsWhole) (a3 : Memref sig .tc .vmem S128x1 .i32) (h3 : a3.IsWhole) (a4 : Memref sig .tc .vmem S128x1 .f32) (h4 : a4.IsWhole) (a5 : Memref sig .tc .vmem S50048x128 .f32) (h5 : a5.IsWhole) (a6 : Memref sig .tc .vmem S128x128 .f32) (h6 : a6.IsWhole)
    (v5 : Vec F S128x1 .i32) (v14 : Vec F S128x128 .f32) (G : BufTy.Contents (Elt F) a5.view.ty) :
    ∀ k : ℕ, k ≤ k1_t2_loop.trips →
      pb_k1_t2 (F := F) Variants.none c none i a1 h1 a2 h2 a3 h3 a4 h4 a5 h5 a6 h6 v5 v14 G k = scatterPieces v5 v14 (a5.view.read (Elt F) G) k := by
  intro k
  induction k with
  | zero => intro _; rfl
  | succ k ih =>
    intro hk
    have hk' : k < k1_t2_loop.trips := hk
    have hs := pb_k1_t2_succ (F := F) Variants.none c none i a1 h1 a2 h2 a3 h3 a4 h4 a5 h5 a6 h6 v5 v14 G ⟨k, hk'⟩
    dsimp only at hs
    rw [hs, ih (Nat.le_of_lt hk'), scatterPieces_succ _ _ _ k hk']
    unfold tripL_k1_t2 trip_k1_t2
    dsimp only
    rw [List.singleton_append, View.readAt_writes_of_forall_not_mem _ _ _ _ (fun j p hp hm => by
      obtain ⟨k', h', hlt, rfl⟩ := mem_scatterPieces _ _ _ k p hp
      have := tile_eq_of_mem ⟨k, hk'⟩ ⟨k', h'⟩ j hm
      exact absurd (congrArg Fin.val this) (Nat.ne_of_lt hlt)), View.readAt_eq_ld]

/-- After at least k + 1 trips, node (2176 k + r)'s row of the accumulator reads tile k's payload at row r, whatever
    the buffer held outside the pieces: tile k's piece is the one piece that covers the row. -/
theorem read_scatter {sig' : RefSig} {κ' : Kind} {sp' : Space} (v : View sig' κ' sp' S50048x128 .f32) (f : v.ty.Contents (Elt F))
    (v5 : Vec F S128x1 .i32) (v14 : Vec F S128x128 .f32) (g : Vec F S50048x128 .f32)
    (K : ℕ) (k : Fin k1_t2_loop.trips) (hK : k.val < K) (x : (accRect k).shape.Idx) :
    v.read (Elt F) (v.writes (Elt F) f (scatterPieces v5 v14 g K)) ((accRect k).emb x)
      = k1_pay4 v5 v14 k (View.ld g (accRect k)) x :=
  View.read_writes_of_unique v f (tilePiece v5 v14 g k) x _ (tilePiece_mem v5 v14 g k K hK) (fun q hq hm => by
    obtain ⟨k', h', _, rfl⟩ := mem_scatterPieces _ _ _ K q hq
    have := tile_eq_of_mem k ⟨k', h'⟩ x hm
    rw [this])

end Cert.KernelIdeal.R1

end
-- ==== Proof.Region1Cases.lean ====
/-
  One grid point of the gather and scatter kernel, as a value, in its two cases. Whatever the point, the body clears
  the scratch, runs the gather phase over the 23 tiles (the messages of the point's 128 edges), then runs the scatter
  phase over the 23 tiles of the accumulator. At the first point it fills the accumulator with zeros before that; at
  every other point the accumulator holds what the point before left. So at node (2176 k + r) the accumulator ends
  as tile k's scatter payload, at row r, of the point's messages and of the tile of what the point started from:
  the zero array at the first point, the previous contents elsewhere.
-/
import proofs.«430319_j52965536694517_1_alg».proof.Proof.Region1Gather
import proofs.«430319_j52965536694517_1_alg».proof.Proof.Region1Scatter

noncomputable section

open Idealize.ShloMosaic Idealize.ShloMosaic.TcCoe Idealize.ShloMosaic.Tactic Idealize.ShloMosaic.ValueIdx Idealize.SL.Sem

namespace Cert.KernelIdeal.R1

open Cert.KernelIdeal Cert.KernelIdeal.Gen

variable {F : FTy → Type} [FloatOps F]

/-- The messages of a point: the scratch after all the tiles of the gather phase, from the cleared scratch. -/
def messages (x0 : Vec F S50048x128 .bf16) (x1 : Vec F S128x1 .i32) (x3 : Vec F S128x1 .f32) : Vec F S128x128 .f32 :=
  msgsAt x1 x3 x0 (k1_pay2 (F := F)) k1_t1_loop.trips

/-- Node (2176 k + r)'s row after the scatter loop's trips, through any view and over any prior contents. -/
theorem read_loop {sig' : RefSig} {κ' : Kind} {sp' : Space} (v : View sig' κ' sp' S50048x128 .f32) (f : v.ty.Contents (Elt F))
    (c : Dev nD) (i : grid1.Coords) (a1 : Memref sig .tc .vmem S50048x128 .bf16) (h1 : a1.IsWhole) (a2 : Memref sig .tc .vmem S128x1 .i32) (h2 : a2.IsWhole) (a3 : Memref sig .tc .vmem S128x1 .i32) (h3 : a3.IsWhole) (a4 : Memref sig .tc .vmem S128x1 .f32) (h4 : a4.IsWhole) (a5 : Memref sig .tc .vmem S50048x128 .f32) (h5 : a5.IsWhole) (a6 : Memref sig .tc .vmem S128x128 .f32) (h6 : a6.IsWhole)
    (v5 : Vec F S128x1 .i32) (v14 : Vec F S128x128 .f32) (G : BufTy.Contents (Elt F) a5.view.ty)
    (k : Fin k1_t2_loop.trips) (x : (accRect k).shape.Idx) :
    v.read (Elt F) (v.writes (Elt F) f (pb_k1_t2 (F := F) Variants.none c none i a1 h1 a2 h2 a3 h3 a4 h4 a5 h5 a6 h6 v5 v14 G k1_t2_loop.trips)) ((accRect k).emb x)
      = k1_pay4 v5 v14 k (View.ld (a5.view.read (Elt F) G) (accRect k)) x := by
  rw [pieces_eq c i a1 h1 a2 h2 a3 h3 a4 h4 a5 h5 a6 h6 v5 v14 G _ (Nat.le_refl _)]
  exact read_scatter v f v5 v14 _ _ k k.isLt x

/-- The scratch read back after the gather phase is the point's messages: the phase started from the cleared scratch, and
    its loads of the edges' column indices and weights read the point's blocks. -/
theorem gathered (c : Dev nD) (i : grid1.Coords) (a1 : Memref sig .tc .vmem S50048x128 .bf16) (h1 : a1.IsWhole) (a2 : Memref sig .tc .vmem S128x1 .i32) (h2 : a2.IsWhole) (a3 : Memref sig .tc .vmem S128x1 .i32) (h3 : a3.IsWhole) (a4 : Memref sig .tc .vmem S128x1 .f32) (h4 : a4.IsWhole) (a5 : Memref sig .tc .vmem S50048x128 .f32) (h5 : a5.IsWhole) (a6 : Memref sig .tc .vmem S128x128 .f32) (h6 : a6.IsWhole)
    (x0 : Vec F S50048x128 .bf16) (x1 : Vec F S128x1 .i32) (x3 : Vec F S128x1 .f32) :
    View.readAt (Elt F) a6.view (Rect.unit (s := S128x128) ![0, 0] S128x128.size inb_S128x128_S128x128_0_0).toLoadRect
        (a6.view.writes (Elt F) a6.view.junk
          (pb_k1_t1 (F := F) Variants.none c none i a1 h1 a2 h2 a3 h3 a4 h4 a5 h5 a6 h6
              (View.readAt (Elt F) a2.view (Rect.unit (s := S128x1) ![0, 0] S128x1.size inb_S128x1_S128x1_0_0).toLoadRect (h2.unread x1))
              (View.readAt (Elt F) a4.view (Rect.unit (s := S128x1) ![0, 0] S128x1.size inb_S128x1_S128x1_0_0).toLoadRect (h4.unread x3))
              (h1.unread x0)
              (a6.view.writes (Elt F) a6.view.junk
                [⟨Rect.unit (s := S128x128) ![0, 0] S128x128.size inb_S128x128_S128x128_0_0, k1_pay2⟩])
              (Scf.trips k1_t1_loop.lb k1_t1_loop.ub k1_t1_loop.st) ++
            [⟨Rect.unit (s := S128x128) ![0, 0] S128x128.size inb_S128x128_S128x128_0_0, k1_pay2⟩]))
      = messages x0 x1 x3 := by
  rw [View.writes_append, View.readAt_eq_ld, View.ld_unit_zero hz]
  refine (scratch_after c i a1 h1 a2 h2 a3 h3 a4 h4 a5 h5 a6 h6 _ _ x0 _ _ (Nat.le_refl _)).trans ?_
  rw [View.readAt_eq_ld, View.readAt_eq_ld, h2.read_unread, h4.read_unread, View.ld_unit_zero hz, View.ld_unit_zero hz,
    View.read_writes_eq_canon _ _ _ (fun y => ⟨_, List.mem_singleton_self _, View.mem_set_unit_zero hz inb_S128x128_S128x128_0_0 y⟩),
    View.canon_unit_zero hz]
  rfl

/-- A point that is not the first: the accumulator, holding xo, ends at node (2176 k + r) as tile k's payload of the
    point's messages and of tile k of xo. -/
theorem out_B (c : Dev nD) (i : grid1.Coords) (a1 : Memref sig .tc .vmem S50048x128 .bf16) (h1 : a1.IsWhole) (a2 : Memref sig .tc .vmem S128x1 .i32) (h2 : a2.IsWhole) (a3 : Memref sig .tc .vmem S128x1 .i32) (h3 : a3.IsWhole) (a4 : Memref sig .tc .vmem S128x1 .f32) (h4 : a4.IsWhole) (a5 : Memref sig .tc .vmem S50048x128 .f32) (h5 : a5.IsWhole) (a6 : Memref sig .tc .vmem S128x128 .f32) (h6 : a6.IsWhole) (hc : ¬cond1_0 i)
    (x0 : Vec F S50048x128 .bf16) (x1 : Vec F S128x1 .i32) (x2 : Vec F S128x1 .i32) (x3 : Vec F S128x1 .f32)
    (xo : Vec F S50048x128 .f32) (k : Fin k1_t2_loop.trips) (x : (accRect k).shape.Idx) :
    out1_B_4 c i a1 h1 a2 h2 a3 h3 a4 h4 a5 h5 a6 h6 hc x0 x1 x2 x3 xo ((accRect k).emb x)
      = k1_pay4 x2 (messages x0 x1 x3) k (View.ld xo (accRect k)) x := by
  unfold out1_B_4
  unfold kernelRun1_B
  dsimp only
  refine (read_loop VO1_4 VO1_4.junk c i a1 h1 a2 h2 a3 h3 a4 h4 a5 h5 a6 h6 _ _ _ k x).trans ?_
  sl_unfold_words
  rw [h5.read_unread, View.readAt_eq_ld, h3.read_unread, View.ld_unit_zero hz]
  exact congrArg (fun M => k1_pay4 x2 M k (View.ld xo (accRect k)) x) (gathered c i a1 h1 a2 h2 a3 h3 a4 h4 a5 h5 a6 h6 x0 x1 x3)

/-- The first point: the accumulator is filled with zeros first, so it ends at node (2176 k + r) as tile k's payload of the
    point's messages and of tile k of the zero array. -/
theorem out_A (c : Dev nD) (i : grid1.Coords) (a1 : Memref sig .tc .vmem S50048x128 .bf16) (h1 : a1.IsWhole) (a2 : Memref sig .tc .vmem S128x1 .i32) (h2 : a2.IsWhole) (a3 : Memref sig .tc .vmem S128x1 .i32) (h3 : a3.IsWhole) (a4 : Memref sig .tc .vmem S128x1 .f32) (h4 : a4.IsWhole) (a5 : Memref sig .tc .vmem S50048x128 .f32) (h5 : a5.IsWhole) (a6 : Memref sig .tc .vmem S128x128 .f32) (h6 : a6.IsWhole) (hc : cond1_0 i)
    (x0 : Vec F S50048x128 .bf16) (x1 : Vec F S128x1 .i32) (x2 : Vec F S128x1 .i32) (x3 : Vec F S128x1 .f32)
    (k : Fin k1_t2_loop.trips) (x : (accRect k).shape.Idx) :
    out1_A_4 c i a1 h1 a2 h2 a3 h3 a4 h4 a5 h5 a6 h6 hc x0 x1 x2 x3 ((accRect k).emb x)
      = k1_pay4 x2 (messages x0 x1 x3) k (View.ld (k1_pay1 (F := F)) (accRect k)) x := by
  unfold out1_A_4
  unfold kernelRun1_A
  dsimp only
  rw [View.writes_append]
  refine (read_loop VO1_4 _ c i a1 h1 a2 h2 a3 h3 a4 h4 a5 h5 a6 h6 _ _ _ k x).trans ?_
  sl_unfold_words
  rw [View.readAt_eq_ld, h3.read_unread, View.ld_unit_zero hz,
    View.read_writes_eq_canon _ _ _ (fun y => ⟨_, List.mem_singleton_self _, View.mem_set_unit_zero hz inb_S50048x128_S50048x128_0_0 y⟩),
    View.canon_unit_zero hz]
  exact congrArg (fun M => k1_pay4 x2 M k (View.ld (k1_pay1 (F := F)) (accRect k)) x) (gathered c i a1 h1 a2 h2 a3 h3 a4 h4 a5 h5 a6 h6 x0 x1 x3)

end Cert.KernelIdeal.R1

end
-- ==== Proof.Region1Pay.lean ====
/-
  The two loop payloads of the gather-and-scatter region, read at one entry, over the extended reals.

  A chunk holds 128 edges. The node features are cut into 23 tiles of 2176 nodes; tile k starts at node 2176·k.
  In the gather phase the chunk's 128×128 scratch receives, for edge e and feature d, the sum over the tile's nodes j of
  (the edge's weight if the edge's column node is node 2176·k + j, else 0) times feature d of node j of the tile: the matrix
  product of a one-hot-weight matrix with the tile. In the scatter phase row r of tile k of the accumulator receives the sum
  over the chunk's edges e of (1 if the edge's row node is node 2176·k + r, else 0) times message d of edge e: the product of
  the transposed one-hot matrix with the messages. The comparison of 32-bit words is equality of words, and
  2176·k + j < 23·2176 = 50048 < 2^32, so it is equality of the node numbers. Narrowing a float format is the identity on
  extended reals, and the zero word is 0.
-/
import proofs.«430319_j52965536694517_1_alg».proof.Proof.Gen.KernelIdeal.Skeleton
import proofs.«430319_j52965536694517_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.SL.Sem Cert.KernelIdeal Cert.KernelIdeal.Gen Idealize.ShloMosaic.ValueIdx

/-- A 32-bit word equals the word of a natural below 2^32 exactly when its value is that natural. -/
theorem word_eq_ofNat_iff (x : BitVec 32) (n : Nat) (hn : n < 2 ^ 32) : x = BitVec.ofNat 32 n ↔ x.toNat = n := by
  constructor
  · intro h; rw [h, BitVec.toNat_ofNat, Nat.mod_eq_of_lt hn]
  · intro h; apply BitVec.eq_of_toNat_eq; rw [h, BitVec.toNat_ofNat, Nat.mod_eq_of_lt hn]

/-- The first node number of tile k. -/
theorem tileBase (k : Nat) (hk : k < 23) :
    Scalar.muli (Scalar.addi 0#32 (Scalar.muli (Scf.iv 0#32 1#32 k) 1#32)) 2176#32 = BitVec.ofNat 32 (2176 * k) := by
  interval_cases k <;> rfl

/-- A select on the comparison "equal" of two words is the `if` on their equality. -/
theorem select_cmpi_eq {α : Type} (x y : BitVec 32) (a b : α) :
    Scalar.select (IntOp.cmpi .eq x y) a b = if x = y then a else b := by
  have hc : IntOp.cmpi .eq x y = BitVec.ofBool (x == y) := rfl
  unfold Scalar.select
  rw [hc]
  by_cases h : x = y
  · subst h; simp
  · have hb : (x == y) = false := beq_eq_false_iff_ne.mpr h
    rw [hb, if_neg h]
    exact if_neg (by decide)

/-- A column of 128 values spread over 2176 columns reads, at (e, j), the column's entry e. -/
theorem bcastCol_apply {α : Type} (x : S128x1.Idx → α) (h : S128x1.Broadcasts S128x2176) (e : Fin 128) (j : Fin 2176) :
    broadcastTo S128x2176 x h (ix2 e j) = x (ix2 e 0) :=
  broadcastTo_apply x h (ix2 e j) (ix2 e 0) (fun a => match a with | ⟨0, _⟩ => rfl | ⟨1, _⟩ => rfl)

/-- A row of 2176 values spread over 128 rows reads, at (e, j), the row's entry j. -/
theorem bcastRow_apply {α : Type} (x : S1x2176.Idx → α) (h : S1x2176.Broadcasts S128x2176) (e : Fin 128) (j : Fin 2176) :
    broadcastTo S128x2176 x h (ix2 e j) = x (ix2 0 j) :=
  broadcastTo_apply x h (ix2 e j) (ix2 0 j) (fun a => match a with | ⟨0, _⟩ => rfl | ⟨1, _⟩ => rfl)

/-- The counting row reads, at column j, the word of j. -/
theorem iotaRow_apply (h : S1x2176.Iotas .tc 32 [1]) (j : Fin 2176) :
    iota .tc S1x2176 32 [1] h (ix2 0 j) = BitVec.ofNat 32 j.val :=
  iota_single_apply .tc S1x2176 32 1 h (ix2 0 j)

/-- Each phase walks at most 23 tiles. -/
theorem trips1_le : k1_t1_loop.trips ≤ 23 := k1_t1_abs.2.1
theorem trips2_le : k1_t2_loop.trips ≤ 23 := k1_t2_abs.2.1

/-- The accumulator and the scratch start at zero. -/
theorem pay1_apply (i : S50048x128.Idx) : k1_pay1 (F := Ideal) i = 0 := Ideal.ofBits_zero_f32
theorem pay2_apply (i : S128x128.Idx) : k1_pay2 (F := Ideal) i = 0 := by
  unfold k1_pay2
  refine (congrFun (shapeCast_self _ _) i).trans ?_
  exact Ideal.ofBits_zero_f32

/-- Entry (e, j) of the one-hot matrix compares edge e's node word with node 2176·k + j. -/
theorem onehot_cond (x : BitVec 32) (k : Nat) (hk : k < 23) (j : Fin 2176) :
    x = IntOp.addi (BitVec.ofNat 32 (2176 * k)) (BitVec.ofNat 32 j.val) ↔ x.toNat = 2176 * k + j.val := by
  have hj := j.isLt
  show x = BitVec.ofNat 32 (2176 * k) + BitVec.ofNat 32 j.val ↔ _
  rw [← BitVec.ofNat_add]
  exact word_eq_ofNat_iff x _ (by omega)

/-- The gather phase's one-hot-weight matrix at an entry. -/
theorem pay3_apply (v3 : Vec Ideal S128x1 .i32) (v7 : Vec Ideal S128x1 .f32) (k : Fin k1_t1_loop.trips)
    (v22 : Vec Ideal S2176x128 .bf16) (v35 : Vec Ideal S128x128 .f32) (e : Fin 128) (d : Fin 128) :
    k1_pay3 (F := Ideal) v3 v7 k v22 v35 (ix2 e d)
      = v35 (ix2 e d) + ∑ j : Fin 2176, (if (v3 (ix2 e 0)).toNat = 2176 * k.val + j.val then v7 (ix2 e 0) else 0) * v22 (ix2 j d) := by
  have hk : k.val < 23 := lt_of_lt_of_le k.isLt trips1_le
  unfold k1_pay3
  refine (congrFun (shapeCast_self _ _) (ix2 e d)).trans ?_
  refine congrArg (v35 (ix2 e d) + ·) ?_
  refine (Cert.LibPlainDot.matmul_plain_apply 128 2176 128 none _ _ e d).trans ?_
  refine Finset.sum_congr rfl fun j _ => ?_
  refine congrArg₂ (· * ·) ?_ (congrFun (shapeCast_self _ _) (ix2 j d))
  refine (select_cmpi_eq _ _ _ _).trans ?_
  rw [bcastCol_apply, bcastCol_apply, bcastRow_apply, shapeCast_self, shapeCast_self, shapeCast_self]
  show (if v3 (ix2 e 0) = IntOp.addi (Scalar.muli (Scalar.addi 0#32 (Scalar.muli (Scf.iv 0#32 1#32 k.val) 1#32)) 2176#32)
        (iota .tc S1x2176 32 [1] iota_S1x2176_d1_w32 (ix2 0 j)) then v7 (ix2 e 0) else Ideal.ofBits .f32 0x00000000#32) = _
  rw [iotaRow_apply, tileBase k.val hk, Ideal.ofBits_zero_f32]
  exact if_congr (onehot_cond _ _ hk j) rfl rfl

/-- The one-hot entry, widened to a word and converted to a float, is 1 where the two words agree and 0 elsewhere. -/
theorem sitofp_onehot (x y : BitVec 32) :
    (FloatOps.sitofp .f32 ((IntOp.cmpi .eq x y).setWidth 32) : Ideal .f32) = if x = y then (1 : EReal) else 0 := by
  have hc : IntOp.cmpi .eq x y = BitVec.ofBool (x == y) := rfl
  rw [hc]
  show ((((BitVec.ofBool (x == y)).setWidth 32).toInt : ℝ) : EReal) = _
  by_cases h : x = y
  · subst h
    have hb : (x == x) = true := beq_self_eq_true x
    have h1 : ((BitVec.ofBool true).setWidth 32).toInt = 1 := by decide
    rw [hb, if_pos rfl, h1]
    simp
  · have hb : (x == y) = false := beq_eq_false_iff_ne.mpr h
    have h0 : ((BitVec.ofBool false).setWidth 32).toInt = 0 := by decide
    rw [hb, if_neg h, h0]
    simp

/-- The scatter phase's payload at an entry: the accumulator tile plus, over the chunk's edges whose row node is
    node 2176·k + r, the sum of their messages. -/
theorem pay4_apply (v5 : Vec Ideal S128x1 .i32) (v14 : Vec Ideal S128x128 .f32) (k : Fin k1_t2_loop.trips)
    (v33 : Vec Ideal S2176x128 .f32) (r : Fin 2176) (d : Fin 128) :
    k1_pay4 (F := Ideal) v5 v14 k v33 (ix2 r d)
      = v33 (ix2 r d) + ∑ e : Fin 128, (if (v5 (ix2 e 0)).toNat = 2176 * k.val + r.val then (1 : EReal) else 0) * v14 (ix2 e d) := by
  have hk : k.val < 23 := lt_of_lt_of_le k.isLt trips2_le
  unfold k1_pay4
  refine congrArg₂ (· + ·) (congrFun (shapeCast_self _ _) (ix2 r d)) ?_
  refine (Cert.LibPlainDot.matmul_plain_apply 2176 128 128 none _ _ r d).trans ?_
  refine Finset.sum_congr rfl fun e _ => ?_
  refine congrArg₂ (· * ·) ?_ rfl
  refine (transpose_apply [1, 0] _ _ (ix2 r e) (ix2 e r) (fun b => match b with | ⟨0, _⟩ => rfl | ⟨1, _⟩ => rfl)).trans ?_
  refine (sitofp_onehot _ _).trans ?_
  rw [bcastCol_apply, bcastRow_apply, shapeCast_self]
  show (if v5 (ix2 e 0) = IntOp.addi (Scalar.muli (Scalar.addi 0#32 (Scalar.muli (Scf.iv 0#32 1#32 k.val) 1#32)) 2176#32)
        (iota .tc S1x2176 32 [1] iota_S1x2176_d1_w32 (ix2 0 r)) then (1 : EReal) else 0) = _
  rw [iotaRow_apply, tileBase k.val hk]
  exact if_congr (onehot_cond _ _ hk r) rfl rfl

end Cert.KernelIdeal.Pay

end
-- ==== Proof.Region1Value.lean ====
/-
  The accumulator of the gather and scatter kernel after each grid point, entry by entry, over the extended reals.
  Node n lies in tile n / 2176 at row n % 2176, so by the two cases of a point, at entry (n, d) a point adds to what it
  found (the zero array at the first point) the sum, over its 128 edges e, of a one where the edge arrives at node n
  times the edge's message in feature d: the point's contribution. The accumulator after point t is therefore zero
  plus the contributions of the points 0 … t, by induction on the point.
-/
import proofs.«430319_j52965536694517_1_alg».proof.Proof.Region1Cases
import proofs.«430319_j52965536694517_1_alg».proof.Proof.Region1Pay

noncomputable section

open scoped BigOperators
open Idealize.ShloMosaic Idealize.ShloMosaic.TcCoe Idealize.ShloMosaic.ValueIdx Idealize.SL.Sem

namespace Cert.KernelIdeal.R1

open Cert.KernelIdeal Cert.KernelIdeal.Gen Cert.KernelIdeal.Pay

/-- The scatter phase walks exactly 23 tiles. -/
theorem scatterTrips : k1_t2_loop.trips = 23 := by decide +kernel

/-- What one point adds at entry (n, d): over its 128 edges, a one where the edge arrives at node n, times the edge's
    message in feature d. -/
def contrib (x0 : Vec Ideal S50048x128 .bf16) (x1 x2 : Vec Ideal S128x1 .i32) (x3 : Vec Ideal S128x1 .f32)
    (n : Fin 50048) (d : Fin 128) : EReal :=
  ∑ e : Fin 128, (if (x2 (ix2 e 0)).toNat = n.val then (1 : EReal) else 0) * messages x0 x1 x3 (ix2 e d)

/-- The tile of node n. -/
def tileOf (n : Fin 50048) : Fin k1_t2_loop.trips := ⟨n.val / 2176, by rw [scatterTrips]; have := n.isLt; omega⟩
/-- The row of node n inside its tile. -/
def rowIn (n : Fin 50048) : Fin 2176 := ⟨n.val % 2176, Nat.mod_lt _ (by decide)⟩

/-- Row (n % 2176) of tile (n / 2176) is node n. -/
theorem emb_tile (n : Fin 50048) (d : Fin 128) :
    (accRect (tileOf n)).emb (ix2 (rowIn n) d : S2176x128.Idx) = (ix2 n d : S50048x128.Idx) := by
  funext a
  apply Fin.ext
  match a with
  | ⟨0, _⟩ =>
    show (k1_off2 (tileOf n)) 0 + 1 * (n.val % 2176) = n.val
    rw [off2_zero]
    show 2176 * (n.val / 2176) + 1 * (n.val % 2176) = n.val
    have := Nat.div_add_mod n.val 2176
    omega
  | ⟨1, _⟩ =>
    show (k1_off2 (tileOf n)) 1 + 1 * d.val = d.val
    rw [off2_one]
    omega

/-- A point that is not the first, at entry (n, d): what it found plus its contribution. -/
theorem out_B_apply (c : Dev nD) (i : grid1.Coords) (a1 : Memref sig .tc .vmem S50048x128 .bf16) (h1 : a1.IsWhole) (a2 : Memref sig .tc .vmem S128x1 .i32) (h2 : a2.IsWhole) (a3 : Memref sig .tc .vmem S128x1 .i32) (h3 : a3.IsWhole) (a4 : Memref sig .tc .vmem S128x1 .f32) (h4 : a4.IsWhole) (a5 : Memref sig .tc .vmem S50048x128 .f32) (h5 : a5.IsWhole) (a6 : Memref sig .tc .vmem S128x128 .f32) (h6 : a6.IsWhole) (hc : ¬cond1_0 i)
    (x0 : Vec Ideal S50048x128 .bf16) (x1 x2 : Vec Ideal S128x1 .i32) (x3 : Vec Ideal S128x1 .f32)
    (xo : Vec Ideal S50048x128 .f32) (n : Fin 50048) (d : Fin 128) :
    out1_B_4 (F := Ideal) c i a1 h1 a2 h2 a3 h3 a4 h4 a5 h5 a6 h6 hc x0 x1 x2 x3 xo (ix2 n d)
      = xo (ix2 n d) + contrib x0 x1 x2 x3 n d := by
  rw [← emb_tile n d, out_B (F := Ideal) c i a1 h1 a2 h2 a3 h3 a4 h4 a5 h5 a6 h6 hc x0 x1 x2 x3 xo (tileOf n) (ix2 (rowIn n) d),
    pay4_apply]
  have hn : 2176 * (tileOf n).val + (rowIn n).val = n.val := Nat.div_add_mod n.val 2176
  unfold contrib
  rw [hn]
  rfl

/-- The first point, at entry (n, d): zero plus its contribution. -/
theorem out_A_apply (c : Dev nD) (i : grid1.Coords) (a1 : Memref sig .tc .vmem S50048x128 .bf16) (h1 : a1.IsWhole) (a2 : Memref sig .tc .vmem S128x1 .i32) (h2 : a2.IsWhole) (a3 : Memref sig .tc .vmem S128x1 .i32) (h3 : a3.IsWhole) (a4 : Memref sig .tc .vmem S128x1 .f32) (h4 : a4.IsWhole) (a5 : Memref sig .tc .vmem S50048x128 .f32) (h5 : a5.IsWhole) (a6 : Memref sig .tc .vmem S128x128 .f32) (h6 : a6.IsWhole) (hc : cond1_0 i)
    (x0 : Vec Ideal S50048x128 .bf16) (x1 x2 : Vec Ideal S128x1 .i32) (x3 : Vec Ideal S128x1 .f32)
    (n : Fin 50048) (d : Fin 128) :
    out1_A_4 (F := Ideal) c i a1 h1 a2 h2 a3 h3 a4 h4 a5 h5 a6 h6 hc x0 x1 x2 x3 (ix2 n d)
      = 0 + contrib x0 x1 x2 x3 n d := by
  rw [← emb_tile n d, out_A (F := Ideal) c i a1 h1 a2 h2 a3 h3 a4 h4 a5 h5 a6 h6 hc x0 x1 x2 x3 (tileOf n) (ix2 (rowIn n) d),
    pay4_apply]
  have hn : 2176 * (tileOf n).val + (rowIn n).val = n.val := Nat.div_add_mod n.val 2176
  unfold contrib
  rw [hn]
  refine congrArg (fun z => z + _) ?_
  exact pay1_apply _

variable (V : (c : Dev nD) → (b : Ref sig .tc) → Buf (Elt Ideal) ((c : Thread nD τ).loc b))

/-- The four input blocks of a point, at their literal types: the features, and the point's 128 column indices, row
    indices and weights. -/
abbrev featBlk (c : Dev nD) (t : Fin cfg1.N) : Vec Ideal S50048x128 .bf16 := iblk1 V c 0 t
abbrev colBlk (c : Dev nD) (t : Fin cfg1.N) : Vec Ideal S128x1 .i32 := iblk1 V c 1 t
abbrev rowBlk (c : Dev nD) (t : Fin cfg1.N) : Vec Ideal S128x1 .i32 := iblk1 V c 2 t
abbrev wBlk (c : Dev nD) (t : Fin cfg1.N) : Vec Ideal S128x1 .f32 := iblk1 V c 3 t

/-- The contribution of point s at entry (n, d); zero past the grid. -/
def pointContrib (c : Dev nD) (s : ℕ) (n : Fin 50048) (d : Fin 128) : EReal :=
  if h : s < cfg1.N then contrib (featBlk V c ⟨s, h⟩) (colBlk V c ⟨s, h⟩) (rowBlk V c ⟨s, h⟩) (wBlk V c ⟨s, h⟩) n d else 0

theorem pointContrib_of_lt (c : Dev nD) (s : ℕ) (h : s < cfg1.N) (n : Fin 50048) (d : Fin 128) :
    pointContrib V c s n d = contrib (featBlk V c ⟨s, h⟩) (colBlk V c ⟨s, h⟩) (rowBlk V c ⟨s, h⟩) (wBlk V c ⟨s, h⟩) n d := by
  rw [pointContrib, dif_pos h]

/-- The accumulator after point t, at entry (n, d): zero plus the contributions of the points 0 … t. -/
theorem outsAt_apply (c : Dev nD) : ∀ (t : ℕ) (h : t < cfg1.N) (n : Fin 50048) (d : Fin 128),
    outsAt1 (F := Ideal) V c t h (ix2 n d) = 0 + ∑ s ∈ Finset.range (t + 1), pointContrib V c s n d
  | 0, h, n, d => by
    rw [outsAt1_A V c ⟨0, h⟩ rfl]
    refine (out_A_apply c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) scM1_0 (Memref.isWhole_whole _) ((hcond1_0 ⟨0, h⟩).mpr rfl)
      (featBlk V c ⟨0, h⟩) (colBlk V c ⟨0, h⟩) (rowBlk V c ⟨0, h⟩) (wBlk V c ⟨0, h⟩) n d).trans ?_
    rw [Finset.sum_range_one, pointContrib_of_lt V c 0 h]
  | t + 1, h, n, d => by
    have hN : cfg1.N = 6250 := N_1
    have hB : ¬(⟨t + 1, h⟩ : Fin cfg1.N).val % 6250 = 0 := by dsimp only; omega
    rw [outsAt1_B V c ⟨t + 1, h⟩ hB]
    refine (out_B_apply c (grid1.coords ⟨t + 1, h⟩) (ms1_0 ⟨t + 1, h⟩) (hs1_0 ⟨t + 1, h⟩) (ms1_1 ⟨t + 1, h⟩) (hs1_1 ⟨t + 1, h⟩) (ms1_2 ⟨t + 1, h⟩) (hs1_2 ⟨t + 1, h⟩) (ms1_3 ⟨t + 1, h⟩) (hs1_3 ⟨t + 1, h⟩) (ms1_4 ⟨t + 1, h⟩) (hs1_4 ⟨t + 1, h⟩) scM1_0 (Memref.isWhole_whole _) (fun hh => hB ((hcond1_0 ⟨t + 1, h⟩).mp hh))
      (featBlk V c ⟨t + 1, h⟩) (colBlk V c ⟨t + 1, h⟩) (rowBlk V c ⟨t + 1, h⟩) (wBlk V c ⟨t + 1, h⟩)
      (outsAt1 V c ((⟨t + 1, h⟩ : Fin cfg1.N).val - 1) (Nat.lt_of_le_of_lt (Nat.sub_le _ _) (⟨t + 1, h⟩ : Fin cfg1.N).isLt)) n d).trans ?_
    show outsAt1 V c t _ (ix2 n d) + _ = _
    rw [outsAt_apply c t (Nat.lt_of_succ_lt h) n d, Finset.sum_range_succ _ (t + 1), add_assoc, pointContrib_of_lt V c (t + 1) h]

end Cert.KernelIdeal.R1

end
-- ==== Proof.Algebra.lean ====
/-
  Algebra over the extended reals used by the comparison of the two programs: a sum weighted by an indicator that
  selects at most one position keeps that position's term, tiles of consecutive numbers that cover a range select a
  given number of the range exactly once, and a sum over consecutive chunks is the sum over all positions. Only the
  laws that hold for every extended real (the infinities included) are used: 0 * x = 0, 1 * x = x, x + 0 = x, 0 + x = x.
-/
import Mathlib.Data.EReal.Basic
import Mathlib.Algebra.BigOperators.Fin

open scoped BigOperators

namespace Cert.Algebra

/-- An indicator (1 where p holds, 0 elsewhere) times x is x where p holds and 0 elsewhere. -/
theorem ite_one_mul (p : Prop) [Decidable p] (x : EReal) : (if p then (1 : EReal) else 0) * x = if p then x else 0 := by
  by_cases h : p
  · rw [if_pos h, if_pos h, one_mul]
  · rw [if_neg h, if_neg h, zero_mul]

/-- In a tile of 2176 consecutive numbers starting at 2176 * k at most one equals c: the sum over the tile of the terms
    selected by "equals c" is the term at c when c lies in the tile and 0 when it does not. -/
theorem onehot_tile_sum (c : ℕ) (w : EReal) (g : ℕ → EReal) (k : ℕ) :
    (∑ j : Fin 2176, (if c = 2176 * k + j.val then w else 0) * g (2176 * k + j.val))
      = if 2176 * k ≤ c ∧ c < 2176 * (k + 1) then w * g c else 0 := by
  by_cases h : 2176 * k ≤ c ∧ c < 2176 * (k + 1)
  · rw [if_pos h]
    have hj : c - 2176 * k < 2176 := by omega
    rw [Finset.sum_eq_single (⟨c - 2176 * k, hj⟩ : Fin 2176)]
    · have e : 2176 * k + (c - 2176 * k) = c := by omega
      show (if c = 2176 * k + (c - 2176 * k) then w else 0) * g (2176 * k + (c - 2176 * k)) = w * g c
      rw [e, if_pos rfl]
    · intro j _ hne
      have hc : ¬ c = 2176 * k + j.val := by
        intro hc
        apply hne
        apply Fin.ext
        show j.val = c - 2176 * k
        omega
      rw [if_neg hc, zero_mul]
    · intro hn
      exact absurd (Finset.mem_univ _) hn
  · rw [if_neg h]
    apply Finset.sum_eq_zero
    intro j _
    have hj := j.isLt
    have hc : ¬ c = 2176 * k + j.val := by
      intro hc
      apply h
      omega
    rw [if_neg hc, zero_mul]

/-- 23 tiles of 2176 consecutive numbers cover 0 … 50047: a running sum that starts at 0 and adds, tile after tile, the
    terms selected by "equals c" ends at the term at c. After k tiles it holds that term exactly when c < 2176 * k. -/
theorem tiles_fold (c : ℕ) (hc : c < 50048) (w : EReal) (g : ℕ → EReal) (M : ℕ → EReal) (h0 : M 0 = 0)
    (hs : ∀ k, k < 23 → M (k + 1) = M k + ∑ j : Fin 2176, (if c = 2176 * k + j.val then w else 0) * g (2176 * k + j.val)) :
    M 23 = w * g c := by
  have inv : ∀ k, k ≤ 23 → M k = if c < 2176 * k then w * g c else 0 := by
    intro k
    induction k with
    | zero =>
      intro _
      rw [h0, if_neg (by omega)]
    | succ k ih =>
      intro hk
      rw [hs k (by omega), ih (by omega), onehot_tile_sum]
      by_cases h1 : c < 2176 * k
      · rw [if_pos h1, if_neg (by omega), if_pos (by omega), add_zero]
      · by_cases h2 : c < 2176 * (k + 1)
        · rw [if_neg h1, if_pos ⟨by omega, h2⟩, if_pos h2, zero_add]
        · rw [if_neg h1, if_neg (by omega), if_neg h2, add_zero]
  rw [inv 23 (le_refl _), if_pos (by omega)]

/-- The sum over the first n chunks of 128 consecutive positions is the sum over the first 128 * n positions. -/
theorem chunk_sum_range (f : ℕ → EReal) (n : ℕ) :
    (∑ s ∈ Finset.range n, ∑ e : Fin 128, f (128 * s + e.val)) = ∑ i ∈ Finset.range (128 * n), f i := by
  induction n with
  | zero => simp
  | succ n ih =>
    rw [Finset.sum_range_succ, ih, Nat.mul_succ, Finset.sum_range_add,
      Fin.sum_univ_eq_sum_range (fun i => f (128 * n + i)) 128]

/-- 6250 chunks of 128 consecutive edges are all 800000 edges. -/
theorem chunk_sum (f : ℕ → EReal) :
    (∑ s ∈ Finset.range 6250, ∑ e : Fin 128, f (128 * s + e.val)) = ∑ E : Fin 800000, f E.val := by
  rw [chunk_sum_range f 6250, Fin.sum_univ_eq_sum_range f 800000]

end Cert.Algebra
-- ==== Proof.Region1Msgs.lean ====
/-
  The messages of one grid point in closed form, over the extended reals.

  The gather phase starts from a zero scratch and walks the 23 tiles of 2176 nodes. At tile k it adds, for edge e and
  feature d, the sum over the tile's nodes j of (the edge's weight if the edge's column node is node 2176·k + j, else 0)
  times feature d of that node. Row j of tile k of the features is row 2176·k + j of the features. The 23 tiles cover the
  nodes 0 … 50047 once each, so for an edge whose column node c is below 50048 exactly one term of one tile is selected:
  after the last tile the scratch holds the edge's weight times feature d of node c.
-/
import proofs.«430319_j52965536694517_1_alg».proof.Proof.Region1Gather
import proofs.«430319_j52965536694517_1_alg».proof.Proof.Region1Pay
import proofs.«430319_j52965536694517_1_alg».proof.Proof.Algebra

noncomputable section

open scoped BigOperators

open Idealize.ShloMosaic Idealize.SL.Sem

namespace Cert.KernelIdeal.R1

open Cert.KernelIdeal Cert.KernelIdeal.Gen Idealize.ShloMosaic.ValueIdx

/-- Each phase walks exactly 23 tiles. -/
theorem trips1_eq : k1_t1_loop.trips = 23 := by decide +kernel
/-- The scatter phase too. -/
theorem trips2_eq : k1_t2_loop.trips = 23 := by decide +kernel

/-- Row j of tile k of the features is row 2176·k + j of the features. -/
theorem ld_feat (x0 : Vec Ideal S50048x128 .bf16) (k : Fin k1_t1_loop.trips) (j : Fin 2176) (d : Fin 128)
    (h : 2176 * k.val + j.val < 50048) :
    View.ld x0 (featRect k) (ix2 j d) = x0 (ix2 (⟨2176 * k.val + j.val, h⟩ : Fin 50048) d) := by
  show x0 ((featRect k).idx (ix2 j d)) = _
  refine congrArg x0 (funext fun a => Fin.ext ?_)
  have ho := k1_off1_eq k
  match a with
  | ⟨0, _⟩ =>
    show k1_off1 k 0 + 1 * j.val = 2176 * k.val + j.val
    rw [ho]; show 2176 * k.val + 1 * j.val = _; omega
  | ⟨1, _⟩ =>
    show k1_off1 k 1 + 1 * d.val = d.val
    rw [ho]; show 0 + 1 * d.val = _; omega

/-- THE MESSAGES OF A GRID POINT. After all 23 tiles the scratch holds, for edge e and feature d, the edge's weight times
    feature d of the node the edge's column index names: each tile adds the terms selected by "the node is in this tile",
    and exactly one tile holds the node. -/
theorem msgs_closed (x0 : Vec Ideal S50048x128 .bf16) (x1 : Vec Ideal S128x1 .i32) (x3 : Vec Ideal S128x1 .f32)
    (e : Fin 128) (d : Fin 128) (hc : (x1 (ix2 e 0)).toNat < 50048) :
    msgsAt (F := Ideal) x1 x3 x0 (k1_pay2 (F := Ideal)) k1_t1_loop.trips (ix2 e d)
      = x3 (ix2 e 0) * x0 (ix2 (⟨(x1 (ix2 e 0)).toNat, hc⟩ : Fin 50048) d) := by
  let g : ℕ → EReal := fun n => if h : n < 50048 then x0 (ix2 (⟨n, h⟩ : Fin 50048) d) else 0
  let M : ℕ → EReal := fun k => msgsAt (F := Ideal) x1 x3 x0 (k1_pay2 (F := Ideal)) k (ix2 e d)
  have h0 : M 0 = 0 := Cert.KernelIdeal.Pay.pay2_apply (ix2 e d)
  have hs : ∀ k, k < 23 → M (k + 1) = M k + ∑ j : Fin 2176,
      (if (x1 (ix2 e 0)).toNat = 2176 * k + j.val then x3 (ix2 e 0) else 0) * g (2176 * k + j.val) := by
    intro k hk
    have hk' : k < k1_t1_loop.trips := trips1_eq ▸ hk
    show msgsAt (F := Ideal) x1 x3 x0 (k1_pay2 (F := Ideal)) (k + 1) (ix2 e d) = _
    rw [msgsAt_succ x1 x3 x0 _ k hk', Cert.KernelIdeal.Pay.pay3_apply]
    refine congrArg (M k + ·) ?_
    refine Finset.sum_congr rfl fun j _ => ?_
    have hj := j.isLt
    have hlt : 2176 * k + j.val < 50048 := by omega
    rw [ld_feat x0 ⟨k, hk'⟩ j d hlt]
    show _ = _ * (if h : 2176 * k + j.val < 50048 then x0 (ix2 (⟨2176 * k + j.val, h⟩ : Fin 50048) d) else 0)
    rw [dif_pos hlt]
  have hf := Cert.Algebra.tiles_fold (x1 (ix2 e 0)).toNat hc (x3 (ix2 e 0)) g M h0 hs
  have hM : msgsAt (F := Ideal) x1 x3 x0 (k1_pay2 (F := Ideal)) k1_t1_loop.trips
      = msgsAt (F := Ideal) x1 x3 x0 (k1_pay2 (F := Ideal)) 23 := congrArg _ trips1_eq
  rw [hM]
  refine hf.trans ?_
  show _ * (if h : (x1 (ix2 e 0)).toNat < 50048 then x0 (ix2 (⟨(x1 (ix2 e 0)).toNat, h⟩ : Fin 50048) d) else 0) = _
  rw [dif_pos hc]

end Cert.KernelIdeal.R1

end
-- ==== Proof.Region1Blocks.lean ====
/-
  The second call: its result array is what its last point left, and its input blocks read at an entry.

  The second call walks a grid of 6250 points. Its result (50048 × 128) is ONE block, held in place over the whole
  walk and written back once, at the last point, 6249: so after the walk the result array is exactly what the body
  left in that block after point 6249. Its first operand (the 50048 × 128 features in half precision) is also one
  block, the same whole array at every point. Its three edge operands (800000 × 1: two of index words, one of
  values) are cut into 6250 blocks of 128 rows: entry e of the block at point t is entry 128·t + e of the array.

  Everything is stated at arbitrary contents V of the buffers when the call is entered.
-/
import proofs.«430319_j52965536694517_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1B

open Cert.KernelIdeal Cert.KernelIdeal.Gen

variable (V : (c : Dev nD) → (b : Ref sig .tc) → Buf (Elt Ideal) ((c : Thread nD τ).loc b))

/-! ## Where the blocks sit -/

/-- The block indices over the grid: the feature window and the result window stay at block (0, 0); each edge
    window is at row block t, column block 0, at point t. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

/-- A point of the grid is below 6250. -/
theorem point_lt (t : Fin cfg1.N) : t.val < 6250 := lt_of_lt_of_eq t.isLt (show cfg1.N = 6250 from N_1)

/-- 6249 is a point of the grid: the last one. -/
theorem last_lt : 6249 < cfg1.N := by show 6249 < grid1.N; rw [N_1]; decide

/-- Entry e of the block at point t is an entry of the 800000 edges: 128 · 6249 + 127 = 799999. -/
theorem row_lt (t : Fin cfg1.N) (e : Fin 128) : 128 * t.val + e.val < 800000 := by
  have := point_lt t; have := e.isLt; omega

/-! ## The input blocks -/

/-- The feature window's one block, at every point, is the whole feature array. -/
theorem blk0_eq (c : Dev nD) (t : Fin cfg1.N) (H : Vec Ideal S50048x128 .bf16) (hH : V c main_v1 = H) :
    iblk1 V c 0 t = H := by
  subst hH
  obtain ⟨e0, e1, -⟩ := idx_facts t
  have hz' : (fun a => win1_0.index t a * main_v1.ty.shape.size a) = fun _ => 0 := funext fun a => by
    match a with
    | ⟨0, _⟩ => show win1_0.index t (0 : Fin 2) * 50048 = 0; rw [e0]
    | ⟨1, _⟩ => show win1_0.index t (1 : Fin 2) * 128 = 0; rw [e1]
  exact Memref.read_access_unit_zero (Elt Ideal) main_v1 hz' (fun a => by rw [congrFun hz' a]; simp) (V c main_v1)

/-- Entry e of the first edge window's block at point t is entry 128·t + e of its array. -/
theorem blk1_apply (c : Dev nD) (t : Fin cfg1.N) (C : Vec Ideal S800000x1 .i32) (hC : V c main_v37 = C) (e : Fin 128) :
    (iblk1 V c 1 t : Vec Ideal S128x1 .i32) (ix2 e (0 : Fin 1))
      = C (ix2 (⟨128 * t.val + e.val, row_lt t e⟩ : Fin 800000) (0 : Fin 1)) := by
  subst hC
  obtain ⟨-, -, e2, e3, -⟩ := idx_facts t
  unfold iblk1
  rw [View.read_apply]
  show V c main_v37 _ = V c main_v37 _
  congr 1
  funext a
  apply Fin.ext
  match a with
  | ⟨0, _⟩ => show win1_1.index t (0 : Fin 2) * 128 + 1 * e.val = 128 * t.val + e.val; rw [e2]; omega
  | ⟨1, _⟩ => show win1_1.index t (1 : Fin 2) * 1 + 1 * (0 : Fin 1).val = (0 : Fin 1).val; rw [e3]; omega

/-- Entry e of the second edge window's block at point t is entry 128·t + e of its array. -/
theorem blk2_apply (c : Dev nD) (t : Fin cfg1.N) (C : Vec Ideal S800000x1 .i32) (hC : V c main_v38 = C) (e : Fin 128) :
    (iblk1 V c 2 t : Vec Ideal S128x1 .i32) (ix2 e (0 : Fin 1))
      = C (ix2 (⟨128 * t.val + e.val, row_lt t e⟩ : Fin 800000) (0 : Fin 1)) := by
  subst hC
  obtain ⟨-, -, -, -, e4, e5, -⟩ := idx_facts t
  unfold iblk1
  rw [View.read_apply]
  show V c main_v38 _ = V c main_v38 _
  congr 1
  funext a
  apply Fin.ext
  match a with
  | ⟨0, _⟩ => show win1_2.index t (0 : Fin 2) * 128 + 1 * e.val = 128 * t.val + e.val; rw [e4]; omega
  | ⟨1, _⟩ => show win1_2.index t (1 : Fin 2) * 1 + 1 * (0 : Fin 1).val = (0 : Fin 1).val; rw [e5]; omega

/-- Entry e of the third edge window's block at point t is entry 128·t + e of its array. -/
theorem blk3_apply (c : Dev nD) (t : Fin cfg1.N) (C : Vec Ideal S800000x1 .f32) (hC : V c main_v39 = C) (e : Fin 128) :
    (iblk1 V c 3 t : Vec Ideal S128x1 .f32) (ix2 e (0 : Fin 1))
      = C (ix2 (⟨128 * t.val + e.val, row_lt t e⟩ : Fin 800000) (0 : Fin 1)) := by
  subst hC
  obtain ⟨-, -, -, -, -, -, e6, e7, -⟩ := idx_facts t
  unfold iblk1
  rw [View.read_apply]
  show V c main_v39 _ = V c main_v39 _
  congr 1
  funext a
  apply Fin.ext
  match a with
  | ⟨0, _⟩ => show win1_3.index t (0 : Fin 2) * 128 + 1 * e.val = 128 * t.val + e.val; rw [e6]; omega
  | ⟨1, _⟩ => show win1_3.index t (1 : Fin 2) * 1 + 1 * (0 : Fin 1).val = (0 : Fin 1).val; rw [e7]; omega

/-! ## The one write-back -/

/-- The result window's block is the whole result array, at every point: any contents X of the block, written
    back, are X read through the block, whose offsets are zero. Stated for arbitrary contents, so that nothing
    about how the contents came to be is ever looked at. -/
theorem read_whole (X : Vec Ideal S50048x128 .f32) (t : Fin cfg1.N) :
    (cfg1.win 4).cut (grid1.coords t) X = ((cfg1.win 4).blk t).view.read (Elt Ideal) X := by
  obtain ⟨-, -, -, -, -, -, -, -, e8, e9⟩ := idx_facts t
  have hz' : (fun a => win1_4.index t a * main_v40.ty.shape.size a) = fun _ => 0 := funext fun a => by
    match a with
    | ⟨0, _⟩ => show win1_4.index t (0 : Fin 2) * 50048 = 0; rw [e8]
    | ⟨1, _⟩ => show win1_4.index t (1 : Fin 2) * 128 = 0; rw [e9]
  exact (Memref.read_access_unit_zero (Elt Ideal) main_v40 hz' (fun a => by rw [congrFun hz' a]; simp) X).symm

/-- What the body left after a point depends on the point's number only, not on how its bound is shown. -/
theorem outsAt1_congr (c : Dev nD) (n n' : ℕ) (hn : n < cfg1.N) (hn' : n' < cfg1.N) (h : n = n') :
    outsAt1 V c n hn = outsAt1 V c n' hn' := by
  subst h; rfl

/-- A point that writes the result back is the last point (t mod 6250 = 6249 with t below 6250), and what it
    writes back is what the body left after point 6249, read through the whole-array block. -/
theorem flushed_eq (c : Dev nD) (t : Fin cfg1.N) (hf : (cfg1.win 4).flush t = true) :
    (dat1 (F := Ideal) V c).flushed 4 t
      = ((cfg1.win 4).blk t).view.read (Elt Ideal) (outsAt1 V c 6249 last_lt) := by
  have hN := point_lt t
  have h : t.val = 6249 := by have := (flush1_4 t).mp hf; omega
  show (cfg1.win 4).cut (grid1.coords t) ((dat1 V c).after 4 t) = _
  rw [after1_4, read_whole, outsAt1_congr V c t.val 6249 t.isLt last_lt h]

/-! ## The last point's block covers the result -/

/-- An entry of the result is in point t's block iff each coordinate is in the block's range on its axis. -/
theorem mem_blk (t : Fin cfg1.N) (i : S50048x128.Idx) :
    i ∈ ((cfg1.win 4).blk t).view.set ↔ ∀ a : Fin 2, win1_4.index t a * S50048x128.size a ≤ (i a).val ∧ (i a).val < win1_4.index t a * S50048x128.size a + S50048x128.size a := by
  show i ∈ ((View.whole main_v40).slice (win1_4.rect t)).set ↔ _
  rw [View.set_slice_whole, Rect.mem_set_unit]
  exact Iff.rfl

/-- Every entry of the result is in the block the last point writes back: that block starts at (0, 0) and has the
    array's own extents. -/
theorem cover (i : S50048x128.Idx) :
    ∃ t : Fin cfg1.N, (cfg1.win 4).flush t = true ∧ i ∈ ((cfg1.win 4).blk t).view.set := by
  have hi0 : (i 0).val < 50048 := (i 0).isLt
  have hi1 : (i 1).val < 128 := (i 1).isLt
  obtain ⟨t, ht⟩ : ∃ t : Fin cfg1.N, t.val = 6249 := ⟨⟨6249, last_lt⟩, rfl⟩
  obtain ⟨-, -, -, -, -, -, -, -, e8, e9⟩ := idx_facts t
  refine ⟨t, (flush1_4 t).mpr (by rw [ht]), ?_⟩
  rw [mem_blk]
  intro a
  match a with
  | ⟨0, _⟩ =>
    show win1_4.index t (0 : Fin 2) * 50048 ≤ (i 0).val ∧ (i 0).val < win1_4.index t (0 : Fin 2) * 50048 + 50048
    rw [e8]; omega
  | ⟨1, _⟩ =>
    show win1_4.index t (1 : Fin 2) * 128 ≤ (i 1).val ∧ (i 1).val < win1_4.index t (1 : Fin 2) * 128 + 128
    rw [e9]; omega

/-! ## The result array -/

/-- After the 6250 points the result array holds what the body left in the result block after the last point. -/
theorem arr1_eq (c : Dev nD) :
    (dat1 (F := Ideal) V c).arrAt 4 cfg1.N = outsAt1 V c 6249 last_lt :=
  (dat1 (F := Ideal) V c).arrAt_eq_of_cover 4 (outsAt1 V c 6249 last_lt) (flushed_eq V c) cover

end Cert.KernelIdeal.R1B

end
-- ==== Proof.Region1Final.lean ====
/-
  The second kernel's result array, entry by entry, in terms of the four arrays it is launched on: the feature table H
  (50048 rows), and one column each of the edges' column indices C, row indices R and weights W (800000 rows). A grid
  point's blocks are rows 128 s … 128 s + 127 of the three columns, and the whole of H. A point's message for its edge
  e in feature d is the edge's weight times feature d of the node the edge leaves; its contribution at node n is the
  sum of the messages of its edges that arrive at n. Summed over the 6250 points of 128 edges each, that is the sum
  over all 800000 edges E arriving at n of  W E * H (C E) d.
-/
import proofs.«430319_j52965536694517_1_alg».proof.Proof.Region1Value
import proofs.«430319_j52965536694517_1_alg».proof.Proof.Region1Msgs
import proofs.«430319_j52965536694517_1_alg».proof.Proof.Region1Blocks
import proofs.«430319_j52965536694517_1_alg».proof.Proof.Algebra

noncomputable section

open scoped BigOperators
open Idealize.ShloMosaic Idealize.ShloMosaic.TcCoe Idealize.ShloMosaic.ValueIdx Idealize.SL.Sem

namespace Cert.KernelIdeal.R1

open Cert.KernelIdeal Cert.KernelIdeal.Gen

variable (V : (c : Dev nD) → (b : Ref sig .tc) → Buf (Elt Ideal) ((c : Thread nD τ).loc b))

/-- One edge's term at node n and feature d: its weight times the feature of the node it leaves, if it arrives at n. -/
def edgeTerm (H : Vec Ideal S50048x128 .bf16) (C R : Vec Ideal S800000x1 .i32) (W : Vec Ideal S800000x1 .f32)
    (hCr : ∀ E : Fin 800000, (C (ix2 E 0)).toNat < 50048) (n : Fin 50048) (d : Fin 128) (E : Fin 800000) : EReal :=
  if (R (ix2 E 0)).toNat = n.val then W (ix2 E 0) * H (ix2 (⟨(C (ix2 E 0)).toNat, hCr E⟩ : Fin 50048) d) else 0

/-- The same over every natural number, zero past the last edge. -/
def edgeTermN (H : Vec Ideal S50048x128 .bf16) (C R : Vec Ideal S800000x1 .i32) (W : Vec Ideal S800000x1 .f32)
    (hCr : ∀ E : Fin 800000, (C (ix2 E 0)).toNat < 50048) (n : Fin 50048) (d : Fin 128) (E : ℕ) : EReal :=
  if h : E < 800000 then edgeTerm H C R W hCr n d ⟨E, h⟩ else 0

/-- A feature read at the node a column index names: equal tables and equal index words read the same entry. -/
theorem feat_congr (x0 H : Vec Ideal S50048x128 .bf16) (hH : x0 = H) (cw Cw : BitVec 32) (hcw : cw = Cw)
    (h1 : cw.toNat < 50048) (h2 : Cw.toNat < 50048) (d : Fin 128) :
    x0 (ix2 (⟨cw.toNat, h1⟩ : Fin 50048) d) = H (ix2 (⟨Cw.toNat, h2⟩ : Fin 50048) d) := by
  subst hH hcw; rfl

/-- The contribution of point s at entry (n, d): the terms of its 128 edges. -/
theorem pointContrib_closed (c : Dev nD) (H : Vec Ideal S50048x128 .bf16) (C R : Vec Ideal S800000x1 .i32)
    (W : Vec Ideal S800000x1 .f32) (hH : V c main_v1 = H) (hC : V c main_v37 = C) (hR : V c main_v38 = R)
    (hW : V c main_v39 = W) (hCr : ∀ E : Fin 800000, (C (ix2 E 0)).toNat < 50048)
    (s : ℕ) (hs : s < 6250) (n : Fin 50048) (d : Fin 128) :
    pointContrib V c s n d = ∑ e : Fin 128, edgeTermN H C R W hCr n d (128 * s + e.val) := by
  have hs' : s < cfg1.N := by rw [show cfg1.N = 6250 from N_1]; exact hs
  rw [pointContrib_of_lt V c s hs']
  unfold contrib
  refine Finset.sum_congr rfl fun e _ => ?_
  have hE : 128 * s + e.val < 800000 := by have := e.isLt; omega
  have e1 : colBlk V c ⟨s, hs'⟩ (ix2 e 0) = C (ix2 (⟨128 * s + e.val, hE⟩ : Fin 800000) 0) := R1B.blk1_apply V c ⟨s, hs'⟩ C hC e
  have e2 : rowBlk V c ⟨s, hs'⟩ (ix2 e 0) = R (ix2 (⟨128 * s + e.val, hE⟩ : Fin 800000) 0) := R1B.blk2_apply V c ⟨s, hs'⟩ R hR e
  have e3 : wBlk V c ⟨s, hs'⟩ (ix2 e 0) = W (ix2 (⟨128 * s + e.val, hE⟩ : Fin 800000) 0) := R1B.blk3_apply V c ⟨s, hs'⟩ W hW e
  have e0 : featBlk V c ⟨s, hs'⟩ = H := R1B.blk0_eq V c ⟨s, hs'⟩ H hH
  have hc : (colBlk V c ⟨s, hs'⟩ (ix2 e 0)).toNat < 50048 := by rw [e1]; exact hCr _
  unfold messages
  rw [msgs_closed (featBlk V c ⟨s, hs'⟩) (colBlk V c ⟨s, hs'⟩) (wBlk V c ⟨s, hs'⟩) e d hc, e2, e3,
    feat_congr _ H e0 _ _ e1 hc (hCr _) d, Cert.Algebra.ite_one_mul]
  unfold edgeTermN
  rw [dif_pos hE]
  rfl

/-- The result array of the second kernel at entry (n, d): the sum over all edges of their terms. -/
theorem arr1_apply (c : Dev nD) (H : Vec Ideal S50048x128 .bf16) (C R : Vec Ideal S800000x1 .i32)
    (W : Vec Ideal S800000x1 .f32) (hH : V c main_v1 = H) (hC : V c main_v37 = C) (hR : V c main_v38 = R)
    (hW : V c main_v39 = W) (hCr : ∀ E : Fin 800000, (C (ix2 E 0)).toNat < 50048)
    (A : Vec Ideal S50048x128 .f32) (hA : (dat1 (F := Ideal) V c).arrAt 4 cfg1.N = A) (n : Fin 50048) (d : Fin 128) :
    A (ix2 n d) = ∑ E : Fin 800000, edgeTerm H C R W hCr n d E := by
  have hA' : A = outsAt1 (F := Ideal) V c 6249 R1B.last_lt := hA.symm.trans (R1B.arr1_eq V c)
  rw [hA', outsAt_apply V c 6249 _ n d, zero_add,
    Finset.sum_congr rfl (fun s hs => pointContrib_closed V c H C R W hH hC hR hW hCr s (Finset.mem_range.mp hs) n d),
    Cert.Algebra.chunk_sum (edgeTermN H C R W hCr n d)]
  refine Finset.sum_congr rfl fun E _ => ?_
  unfold edgeTermN
  rw [dif_pos E.isLt]

end Cert.KernelIdeal.R1

end
-- ==== Proof.EdgeLemmas.lean ====
/-
  Entry lemmas for the last assembly of the kernel program's result: what a column made of a vector reads at a row,
  that rounding to sixteen bits changes nothing over the extended reals, that a non-negative index word is its own
  natural number (and names that node), and what the first 50000 rows cut out of a longer array read.
-/
import proofs.«430319_j52965536694517_1_alg».proof.KernelIdeal
import proofs.«430319_j52965536694517_1_alg».proof.Proof.Spec
import Idealize.ShloMosaic.Lib.Pipeline.Value
import Idealize.ShloMosaic.Lib.ValueIdx
import Idealize.ShloMosaic.PureOps.Ideal

noncomputable section

namespace Cert.EdgeLemmas

open Cert.KernelIdeal Cert.KernelIdeal.Facts₀ Idealize.ShloMosaic Idealize.ShloMosaic.ValueIdx

variable [Cert.KernelIdeal.Facts]

/-- A vector of 800000 entries read as a column of 800000 rows: row E of the column is entry E of the vector, since
    (E, 0) has row-major position E * 1 + 0 = E in [800000, 1]. -/
theorem column_apply {α : Type} (x : S800000.Idx → α) (E : Fin 800000) :
    shapeCast S800000x1 x shapeCasts_S800000_S800000x1 (ix2 E (0 : Fin 1)) = x (ix1 E) := by
  refine shapeCast_apply x shapeCasts_S800000_S800000x1 (ix2 E (0 : Fin 1)) (ix1 E) ?_
  rw [Shape.rowMajor_val_one, Shape.rowMajor_val_two]
  show E.val = E.val * 1 + 0
  omega

/-- Over the extended reals rounding to the sixteen-bit format is the identity, entry by entry. -/
theorem truncf_apply {s : Shape} (X : FVec Ideal s .f32) (h : FTy.bits .bf16 < FTy.bits .f32) (i : s.Idx) :
    (truncf .bf16 X h : FVec Ideal s .bf16) i = X i := rfl

/-- A 32-bit word whose signed value is not negative has that value equal to its unsigned value. -/
theorem toInt_eq_toNat (x : BitVec 32) (hx : 0 ≤ x.toInt) : x.toInt = (x.toNat : ℤ) := by
  have hlt := x.isLt
  rw [BitVec.toInt_eq_toNat_cond] at hx ⊢
  split at hx <;> rename_i hc
  · rw [if_pos hc]
  · omega

/-- For such a word, the unsigned value is n exactly when the signed value is n. -/
theorem toNat_eq_iff (x : BitVec 32) (hx : 0 ≤ x.toInt) (n : ℕ) : x.toNat = n ↔ x.toInt = (n : ℤ) := by
  rw [toInt_eq_toNat x hx]
  omega

/-- A word whose signed value lies in [0, 50000) has its unsigned value below 50000. -/
theorem toNat_lt (x : BitVec 32) (h0 : 0 ≤ x.toInt) (h1 : x.toInt < 50000) : x.toNat < 50000 := by
  have := toInt_eq_toNat x h0
  omega

/-- The node a word in [0, 50000) names is the word's unsigned value: the cap at 49999 does not act. -/
theorem node_val (x : BitVec 32) (h0 : 0 ≤ x.toInt) (h1 : x.toInt < 50000) : (Cert.Spec.node x).val = x.toNat := by
  have h := toInt_eq_toNat x h0
  show min x.toInt.toNat 49999 = x.toNat
  omega

/-- The same as an equation between nodes. -/
theorem node_eq (x : BitVec 32) (h0 : 0 ≤ x.toInt) (h1 : x.toInt < 50000) :
    Cert.Spec.node x = ⟨x.toNat, toNat_lt x h0 h1⟩ :=
  Fin.ext (node_val x h0 h1)

/-- The first 50000 rows cut out of an array of 50048 rows: entry (n, d) of the cut is entry (n, d) of the array. -/
theorem slice_rows_apply (X : FVec Ideal S50048x128 .f32) (n : Fin 50000) (d : Fin 128) :
    extractStridedSlice S50000x128 ![0, 0] X slices_S50048x128_S50000x128_0_0 (ix2 n d)
      = X (ix2 (⟨n.val, by omega⟩ : Fin 50048) d) := by
  refine extractStridedSlice_apply ![0, 0] X slices_S50048x128_S50000x128_0_0 (ix2 n d)
    (ix2 (⟨n.val, by omega⟩ : Fin 50048) d) fun a => ?_
  match a with
  | ⟨0, _⟩ => show n.val = 0 + n.val; omega
  | ⟨1, _⟩ => show d.val = 0 + d.val; omega

end Cert.EdgeLemmas

end
-- ==== Proof.KernelValue.lean ====
/-
  The kernel program's result is the specification's array. Its run ends with the result array holding the first 50000
  rows of the second kernel's accumulator. Entry (n, d) of that accumulator is the sum over all edges E whose row index
  is n of the edge's weight times feature d of the node its column index names in the padded feature table. For index
  words between 0 and 49999 the padded table's row is the feature table's own row, the row index read as a natural
  number is its value as a signed integer, and the edge weights are the weight function of the specification's scores:
  the first kernel's two score columns, gathered at the row and column indices, are the specification's scores. So
  the entry is the specification's entry.
-/
import proofs.«430319_j52965536694517_1_alg».proof.Proof.KernelRun
import proofs.«430319_j52965536694517_1_alg».proof.Proof.KernelChain
import proofs.«430319_j52965536694517_1_alg».proof.Proof.KernelLogits
import proofs.«430319_j52965536694517_1_alg».proof.Proof.Region0
import proofs.«430319_j52965536694517_1_alg».proof.Proof.Region1Final
import proofs.«430319_j52965536694517_1_alg».proof.Proof.EdgeLemmas

noncomputable section

open scoped BigOperators
open Idealize.ShloMosaic Idealize.ShloMosaic.TcCoe Idealize.ShloMosaic.ValueIdx Idealize.SL.Sem

namespace Cert.KernelValue

open Cert.KernelIdeal Cert.KernelIdeal.Gen Cert.KernelIdeal.Chain Cert.EdgeLemmas

variable (m : (ℓ : Loc nD τ sig) → Buf (Elt Ideal) ℓ) (ρ : Dev nD → PrngReg)

/-- The launch's five arrays at their literal types: the features, the attention vector, the edge values, the row
    indices and the column indices. -/
abbrev featIn (c : Dev nD) : FVec Ideal S50000x128 .f32 := m ((c : Thread nD τ).loc main_arg0)
abbrev attIn (c : Dev nD) : FVec Ideal S256x1 .f32 := m ((c : Thread nD τ).loc main_arg1)
abbrev adjIn (c : Dev nD) : FVec Ideal S800000 .f32 := m ((c : Thread nD τ).loc main_arg2)
abbrev rowsIn (c : Dev nD) : IVec S800000 32 := m ((c : Thread nD τ).loc main_arg3)
abbrev colsIn (c : Dev nD) : IVec S800000 32 := m ((c : Thread nD τ).loc main_arg4)

/-- The program's edge scores are the specification's. -/
theorem logits_eq (c : Dev nD)
    (hrow : ∀ i, 0 ≤ (rowsIn m c i).toInt ∧ (rowsIn m c i).toInt < 50000)
    (hcol : ∀ i, 0 ≤ (colsIn m c i).toInt ∧ (colsIn m c i).toInt < 50000) :
    logitsK m ρ c = Cert.Spec.logits (featIn m c) (attIn m c) (rowsIn m c) (colsIn m c) :=
  Cert.KernelLogits.logitsTermK_eq (st m ρ c) (featIn m c) (attIn m c) (rowsIn m c) (colsIn m c)
    (fun n j => Cert.KernelIdeal.R0.arr0_apply_of (V3 m ρ) c _ _ (V3_v0 m ρ c) (V3_v4 m ρ c) n j) hrow hcol

/-- The result array the run leaves is the specification's. -/
theorem result_eq (c : Dev nD)
    (hrow : ∀ i, 0 ≤ (rowsIn m c i).toInt ∧ (rowsIn m c i).toInt < 50000)
    (hcol : ∀ i, 0 ≤ (colsIn m c i).toInt ∧ (colsIn m c i).toInt < 50000) :
    W9 m ρ c (Proc.devRef .tc main_v41)
      = Cert.Spec.out tfK (featIn m c) (attIn m c) (adjIn m c) (rowsIn m c) (colsIn m c) := by
  rw [out_eq]
  refine Cert.Spec.eq_out_of_apply tfK _ _ _ _ _ _ (fun n d => ?_)
  have hCr : ∀ E : Fin 800000,
      ((shapeCast S800000x1 (colsIn m c) shapeCasts_S800000_S800000x1 : IVec S800000x1 32) (ix2 E 0)).toNat < 50048 := fun E => by
    rw [column_apply]
    have := toNat_lt _ (hcol (ix1 E)).1 (hcol (ix1 E)).2
    omega
  rw [slice_rows_apply,
    Cert.KernelIdeal.R1.arr1_apply (V7 m ρ) c _ _ _ _ (V7_v1 m ρ c) (V7_v37 m ρ c) (V7_v38 m ρ c) (V7_v39 m ρ c) hCr _ rfl
      (⟨n.val, by have := n.isLt; omega⟩ : Fin 50048) d]
  unfold Cert.Spec.outAt
  refine Finset.sum_congr rfl fun E _ => ?_
  unfold Cert.KernelIdeal.R1.edgeTerm
  have hr := hrow (ix1 E)
  have hc := hcol (ix1 E)
  have hidx : (⟨((shapeCast S800000x1 (colsIn m c) shapeCasts_S800000_S800000x1 : IVec S800000x1 32) (ix2 E 0)).toNat, hCr E⟩ : Fin 50048)
      = ⟨(colsIn m c (ix1 E)).toNat, by have := toNat_lt _ hc.1 hc.2; omega⟩ :=
    Fin.ext (congrArg BitVec.toNat (column_apply (colsIn m c) E))
  rw [hidx, column_apply, column_apply, Cert.EdgeLemmas.truncf_apply, V3_v0,
    Cert.KernelLogits.pad_apply_lt _ _ _ (toNat_lt _ hc.1 hc.2), logits_eq m ρ c hrow hcol, node_eq _ hc.1 hc.2]
  exact if_congr (toNat_eq_iff _ hr.1 _) rfl rfl

/-- The kernel program's run: every weakly fair execution ends, nothing faulting, with the result array at the
    specification's array and the five arguments as launched. -/
theorem run (hrow : ∀ c i, 0 ≤ (rowsIn m c i).toInt ∧ (rowsIn m c i).toInt < 50000)
    (hcol : ∀ c i, 0 ≤ (colsIn m c i).toInt ∧ (colsIn m c i).toInt < 50000) :
    θ_run (defs (F := Ideal)) (onTc (τ := τ) (main (F := Ideal))) ⟨m, fun _ => 0, ρ⟩ (fun r => ∀ c : Dev nD,
      r.2.mem ((c.tc : Thread nD τ).loc main_v41)
        = Cert.Spec.out tfK (featIn m c) (attIn m c) (adjIn m c) (rowsIn m c) (colsIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono
    (fun _ h c => ⟨(h c).1.trans (result_eq m ρ c (hrow c) (hcol c)), (h c).2⟩)
    (Cert.KernelIdeal.Run.run (F := Ideal) m ρ)

end Cert.KernelValue

end
-- ==== Proof.RefTerm.lean ====
/-
  The reference program's result as ONE term of its five arguments: the composition of the pure functions of its
  operations, in the order the program applies them.

    * the scores: the attention vector's two halves (its first 128 rows, its last 128 rows), the node features
      multiplied with each (two matrix products with a one-column matrix), each product read as a vector of 50000
      entries; the index words of row and of col, each with 50000 added where the word is negative; the first vector
      gathered at the rows' words, the second at the cols' words; their sum, one score per edge;
    * the weights: the rectifier, the softmax over all edges and the product with the edge values, which is the
      specification's function weights applied to the scores and the edge values;
    * the result: the node features gathered at the cols' words (with the same correction of negative words), each
      gathered row multiplied by its edge's weight, and the products added into an array of zeros at the rows' words.
-/
import proofs.«430319_j52965536694517_1_alg».proof.ReferenceIdeal
import proofs.«430319_j52965536694517_1_alg».proof.Proof.Spec

noncomputable section

namespace Cert.RefRun

open Cert.ReferenceIdeal Cert.ReferenceIdeal.Facts₀ Idealize.ShloMosaic

/-- The shape relations the weight function takes, from the program's own: a scalar spread over the edges, a scalar
    made a one-entry vector, that vector spread over the edges, the edges reduced to a scalar. -/
def tf [Cert.ReferenceIdeal.Facts] : Cert.Spec.TailFacts where
  b0E := bcast_S_S800000
  b01 := bcast_S_S1
  b1E := bcast_S1_S800000_0
  red := reducesTo_S800000_S_d0
  h0 := h_S_

/-- An index word made non-negative the way the program does it: 50000 is added to a negative word, any other word is
    kept. -/
def wrap [Cert.ReferenceIdeal.Facts] (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

/-- The scores of the edges as the program computes them (its operations %0 to %20). -/
def logitsTerm [Cert.ReferenceIdeal.Facts] (h : FVec Ideal S50000x128 .f32) (att : FVec Ideal S256x1 .f32)
    (row col : IVec S800000 32) : FVec Ideal S800000 .f32 :=
  addf
    (Host.gather gather_S50000_S800000x1_S800000_n_0_n_n_0_1_1
      (shapeCast S50000
        (Host.dotGeneral dot_S50000x128_S128x1_S50000x1_1_0_0_1_n_n none h
          (extractStridedSlice S128x1 ![0, 0] att slices_S256x1_S128x1_0_0))
        shapeCasts_S50000x1_S50000)
      (broadcastInDim S800000x1 ![0] bcast_S800000_S800000x1_0 (wrap row)))
    (Host.gather gather_S50000_S800000x1_S800000_n_0_n_n_0_1_1
      (shapeCast S50000
        (Host.dotGeneral dot_S50000x128_S128x1_S50000x1_1_0_0_1_n_n none h
          (extractStridedSlice S128x1 ![128, 0] att slices_S256x1_S128x1_128_0))
        shapeCasts_S50000x1_S50000)
      (broadcastInDim S800000x1 ![0] bcast_S800000_S800000x1_0 (wrap col)))

/-- The program's result (its operation %45) as a term of its arguments: the weights are the specification's weight
    function at the program's scores. -/
def refTerm [Cert.ReferenceIdeal.Facts] (h : FVec Ideal S50000x128 .f32) (att : FVec Ideal S256x1 .f32)
    (adj : FVec Ideal S800000 .f32) (row col : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf
      (broadcastInDim S800000x128 ![0, 1] bcast_S800000x1_S800000x128_0_1
        (broadcastInDim S800000x1 ![0] bcast_S800000_S800000x1_0
          (Cert.Spec.weights tf (logitsTerm h att row col) adj)))
      (Host.gather gather_S50000x128_S800000x1_S800000x128_1_0_n_n_0_1_1128 h
        (broadcastInDim S800000x1 ![0] bcast_S800000_S800000x1_0 (wrap col))))

end Cert.RefRun

end
-- ==== Proof.RefRun.lean ====
/-
  The reference program's run. Its @main is a straight line of host operations, one of them a call of the rectifier
  (whose body ends in a call of the selection function); with both calls replaced by the called bodies over the calls'
  own buffers it is a list of 63 operations. Every weakly fair execution of it terminates; the result buffer then holds
  the composed term refTerm of the five arguments' launch contents, and the arguments hold what they held.
-/
import proofs.«430319_j52965536694517_1_alg».proof.Proof.Gen.ReferenceIdeal
import proofs.«430319_j52965536694517_1_alg».proof.Proof.RefTerm
import Idealize.ShloMosaic.Lib.StableHlo.Run

noncomputable section

namespace Cert.RefRun

open Cert.ReferenceIdeal Cert.ReferenceIdeal.Facts₀ Idealize.ShloMosaic Idealize.ShloMosaic.TcCoe Idealize.SL.Sem Idealize.ShloMosaic.StableHlo

variable [Cert.ReferenceIdeal.Facts]

section Line

variable {F : FTy → Type} [FloatOps F]

/-- @main's operations in order, the rectifier's six and the selection's one in the place of the call, over the
    call's buffers. -/
abbrev ops : List (HloOp τ sig (Elt F)) :=
  [
    StableHlo.unary main_arg1 main_v0 ((extractStridedSlice S128x1 ![0, 0] · slices_S256x1_S128x1_0_0) : (⟨S256x1, .f32⟩ : BufTy).Contents (Elt F) → (⟨S128x1, .f32⟩ : BufTy).Contents (Elt F)),
    StableHlo.binary main_arg0 main_v0 main_v1 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.reshape main_v1 main_v2 rfl shapeCasts_S50000x1_S50000,
    StableHlo.unary main_arg1 main_v3 ((extractStridedSlice S128x1 ![128, 0] · slices_S256x1_S128x1_128_0) : (⟨S256x1, .f32⟩ : BufTy).Contents (Elt F) → (⟨S128x1, .f32⟩ : BufTy).Contents (Elt F)),
    StableHlo.binary main_arg0 main_v3 main_v4 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.reshape main_v4 main_v5 rfl shapeCasts_S50000x1_S50000,
    StableHlo.nullary main_c (constantI S_ 32 0#32),
    StableHlo.unary main_c main_v6 (broadcastInDim S800000 ![] bcast_S_S800000 : (⟨S_, .i32⟩ : BufTy).Contents (Elt F) → (⟨S800000, .i32⟩ : BufTy).Contents (Elt F)),
    StableHlo.binary main_arg3 main_v6 main_v7 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v8 (broadcastInDim S800000 ![] bcast_S_S800000 : (⟨S_, .i32⟩ : BufTy).Contents (Elt F) → (⟨S800000, .i32⟩ : BufTy).Contents (Elt F)),
    StableHlo.binary main_arg3 main_v8 main_v9 (addi : (⟨S800000, .i32⟩ : BufTy).Contents (Elt F) → (⟨S800000, .i32⟩ : BufTy).Contents (Elt F) → (⟨S800000, .i32⟩ : BufTy).Contents (Elt F)),
    StableHlo.ternary main_v7 main_v9 main_arg3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v10 main_v11 (broadcastInDim S800000x1 ![0] bcast_S800000_S800000x1_0 : (⟨S800000, .i32⟩ : BufTy).Contents (Elt F) → (⟨S800000x1, .i32⟩ : BufTy).Contents (Elt F)),
    StableHlo.binary main_v2 main_v11 main_v12 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_1 (constantI S_ 32 0#32),
    StableHlo.unary main_c_1 main_v13 (broadcastInDim S800000 ![] bcast_S_S800000 : (⟨S_, .i32⟩ : BufTy).Contents (Elt F) → (⟨S800000, .i32⟩ : BufTy).Contents (Elt F)),
    StableHlo.binary main_arg4 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v15 (broadcastInDim S800000 ![] bcast_S_S800000 : (⟨S_, .i32⟩ : BufTy).Contents (Elt F) → (⟨S800000, .i32⟩ : BufTy).Contents (Elt F)),
    StableHlo.binary main_arg4 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_arg4 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_v5 main_v18 main_v19 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v12 main_v19 main_v20 (addf : (⟨S800000, .f32⟩ : BufTy).Contents (Elt F) → (⟨S800000, .f32⟩ : BufTy).Contents (Elt F) → (⟨S800000, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S800000 ![] bcast_S_S800000),
    StableHlo.TRef.binary (.of main_v20) main_call0.v0 main_call0.v1 (cmpf .oge),
    StableHlo.TRef.unary (.of main_cst) main_call0.v2 id,
    StableHlo.TRef.unary main_call0.v2 main_call0.v3 (broadcastInDim S800000 ![] bcast_S_S800000),
    StableHlo.TRef.binary main_call0.v3 (.of main_v20) main_call0.v4 mulf,
    StableHlo.TRef.ternary main_call0.v1 (.of main_v20) main_call0.v4 main_call0.call0.v0 select,
    StableHlo.nullary main_cst_3 (constant S_ .f32 0xFF800000#32),
    StableHlo.binary main_v21 main_cst_3 main_v22 ((fun x v => Host.reduce FloatOps.maximumf x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_4 (constant S_ .f32 0xFF800000#32),
    StableHlo.binary main_cst_4 main_v22 main_v23 (maximumf : (⟨S_, .f32⟩ : BufTy).Contents (Elt F) → (⟨S_, .f32⟩ : BufTy).Contents (Elt F) → (⟨S_, .f32⟩ : BufTy).Contents (Elt F)),
    StableHlo.unary main_v23 main_v24 (broadcastInDim S1 ![] bcast_S_S1 : (⟨S_, .f32⟩ : BufTy).Contents (Elt F) → (⟨S1, .f32⟩ : BufTy).Contents (Elt F)),
    StableHlo.unary main_v24 main_v25 (broadcastInDim S800000 ![0] bcast_S1_S800000_0 : (⟨S1, .f32⟩ : BufTy).Contents (Elt F) → (⟨S800000, .f32⟩ : BufTy).Contents (Elt F)),
    StableHlo.binary main_v21 main_v25 main_v26 (subf : (⟨S800000, .f32⟩ : BufTy).Contents (Elt F) → (⟨S800000, .f32⟩ : BufTy).Contents (Elt F) → (⟨S800000, .f32⟩ : BufTy).Contents (Elt F)),
    StableHlo.unary main_v26 main_v27 (Host.exp : (⟨S800000, .f32⟩ : BufTy).Contents (Elt F) → (⟨S800000, .f32⟩ : BufTy).Contents (Elt F)),
    StableHlo.nullary main_cst_5 (constant S_ .f32 0x00000000#32),
    StableHlo.binary main_v27 main_cst_5 main_v28 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.unary main_v28 main_v29 (broadcastInDim S1 ![] bcast_S_S1 : (⟨S_, .f32⟩ : BufTy).Contents (Elt F) → (⟨S1, .f32⟩ : BufTy).Contents (Elt F)),
    StableHlo.unary main_v29 main_v30 (broadcastInDim S800000 ![0] bcast_S1_S800000_0 : (⟨S1, .f32⟩ : BufTy).Contents (Elt F) → (⟨S800000, .f32⟩ : BufTy).Contents (Elt F)),
    StableHlo.binary main_v27 main_v30 main_v31 (Host.divf : (⟨S800000, .f32⟩ : BufTy).Contents (Elt F) → (⟨S800000, .f32⟩ : BufTy).Contents (Elt F) → (⟨S800000, .f32⟩ : BufTy).Contents (Elt F)),
    StableHlo.binary main_arg2 main_v31 main_v32 (mulf : (⟨S800000, .f32⟩ : BufTy).Contents (Elt F) → (⟨S800000, .f32⟩ : BufTy).Contents (Elt F) → (⟨S800000, .f32⟩ : BufTy).Contents (Elt F)),
    StableHlo.unary main_v32 main_v33 (broadcastInDim S800000x1 ![0] bcast_S800000_S800000x1_0 : (⟨S800000, .f32⟩ : BufTy).Contents (Elt F) → (⟨S800000x1, .f32⟩ : BufTy).Contents (Elt F)),
    StableHlo.nullary main_c_6 (constantI S_ 32 0#32),
    StableHlo.unary main_c_6 main_v34 (broadcastInDim S800000 ![] bcast_S_S800000 : (⟨S_, .i32⟩ : BufTy).Contents (Elt F) → (⟨S800000, .i32⟩ : BufTy).Contents (Elt F)),
    StableHlo.binary main_arg4 main_v34 main_v35 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v36 (broadcastInDim S800000 ![] bcast_S_S800000 : (⟨S_, .i32⟩ : BufTy).Contents (Elt F) → (⟨S800000, .i32⟩ : BufTy).Contents (Elt F)),
    StableHlo.binary main_arg4 main_v36 main_v37 (addi : (⟨S800000, .i32⟩ : BufTy).Contents (Elt F) → (⟨S800000, .i32⟩ : BufTy).Contents (Elt F) → (⟨S800000, .i32⟩ : BufTy).Contents (Elt F)),
    StableHlo.ternary main_v35 main_v37 main_arg4 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v38 main_v39 (broadcastInDim S800000x1 ![0] bcast_S800000_S800000x1_0 : (⟨S800000, .i32⟩ : BufTy).Contents (Elt F) → (⟨S800000x1, .i32⟩ : BufTy).Contents (Elt F)),
    StableHlo.binary main_arg0 main_v39 main_v40 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v33 main_v41 (broadcastInDim S800000x128 ![0, 1] bcast_S800000x1_S800000x128_0_1 : (⟨S800000x1, .f32⟩ : BufTy).Contents (Elt F) → (⟨S800000x128, .f32⟩ : BufTy).Contents (Elt F)),
    StableHlo.binary main_v41 main_v40 main_v42 (mulf : (⟨S800000x128, .f32⟩ : BufTy).Contents (Elt F) → (⟨S800000x128, .f32⟩ : BufTy).Contents (Elt F) → (⟨S800000x128, .f32⟩ : BufTy).Contents (Elt F)),
    StableHlo.nullary main_cst_8 (constant S_ .f32 0x00000000#32),
    StableHlo.unary main_cst_8 main_v43 (broadcastInDim S50000x128 ![] bcast_S_S50000x128 : (⟨S_, .f32⟩ : BufTy).Contents (Elt F) → (⟨S50000x128, .f32⟩ : BufTy).Contents (Elt F)),
    StableHlo.unary main_arg3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

set_option maxRecDepth 2048 in
/-- @main is that straight line: the two called bodies unfolded at their calls, both sides are one chain of steps
    once the sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., reshape_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

end Line

/-! ## What the buffers hold after the line -/

set_option maxRecDepth 8192 in
/-- The result buffer after the 63 operations: each operation's result at its own buffer is its function's value of
    its operands' contents, so the fold is the composition of the functions. That composition IS refTerm by
    computation: the rectifier's and the selection's operations go through the buffers' own types and back, which is
    the identity, and operations %21 to %32 compose to the specification's weight function at the scores of
    operations %0 to %20. -/
theorem out_eq (V : Valuation τ sig (Elt Ideal)) :
    after ops V (Proc.devRef .tc main_v45)
      = refTerm (V (Proc.devRef .tc main_arg0)) (V (Proc.devRef .tc main_arg1)) (V (Proc.devRef .tc main_arg2))
          (V (Proc.devRef .tc main_arg3)) (V (Proc.devRef .tc main_arg4)) := by
  after_results_simp
  rfl

/-- No operation writes argument 0: it holds what it held. -/
theorem arg0_eq (V : Valuation τ sig (Elt Ideal)) :
    after ops V (Proc.devRef .tc main_arg0) = V (Proc.devRef .tc main_arg0) := by
  after_results_simp

/-- No operation writes argument 1: it holds what it held. -/
theorem arg1_eq (V : Valuation τ sig (Elt Ideal)) :
    after ops V (Proc.devRef .tc main_arg1) = V (Proc.devRef .tc main_arg1) := by
  after_results_simp

/-- No operation writes argument 2: it holds what it held. -/
theorem arg2_eq (V : Valuation τ sig (Elt Ideal)) :
    after ops V (Proc.devRef .tc main_arg2) = V (Proc.devRef .tc main_arg2) := by
  after_results_simp

/-- No operation writes argument 3: it holds what it held. -/
theorem arg3_eq (V : Valuation τ sig (Elt Ideal)) :
    after ops V (Proc.devRef .tc main_arg3) = V (Proc.devRef .tc main_arg3) := by
  after_results_simp

/-- No operation writes argument 4: it holds what it held. -/
theorem arg4_eq (V : Valuation τ sig (Elt Ideal)) :
    after ops V (Proc.devRef .tc main_arg4) = V (Proc.devRef .tc main_arg4) := by
  after_results_simp

/-! ## The run -/

/-- From any memory with zero counters: every weakly fair execution of the reference's @main terminates with the
    result buffer at refTerm of the arguments' launch contents and the five arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v45).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.RefRun

end
-- ==== Proof.LibGatherRows.lean ====
/-
  Rows of a table gathered by a column of start indices, read at one entry. For a table of K rows and D columns and
  N start indices kept as an N × 1 column, with the table's row axis collapsed and start-indexed, its column axis the
  result's offset axis, no batching axes and the index vector on axis 1 (what indexing a matrix by a vector of row
  numbers lowers to), entry (n, j) of the result is the table's entry (r, j), where r is start index n read as a signed
  integer and clamped into 0 … K - 1.
-/
import Idealize.ShloMosaic.Lib.ValueIdx

namespace Cert.LibGatherRows

open Idealize.ShloMosaic Idealize.ShloMosaic.ValueIdx

/-- The row gather at entry (n, j): the table at the clamped start index of position n, column j. -/
theorem gather_rows_apply {α : Type} {K D N w : Nat}
    (d : GatherDims ⟨2, ![K, D]⟩ ⟨2, ![N, 1]⟩ ⟨2, ![N, D]⟩)
    (hoff : d.offsetDims = [1]) (hcoll : d.collapsedSliceDims = [0]) (hob : d.operandBatchingDims = [])
    (hsim : d.startIndexMap = [0]) (hivd : d.indexVectorDim = 1) (hK : 0 < K)
    (x : (⟨2, ![K, D]⟩ : Shape).Idx → α) (idx : IVec ⟨2, ![N, 1]⟩ w) (n : Fin N) (j : Fin D) :
    Host.gather d x idx (ix2 n j)
      = x (ix2 (⟨min (idx (ix2 n (0 : Fin 1))).toInt.toNat (K - 1), by omega⟩ : Fin K) j) := by
  unfold Host.gather
  congr 1
  funext a
  -- no operand axis is a batching axis, so the batching coordinate vanishes on both axes
  have hb : ∀ c : Fin 2, c ∉ d.operandBatchingDims := fun c => by rw [hob]; exact List.not_mem_nil
  have h10 : (1 : Fin 2) ≠ 0 := by decide
  refine Fin.ext ?_
  show d.start (ix2 n j) idx a + d.batchCoord (ix2 n j) a + d.offCoord (ix2 n j) a = _
  rw [GatherDims.batchCoord_eq_zero _ _ _ (hb a), Nat.add_zero]
  match a with
  | ⟨0, _⟩ =>
    -- the row axis: collapsed (offset coordinate 0, slice size 1) and start-indexed, so the operand index is the
    -- start index of position n clamped to K - 1
    show d.start (ix2 n j) idx (0 : Fin 2) + d.offCoord (ix2 n j) (0 : Fin 2)
      = min (idx (ix2 n (0 : Fin 1))).toInt.toNat (K - 1)
    have hc : (0 : Fin 2) ∈ d.collapsedSliceDims := by rw [hcoll]; exact List.mem_singleton.mpr rfl
    have hk : (0 : Fin 2) ∉ d.sKept := fun h => ((GatherDims.mem_sKept _ _).mp h).1 hc
    have hm : (0 : Fin 2) ∈ d.startIndexMap := by rw [hsim]; exact List.mem_singleton.mpr rfl
    have hsl : d.sliceSizes 0 = 1 := d.slice_collapsed 0 hc
    -- the result's only batch axis is axis 0: a batch axis is not the offset axis 1
    have hbd : ∀ X : Fin 2, X ∈ d.batchDims → X = 0 := by
      intro X hX
      have h1 := (List.mem_filter.1 hX).2
      rw [hoff] at h1
      have h2 : X ≠ 1 := by simpa using h1
      apply Fin.ext
      have h3 : X.val ≠ 1 := fun h => h2 (Fin.ext h)
      have := X.isLt
      show X.val = 0
      omega
    -- the start index of result entry (n, j) is read at (n, 0): the batch coordinate n on axis 0, component 0 on
    -- the index vector's axis 1
    have hsi : d.siIdx (ix2 n j) ⟨List.idxOf (0 : Fin 2) d.startIndexMap, List.idxOf_lt_length_iff.2 hm⟩
        = ix2 n (0 : Fin 1) := by
      funext b
      match b with
      | ⟨0, _⟩ =>
        unfold GatherDims.siIdx
        rw [dif_neg (by rw [hivd]; simp)]
        unfold GatherDims.siCoord
        apply Fin.ext
        simp only [Fin.val_cast]
        have e : ∀ X : Fin 2, X = 0 → ((ix2 n j) X).val = n.val := fun X h => by subst h; rfl
        exact e _ (hbd _ (List.getElem_mem _))
      | ⟨1, _⟩ =>
        unfold GatherDims.siIdx
        rw [dif_pos (by rw [hivd])]
        apply Fin.ext
        show List.idxOf (0 : Fin 2) d.startIndexMap = 0
        rw [hsim]; simp
    rw [GatherDims.offCoord_eq_zero _ _ _ hk, Nat.add_zero]
    unfold GatherDims.start
    rw [dif_pos hm, hsi]
    show min (idx (ix2 n (0 : Fin 1))).toInt.toNat (K - d.sliceSizes 0) = min (idx (ix2 n (0 : Fin 1))).toInt.toNat (K - 1)
    rw [hsl]
  | ⟨1, _⟩ =>
    -- the column axis: not start-indexed (start 0) and the one kept axis, read through the result's offset axis 1,
    -- so the operand index is j
    show d.start (ix2 n j) idx (1 : Fin 2) + d.offCoord (ix2 n j) (1 : Fin 2) = j.val
    have hm : (1 : Fin 2) ∉ d.startIndexMap := by
      rw [hsim]; exact fun h => h10 (List.mem_singleton.1 h)
    have hk : (1 : Fin 2) ∈ d.sKept := by
      rw [GatherDims.mem_sKept, hcoll]
      exact ⟨fun h => h10 (List.mem_singleton.1 h), hb 1⟩
    have hod : ∀ X : Fin 2, X ∈ d.offsetDims → X = 1 := by
      intro X hX; rw [hoff] at hX; exact List.mem_singleton.1 hX
    unfold GatherDims.start
    rw [dif_neg hm, Nat.zero_add]
    unfold GatherDims.offCoord
    rw [dif_pos hk]
    have e : ∀ X : Fin 2, X = 1 → ((ix2 n j) X).val = j.val := fun X h => by subst h; rfl
    exact e _ (hod _ (List.getElem_mem _))

end Cert.LibGatherRows
-- ==== Proof.LibScatterRows.lean ====
/-
  The host's accumulating scatter of ROWS, read over the extended reals.

  The scatter indices are a column of row numbers, one per update row; update row `e` is added to operand row
  `idx e` (read as a signed integer; a row number outside the operand drops the update). The scatter therefore acts
  on every column by itself: entry (n, c) of the result is entry (n, c) of the operand plus the sum of the entries
  (e, c) of the updates over the rows `e` whose index is `n`. Consequently, scattering the rows of two arrays set
  side by side and then cutting the result back into the two column ranges is the same as scattering each array.
-/
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

section Coordinates

variable {N E C : Nat}

/-- The dimension numbers of a row scatter: the updates' second axis is the window, the operand's first axis is the
    scattered one, and each scatter index is one scalar. -/
abbrev rowDims (hwf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := hwf }

/-- On the row axis a row scatter has no window coordinate. -/
theorem rowDims_window0 (hwf) (j : (⟨2, ![E, C]⟩ : Shape).Idx) : (rowDims (N := N) hwf).window j 0 = 0 := by
  rfl

/-- On the column axis the window coordinate is the update's column. -/
theorem rowDims_window1 (hwf) (j : (⟨2, ![E, C]⟩ : Shape).Idx) : (rowDims (N := N) hwf).window j 1 = (j 1).val := by
  rfl

/-- On the column axis the window starts at zero. -/
theorem rowDims_start1 {w : Nat} (hwf) (j : (⟨2, ![E, C]⟩ : Shape).Idx) (idx : IVec ⟨2, ![E, 1]⟩ w) :
    (rowDims (N := N) hwf).start j idx 1 = 0 := by
  rfl

/-- On the row axis the window starts at the scatter index of the update's row, read as a signed integer. -/
theorem rowDims_start0 {w : Nat} (hwf) (j : (⟨2, ![E, C]⟩ : Shape).Idx) (idx : IVec ⟨2, ![E, 1]⟩ w) :
    (rowDims (N := N) hwf).start j idx 0 = (idx (ix2 (j 0) 0)).toInt := by
  have hs : (rowDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update entry lands, from the four coordinate facts: entry `j` of the updates lands on entry (n, c) of the
    operand exactly when the scatter index of its row is `n` and its column is `c`. -/
theorem resultIdx_iff_of_coords {w : Nat} (d : ScatterDims ⟨2, ![N, C]⟩ ⟨2, ![E, 1]⟩ ⟨2, ![E, C]⟩)
    (j : (⟨2, ![E, C]⟩ : Shape).Idx) (idx : IVec ⟨2, ![E, 1]⟩ w)
    (s0 : d.start j idx 0 = (idx (ix2 (j 0) 0)).toInt) (s1 : d.start j idx 1 = 0)
    (w0 : d.window j 0 = 0) (w1 : d.window j 1 = (j 1).val) (n : Fin N) (c : Fin C) :
    d.resultIdx? j idx = some (ix2 n c) ↔ (idx (ix2 (j 0) 0)).toInt = (n.val : ℤ) ∧ (j 1).val = c.val := by
  have hjC := idx2_lt1 j
  have hn := n.isLt
  have hc := c.isLt
  unfold ScatterDims.resultIdx?
  split
  next h =>
    rw [Option.some.injEq]
    constructor
    · intro hf
      have e0 : (d.start j idx 0 + (d.window j 0 : ℕ)).toNat = n.val := congrArg Fin.val (congrFun hf 0)
      have e1 : (d.start j idx 1 + (d.window j 1 : ℕ)).toNat = c.val := congrArg Fin.val (congrFun hf 1)
      have h0 : 0 ≤ d.start j idx 0 + (d.window j 0 : ℕ) ∧ d.start j idx 0 + (d.window j 0 : ℕ) < (N : ℤ) := h 0
      rw [s0, w0] at e0 h0
      rw [s1, w1] at e1
      constructor <;> omega
    · rintro ⟨en, ec⟩
      funext a; apply Fin.ext
      match a with
      | ⟨0, _⟩ =>
        show (d.start j idx 0 + (d.window j 0 : ℕ)).toNat = n.val
        rw [s0, w0, en]; omega
      | ⟨1, _⟩ =>
        show (d.start j idx 1 + (d.window j 1 : ℕ)).toNat = c.val
        rw [s1, w1]; omega
  next h =>
    constructor
    · intro hf; exact absurd hf (by simp)
    · rintro ⟨en, ec⟩
      exfalso; apply h
      intro a
      match a with
      | ⟨0, _⟩ =>
        show 0 ≤ d.start j idx 0 + (d.window j 0 : ℕ) ∧ d.start j idx 0 + (d.window j 0 : ℕ) < (N : ℤ)
        rw [s0, w0, en]; omega
      | ⟨1, _⟩ =>
        show 0 ≤ d.start j idx 1 + (d.window j 1 : ℕ) ∧ d.start j idx 1 + (d.window j 1 : ℕ) < (C : ℤ)
        rw [s1, w1]; omega

end Coordinates

section RowScatter

variable {N E C : Nat}

/-- The row scatter at the concrete dimension numbers, read at entry (n, c): the operand's entry plus the sum, over
    the update rows whose scatter index is `n`, of the updates' entries in column `c`. -/
theorem scatterAdd_rowDims_apply {w : Nat} (hwf) (x : FVec Ideal ⟨2, ![N, C]⟩ .f32) (idx : IVec ⟨2, ![E, 1]⟩ w)
    (upd : FVec Ideal ⟨2, ![E, C]⟩ .f32) (n : Fin N) (c : Fin C) :
    Host.scatterAdd (rowDims (N := N) hwf) x idx upd (ix2 n c)
      = x (ix2 n c) + ∑ e : Fin E, if (idx (ix2 e 0)).toInt = (n.val : ℤ) then upd (ix2 e c) else 0 := by
  have key : ∀ (e : Fin E) (b : Fin C), (rowDims (N := N) hwf).resultIdx? (ix2 e b) idx = some (ix2 n c) ↔
      ((idx (ix2 e 0)).toInt = (n.val : ℤ) ∧ b = c) := by
    intro e b
    rw [resultIdx_iff_of_coords (rowDims (N := N) hwf) (ix2 e b) idx (rowDims_start0 hwf _ idx) (rowDims_start1 hwf _ idx)
      (rowDims_window0 hwf _) (rowDims_window1 hwf _) n c]
    exact and_congr Iff.rfl Fin.val_inj
  show x (ix2 n c) + ∑ j ∈ Finset.univ.filter (fun j => (rowDims (N := N) hwf).resultIdx? j idx = some (ix2 n c)), upd j = _
  refine congrArg (fun t => x (ix2 n c) + t) ?_
  rw [Finset.sum_filter, sum_idx2]
  refine Finset.sum_congr rfl fun e _ => ?_
  by_cases hn : (idx (ix2 e 0)).toInt = (n.val : ℤ)
  · rw [if_pos hn]
    rw [Finset.sum_eq_single c (fun b _ hb => if_neg (fun h => hb ((key e b).1 h).2))
      (fun h => absurd (Finset.mem_univ c) h)]
    exact if_pos ((key e c).2 ⟨hn, rfl⟩)
  · rw [if_neg hn]
    exact Finset.sum_eq_zero fun b _ => if_neg (fun h => hn ((key e b).1 h).1)

/-- The row scatter read at an entry, for any dimension numbers whose four lists are those of a row scatter: entry
    (n, c) of the result is the operand's entry plus the sum, over the update rows `e` whose scatter index (read as a
    signed integer) is `n`, of the updates' entry (e, c). An update row whose index is no row of the operand
    contributes to no entry. -/
theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    exact scatterAdd_rowDims_apply wf x idx upd n c

end RowScatter

section SideBySide

variable {N E C₁ C₂ Ct w : Nat}

/-- The dimension numbers `d` are those of a row scatter: the updates' second axis is the window, the operand's first
    axis is inserted and is the one the scatter indices address, and each scatter index is one scalar. -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The row scatter read at an entry, with the four conditions on the dimension numbers bundled. -/
theorem scatterAdd_rows_apply' {C : Nat} {d : ScatterDims ⟨2, ![N, C]⟩ ⟨2, ![E, 1]⟩ ⟨2, ![E, C]⟩} (hd : IsRowScatter d)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 :=
  scatterAdd_rows_apply d hd.1 hd.2.1 hd.2.2.1 hd.2.2.2 x idx upd n c

/-- A scalar spread over a matrix is that scalar at every entry, whatever the matrix's extents. -/
theorem broadcast_scalar_apply {A B : Nat} (hb : (⟨0, ![]⟩ : Shape).BroadcastsInDim ⟨2, ![A, B]⟩ (![] : Fin 0 → Fin 2))
    (z : FVec Ideal ⟨0, ![]⟩ .f32) (j : (⟨2, ![A, B]⟩ : Shape).Idx) :
    broadcastInDim ⟨2, ![A, B]⟩ ![] hb z j = z (fun a => a.elim0) :=
  broadcastInDim_apply _ hb z j _ (fun a => a.elim0)

/-- Scattering the rows of two arrays set side by side, then keeping the FIRST array's columns, is scattering the
    first array's rows: a row scatter acts on each column by itself. The operand is one scalar at every entry. -/
theorem slice_left_scatterAdd_concat
    (dt : ScatterDims ⟨2, ![N, Ct]⟩ ⟨2, ![E, 1]⟩ ⟨2, ![E, Ct]⟩) (d₁ : ScatterDims ⟨2, ![N, C₁]⟩ ⟨2, ![E, 1]⟩ ⟨2, ![E, C₁]⟩)
    (ht : IsRowScatter dt) (h₁ : IsRowScatter d₁)
    (hbt : (⟨0, ![]⟩ : Shape).BroadcastsInDim ⟨2, ![N, Ct]⟩ (![] : Fin 0 → Fin 2))
    (hb₁ : (⟨0, ![]⟩ : Shape).BroadcastsInDim ⟨2, ![N, C₁]⟩ (![] : Fin 0 → Fin 2))
    (hcat : Shape.Concatenates [⟨2, ![E, C₁]⟩, ⟨2, ![E, C₂]⟩] ⟨2, ![E, Ct]⟩ 1)
    (hsl : (⟨2, ![N, Ct]⟩ : Shape).Slices ![0, 0] ⟨2, ![N, C₁]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₁]⟩ ![0, 0] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsl
      = Host.scatterAdd d₁ (broadcastInDim ⟨2, ![N, C₁]⟩ ![] hb₁ z) idx u := by
  funext i
  obtain ⟨n, c, rfl⟩ : ∃ n c, i = ix2 n c := ⟨i 0, i 1, eq_ix2 i⟩
  -- the column, as a column of the wide array
  have hcl : c.val < Ct := by
    have h : 0 + C₁ ≤ Ct := hsl.2 1
    have := c.isLt
    omega
  rw [extractStridedSlice_apply ![0, 0] _ hsl (ix2 n c) (ix2 n ⟨c.val, hcl⟩)
    (fun a => by match a with | ⟨0, _⟩ => exact (Nat.zero_add _).symm | ⟨1, _⟩ => exact (Nat.zero_add _).symm)]
  rw [scatterAdd_rows_apply' ht, scatterAdd_rows_apply' h₁, broadcast_scalar_apply, broadcast_scalar_apply]
  refine congrArg (fun t => z (fun a => a.elim0) + t) (Finset.sum_congr rfl fun e _ => ?_)
  rw [concatenate_pair_apply_left 1 u o hcat (ix2 e ⟨c.val, hcl⟩) rfl (ix2 e c)
    (fun b => by match b with | ⟨0, _⟩ => rfl | ⟨1, _⟩ => rfl)]

/-- Scattering the rows of two arrays set side by side, then keeping the SECOND array's columns, is scattering the
    second array's rows. The operand is one scalar at every entry. -/
theorem slice_right_scatterAdd_concat
    (dt : ScatterDims ⟨2, ![N, Ct]⟩ ⟨2, ![E, 1]⟩ ⟨2, ![E, Ct]⟩) (d₂ : ScatterDims ⟨2, ![N, C₂]⟩ ⟨2, ![E, 1]⟩ ⟨2, ![E, C₂]⟩)
    (ht : IsRowScatter dt) (h₂ : IsRowScatter d₂)
    (hbt : (⟨0, ![]⟩ : Shape).BroadcastsInDim ⟨2, ![N, Ct]⟩ (![] : Fin 0 → Fin 2))
    (hb₂ : (⟨0, ![]⟩ : Shape).BroadcastsInDim ⟨2, ![N, C₂]⟩ (![] : Fin 0 → Fin 2))
    (hcat : Shape.Concatenates [⟨2, ![E, C₁]⟩, ⟨2, ![E, C₂]⟩] ⟨2, ![E, Ct]⟩ 1)
    (hsr : (⟨2, ![N, Ct]⟩ : Shape).Slices ![0, C₁] ⟨2, ![N, C₂]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₂]⟩ ![0, C₁] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsr
      = Host.scatterAdd d₂ (broadcastInDim ⟨2, ![N, C₂]⟩ ![] hb₂ z) idx o := by
  funext i
  obtain ⟨n, c, rfl⟩ : ∃ n c, i = ix2 n c := ⟨i 0, i 1, eq_ix2 i⟩
  -- the column, as a column of the wide array: past the first array's columns
  have hcl : C₁ + c.val < Ct := by
    have h : C₁ + C₂ ≤ Ct := hsr.2 1
    have := c.isLt
    omega
  rw [extractStridedSlice_apply ![0, C₁] _ hsr (ix2 n c) (ix2 n ⟨C₁ + c.val, hcl⟩)
    (fun a => by match a with | ⟨0, _⟩ => exact (Nat.zero_add _).symm | ⟨1, _⟩ => rfl)]
  rw [scatterAdd_rows_apply' ht, scatterAdd_rows_apply' h₂, broadcast_scalar_apply, broadcast_scalar_apply]
  refine congrArg (fun t => z (fun a => a.elim0) + t) (Finset.sum_congr rfl fun e _ => ?_)
  rw [concatenate_pair_apply_right 1 u o hcat (ix2 e ⟨C₁ + c.val, hcl⟩) rfl rfl (ix2 e c)
    (fun b hb => by match b with | ⟨0, _⟩ => rfl | ⟨1, _⟩ => exact absurd rfl hb)
    (Nat.add_comm _ _)]

/-- The instance for 20000 nodes, 640000 edges and 128 message channels beside one column of ones: the first 128
    columns of the joint segment sum are the segment sum of the messages. -/
theorem slice_messages_scatterAdd
    (d129 : ScatterDims ⟨2, ![20000, 129]⟩ ⟨2, ![640000, 1]⟩ ⟨2, ![640000, 129]⟩)
    (d128 : ScatterDims ⟨2, ![20000, 128]⟩ ⟨2, ![640000, 1]⟩ ⟨2, ![640000, 128]⟩)
    (h129 : IsRowScatter d129) (h128 : IsRowScatter d128)
    (hb129 : (⟨0, ![]⟩ : Shape).BroadcastsInDim ⟨2, ![20000, 129]⟩ (![] : Fin 0 → Fin 2))
    (hb128 : (⟨0, ![]⟩ : Shape).BroadcastsInDim ⟨2, ![20000, 128]⟩ (![] : Fin 0 → Fin 2))
    (hcat : Shape.Concatenates [⟨2, ![640000, 128]⟩, ⟨2, ![640000, 1]⟩] ⟨2, ![640000, 129]⟩ 1)
    (hsl : (⟨2, ![20000, 129]⟩ : Shape).Slices ![0, 0] ⟨2, ![20000, 128]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 128]⟩ ![0, 0] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsl
      = Host.scatterAdd d128 (broadcastInDim ⟨2, ![20000, 128]⟩ ![] hb128 z) idx u :=
  slice_left_scatterAdd_concat d129 d128 h129 h128 hb129 hb128 hcat hsl z idx u o

/-- The same instance's last column: it is the segment sum of the ones, the number of edges arriving at each node. -/
theorem slice_ones_scatterAdd
    (d129 : ScatterDims ⟨2, ![20000, 129]⟩ ⟨2, ![640000, 1]⟩ ⟨2, ![640000, 129]⟩)
    (d1 : ScatterDims ⟨2, ![20000, 1]⟩ ⟨2, ![640000, 1]⟩ ⟨2, ![640000, 1]⟩)
    (h129 : IsRowScatter d129) (h1 : IsRowScatter d1)
    (hb129 : (⟨0, ![]⟩ : Shape).BroadcastsInDim ⟨2, ![20000, 129]⟩ (![] : Fin 0 → Fin 2))
    (hb1 : (⟨0, ![]⟩ : Shape).BroadcastsInDim ⟨2, ![20000, 1]⟩ (![] : Fin 0 → Fin 2))
    (hcat : Shape.Concatenates [⟨2, ![640000, 128]⟩, ⟨2, ![640000, 1]⟩] ⟨2, ![640000, 129]⟩ 1)
    (hsr : (⟨2, ![20000, 129]⟩ : Shape).Slices ![0, 128] ⟨2, ![20000, 1]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 1]⟩ ![0, 128] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsr
      = Host.scatterAdd d1 (broadcastInDim ⟨2, ![20000, 1]⟩ ![] hb1 z) idx o :=
  slice_right_scatterAdd_concat d129 d1 h129 h1 hb129 hb1 hcat hsr z idx u o

end SideBySide

end Cert.LibScatterRows

end
-- ==== Proof.RefValue.lean ====
/-
  The reference program's result is the specification's result array.

  The program's result is a composed term of its five arguments. Read entry by entry, with every index word of row and
  of col between 0 and 49999:
    * an index word that is not negative is left alone by the correction "add 50000 where the word is negative";
    * the features multiplied with the first (last) 128 entries of the attention column and read as a vector give, at
      node n, the specification's target (source) score of n; gathered at the row (col) words and added, they give the
      specification's score of every edge;
    * the weights are one and the same function of the scores and the edge values on both sides, so they are equal as
      soon as the scores are;
    * the gathered feature rows times the weights, added into zeros at the row words, give at (n, d) the sum over the
      edges whose row word is n of the edge's weight times feature d of the node its col word names.
-/
import proofs.«430319_j52965536694517_1_alg».proof.ReferenceIdeal
import proofs.«430319_j52965536694517_1_alg».proof.Proof.Spec
import proofs.«430319_j52965536694517_1_alg».proof.Proof.LibPlainDot
import proofs.«430319_j52965536694517_1_alg».proof.Proof.LibGatherRows
import proofs.«430319_j52965536694517_1_alg».proof.Proof.LibGatherVec
import proofs.«430319_j52965536694517_1_alg».proof.Proof.LibScatterRows
import proofs.«430319_j52965536694517_1_alg».proof.Proof.RefTerm

noncomputable section

open scoped BigOperators

namespace Cert.RefValue

open Idealize.ShloMosaic Idealize.ShloMosaic.ValueIdx
open Cert.ReferenceIdeal Cert.ReferenceIdeal.Facts₀

variable [Cert.ReferenceIdeal.Facts]

/-! ## The index wrap leaves a word that is not negative alone -/

/-- A word whose signed value is not negative is not below zero, so the select between "the word plus 50000" and the
    word returns the word. -/
theorem wrap_word (x : BitVec 32) (hx : 0 ≤ x.toInt) :
    Scalar.select (IntOp.cmpi .slt x 0#32) (IntOp.addi x 50000#32) x = x := by
  have h : IntOp.cmpi .slt x 0#32 = 0#1 := by
    show BitVec.ofBool (x.slt 0#32) = 0#1
    have h0 : x.slt 0#32 = false := by
      rw [BitVec.slt_eq_decide]
      have : (0#32 : BitVec 32).toInt = 0 := by decide
      rw [this]
      exact decide_eq_false (by omega)
    rw [h0]; rfl
  rw [h]
  exact select_zero _ _

/-- The wrap of a whole vector of index words none of which is negative is that vector. -/
theorem wrap_eq (x : IVec S800000 32) (hx : ∀ i, 0 ≤ (x i).toInt) : Cert.RefRun.wrap x = x := by
  funext i
  exact wrap_word (x i) (hx i)

/-- A vector over the edges kept as a column reads, at (e, 0), the vector at e. -/
theorem col_apply {α : Type} (v : S800000.Idx → α) (e : Fin 800000) :
    broadcastInDim S800000x1 ![0] bcast_S800000_S800000x1_0 v (ix2 e (0 : Fin 1)) = v (ix1 e) :=
  broadcastInDim_apply _ _ v _ (ix1 e) (fun a => match a with
    | ⟨0, _⟩ => by
      show e.val = if (800000 : Nat) = 1 then 0 else e.val
      rw [if_neg (by decide)])

/-! ## The two score vectors -/

/-- The program's dimension numbers of the two products are the plain "rows by contraction, contraction by columns"
    ones. -/
theorem dot_eq_plain : dot_S50000x128_S128x1_S50000x1_1_0_0_1_n_n = DotDims.plain 50000 128 1 := rfl

/-- The target scores: the features against the first 128 entries of the attention column, the one-column result
    read as a vector. Entry n is the specification's target score of node n. -/
theorem sVec_apply (h : FVec Ideal S50000x128 .f32) (att : FVec Ideal S256x1 .f32) (n : Fin 50000) :
    shapeCast S50000 (Host.dotGeneral dot_S50000x128_S128x1_S50000x1_1_0_0_1_n_n none h
        (extractStridedSlice S128x1 ![0, 0] att slices_S256x1_S128x1_0_0)) shapeCasts_S50000x1_S50000 (ix1 n)
      = Cert.Spec.sAt h att n := by
  refine (shapeCast_apply _ _ (ix1 n) (ix2 n (0 : Fin 1)) ?_).trans ?_
  · rw [Shape.rowMajor_val_two, Shape.rowMajor_val_one]
    show n.val * 1 + 0 = n.val
    omega
  · show FloatOps.dotGeneral dot_S50000x128_S128x1_S50000x1_1_0_0_1_n_n none .single h _ (ix2 n (0 : Fin 1)) = _
    rw [dot_eq_plain, Cert.LibPlainDot.dotGeneral_plain_apply]
    unfold Cert.Spec.sAt
    refine Finset.sum_congr rfl fun k _ => ?_
    refine congrArg (fun t => h (ix2 n k) * t) ?_
    exact extractStridedSlice_apply ![0, 0] att _ (ix2 k (0 : Fin 1)) (ix2 (⟨k.val, by omega⟩ : Fin 256) (0 : Fin 1))
      (fun a => match a with
        | ⟨0, _⟩ => (Nat.zero_add _).symm
        | ⟨1, _⟩ => (Nat.zero_add _).symm)

/-- The source scores: the features against the last 128 entries of the attention column. Entry n is the
    specification's source score of node n. -/
theorem tVec_apply (h : FVec Ideal S50000x128 .f32) (att : FVec Ideal S256x1 .f32) (n : Fin 50000) :
    shapeCast S50000 (Host.dotGeneral dot_S50000x128_S128x1_S50000x1_1_0_0_1_n_n none h
        (extractStridedSlice S128x1 ![128, 0] att slices_S256x1_S128x1_128_0)) shapeCasts_S50000x1_S50000 (ix1 n)
      = Cert.Spec.tAt h att n := by
  refine (shapeCast_apply _ _ (ix1 n) (ix2 n (0 : Fin 1)) ?_).trans ?_
  · rw [Shape.rowMajor_val_two, Shape.rowMajor_val_one]
    show n.val * 1 + 0 = n.val
    omega
  · show FloatOps.dotGeneral dot_S50000x128_S128x1_S50000x1_1_0_0_1_n_n none .single h _ (ix2 n (0 : Fin 1)) = _
    rw [dot_eq_plain, Cert.LibPlainDot.dotGeneral_plain_apply]
    unfold Cert.Spec.tAt
    refine Finset.sum_congr rfl fun k _ => ?_
    refine congrArg (fun t => h (ix2 n k) * t) ?_
    exact extractStridedSlice_apply ![128, 0] att _ (ix2 k (0 : Fin 1)) (ix2 (⟨128 + k.val, by omega⟩ : Fin 256) (0 : Fin 1))
      (fun a => match a with
        | ⟨0, _⟩ => rfl
        | ⟨1, _⟩ => (Nat.zero_add _).symm)

/-! ## The gathers -/

/-- A vector over the nodes gathered at a column of index words reads, at edge e, the vector at the node the word
    names. -/
theorem gatherVec_apply (x : FVec Ideal S50000 .f32) (idx : IVec S800000x1 32) (e : Fin 800000) :
    Host.gather gather_S50000_S800000x1_S800000_n_0_n_n_0_1_1 x idx (ix1 e)
      = x (ix1 (Cert.Spec.node (idx (ix2 e (0 : Fin 1))))) :=
  Cert.LibGatherVec.gather_vec_apply gather_S50000_S800000x1_S800000_n_0_n_n_0_1_1 rfl rfl rfl rfl rfl (by decide) x idx e

/-- The rows of the features gathered at a column of index words read, at (e, d), feature d of the node the word
    names. -/
theorem gatherRows_apply (x : FVec Ideal S50000x128 .f32) (idx : IVec S800000x1 32) (e : Fin 800000) (d : Fin 128) :
    Host.gather gather_S50000x128_S800000x1_S800000x128_1_0_n_n_0_1_1128 x idx (ix2 e d)
      = x (ix2 (Cert.Spec.node (idx (ix2 e (0 : Fin 1)))) d) :=
  Cert.LibGatherRows.gather_rows_apply gather_S50000x128_S800000x1_S800000x128_1_0_n_n_0_1_1128 rfl rfl rfl rfl rfl
    (by decide) x idx e d

/-! ## The scores -/

/-- The program's scores at edge e, the index words taken as they are: the target score of the node the row word names
    plus the source score of the node the col word names. -/
theorem logits_apply (h : FVec Ideal S50000x128 .f32) (att : FVec Ideal S256x1 .f32) (row col : IVec S800000 32)
    (e : Fin 800000) :
    addf
      (Host.gather gather_S50000_S800000x1_S800000_n_0_n_n_0_1_1
        (shapeCast S50000
          (Host.dotGeneral dot_S50000x128_S128x1_S50000x1_1_0_0_1_n_n none h
            (extractStridedSlice S128x1 ![0, 0] att slices_S256x1_S128x1_0_0))
          shapeCasts_S50000x1_S50000)
        (broadcastInDim S800000x1 ![0] bcast_S800000_S800000x1_0 row))
      (Host.gather gather_S50000_S800000x1_S800000_n_0_n_n_0_1_1
        (shapeCast S50000
          (Host.dotGeneral dot_S50000x128_S128x1_S50000x1_1_0_0_1_n_n none h
            (extractStridedSlice S128x1 ![128, 0] att slices_S256x1_S128x1_128_0))
          shapeCasts_S50000x1_S50000)
        (broadcastInDim S800000x1 ![0] bcast_S800000_S800000x1_0 col)) (ix1 e)
      = Cert.Spec.logits h att row col (ix1 e) := by
  rw [addf_apply, gatherVec_apply, gatherVec_apply, col_apply, col_apply, sVec_apply, tVec_apply]
  rfl

/-- The program's scores are the specification's, when no index word is negative. -/
theorem logitsTerm_eq (h : FVec Ideal S50000x128 .f32) (att : FVec Ideal S256x1 .f32) (row col : IVec S800000 32)
    (hrow : ∀ i, 0 ≤ (row i).toInt ∧ (row i).toInt < 50000) (hcol : ∀ i, 0 ≤ (col i).toInt ∧ (col i).toInt < 50000) :
    Cert.RefRun.logitsTerm h att row col = Cert.Spec.logits h att row col := by
  unfold Cert.RefRun.logitsTerm
  rw [wrap_eq row (fun i => (hrow i).1), wrap_eq col (fun i => (hcol i).1)]
  funext i
  obtain ⟨e, rfl⟩ : ∃ e : Fin 800000, i = ix1 e := ⟨i 0, eq_ix1 i⟩
  exact logits_apply h att row col e

/-! ## The result -/

/-- A column over the edges spread along the 128 features reads, at (e, d), the column at (e, 0). -/
theorem wide_apply {α : Type} (v : S800000x1.Idx → α) (e : Fin 800000) (d : Fin 128) :
    broadcastInDim S800000x128 ![0, 1] bcast_S800000x1_S800000x128_0_1 v (ix2 e d) = v (ix2 e (0 : Fin 1)) :=
  broadcastInDim_apply _ _ v _ (ix2 e (0 : Fin 1)) (fun a => match a with
    | ⟨0, _⟩ => by
      show e.val = if (800000 : Nat) = 1 then 0 else e.val
      rw [if_neg (by decide)]
    | ⟨1, _⟩ => by
      show 0 = if (1 : Nat) = 1 then 0 else d.val
      rw [if_pos rfl])

/-- The rows "weight of edge e times the features of the node the col word of e names", added into an array of zeros
    at the rows the row words name, read at entry (n, d): the sum over the edges whose row word is n. -/
theorem scatter_entry (h : FVec Ideal S50000x128 .f32) (w : FVec Ideal S800000 .f32) (row col : IVec S800000 32)
    (n : Fin 50000) (d : Fin 128) :
    Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 row)
      (mulf
        (broadcastInDim S800000x128 ![0, 1] bcast_S800000x1_S800000x128_0_1
          (broadcastInDim S800000x1 ![0] bcast_S800000_S800000x1_0 w))
        (Host.gather gather_S50000x128_S800000x1_S800000x128_1_0_n_n_0_1_1128 h
          (broadcastInDim S800000x1 ![0] bcast_S800000_S800000x1_0 col))) (ix2 n d)
      = ∑ e : Fin 800000, if (row (ix1 e)).toInt = (n.val : ℤ)
          then w (ix1 e) * h (ix2 (Cert.Spec.node (col (ix1 e))) d) else 0 := by
  rw [Cert.LibScatterRows.scatterAdd_rows_apply scatter_S50000x128_S800000x1_S800000x128_1_0_0_1 rfl rfl rfl rfl,
    Cert.LibScatterRows.broadcast_scalar_apply, constant_apply, Ideal.ofBits_zero_f32, zero_add]
  refine Finset.sum_congr rfl fun e _ => ?_
  rw [col_apply, mulf_apply, gatherRows_apply, col_apply, wide_apply, col_apply]

/-- The program's result is the specification's result array, when no index word is negative. -/
theorem refTerm_eq_out (h : FVec Ideal S50000x128 .f32) (att : FVec Ideal S256x1 .f32) (adj : FVec Ideal S800000 .f32)
    (row col : IVec S800000 32)
    (hrow : ∀ i, 0 ≤ (row i).toInt ∧ (row i).toInt < 50000) (hcol : ∀ i, 0 ≤ (col i).toInt ∧ (col i).toInt < 50000) :
    Cert.RefRun.refTerm h att adj row col = Cert.Spec.out Cert.RefRun.tf h att adj row col := by
  refine Cert.Spec.eq_out_of_apply Cert.RefRun.tf h att adj row col _ (fun n d => ?_)
  unfold Cert.RefRun.refTerm
  rw [logitsTerm_eq h att row col hrow hcol, wrap_eq col (fun i => (hcol i).1)]
  exact scatter_entry h (Cert.Spec.weights Cert.RefRun.tf (Cert.Spec.logits h att row col) adj) row col n d

end Cert.RefValue

end
-- ==== Proof.PreRanges.lean ====
/-
  From the precondition to the index ranges. The precondition is a conjunction of seven tests, each a
  conjunction over every entry of an array; the last four say that every entry of the two edge-endpoint arrays,
  read as a signed word, is at least 0 and below 50000. A conjunction that came out true had every conjunct true,
  and a signed comparison that came out true says the order of the two words' signed values.
-/
import proofs.«430319_j52965536694517_1_alg».proof.Pre_finite_inputs
import Idealize.ShloMosaic.Lib.ReduceAll

noncomputable section

namespace Cert.PreRanges

open Idealize.ShloMosaic
open Cert.Pre_finite_inputs

/-- The shape without axes has one index. -/
instance subsingleton_idx : Subsingleton S_.Idx := ⟨fun a b => funext fun d => d.elim0⟩

/-- The precondition holds: then every entry of the two edge-endpoint arrays, read signed, lies in [0, 50000). Of the
    seven conjuncts the three about the real-valued inputs are not used; each of the other four is a conjunction over
    all 800000 entries of one signed comparison with a constant. -/
theorem ranges_of_pre {F : FTy → Type} [FloatOps F] [Cert.Pre_finite_inputs.Facts]
    (a0 : FVec F Cert.Pre_finite_inputs.S50000x128 .f32) (a1 : FVec F Cert.Pre_finite_inputs.S256x1 .f32)
    (a2 : FVec F Cert.Pre_finite_inputs.S800000 .f32) (row col : IVec Cert.Pre_finite_inputs.S800000 32)
    (hpre : Cert.Pre_finite_inputs.fn (F := F) a0 a1 a2 row col = fun _ => 1#1) :
    (∀ i, 0 ≤ (row i).toInt ∧ (row i).toInt < 50000) ∧ (∀ i, 0 ≤ (col i).toInt ∧ (col i).toInt < 50000) := by
  have e := congrFun hpre (fun d => d.elim0)
  dsimp only [fn, fn_part1] at e
  simp only [andi, IntOp.andi_eq_one] at e
  obtain ⟨⟨⟨⟨-, hr0⟩, hr1⟩, hc0⟩, hc1⟩ := e
  have z0 : (0#32 : BitVec 32).toInt = 0 := by decide
  have z1 : (50000#32 : BitVec 32).toInt = 50000 := by decide
  refine ⟨fun i => ⟨?_, ?_⟩, fun i => ⟨?_, ?_⟩⟩
  · have h := Host.reduce_andi_all _ _ _ _ _ hr0 i
    simp only [cmpi, IntOp.cmpi_sge, broadcastInDim, constantI, z0] at h
    exact h
  · have h := Host.reduce_andi_all _ _ _ _ _ hr1 i
    simp only [cmpi, IntOp.cmpi_slt, broadcastInDim, constantI, z1] at h
    exact h
  · have h := Host.reduce_andi_all _ _ _ _ _ hc0 i
    simp only [cmpi, IntOp.cmpi_sge, broadcastInDim, constantI, z0] at h
    exact h
  · have h := Host.reduce_andi_all _ _ _ _ _ hc1 i
    simp only [cmpi, IntOp.cmpi_slt, broadcastInDim, constantI, z1] at h
    exact h

end Cert.PreRanges

end
-- ==== Proof.lean ====
/-
  The certificate of the graph attention kernel against its reference, over the extended reals, for index inputs that
  name nodes (every row and column index between 0 and 49999) and finite float inputs.

  Both programs compute, for node features h, attention vector att, edge values adj and edge endpoints row, col:
    the edge scores  s (row e) + t (col e)  with  s = h times the first half of att,  t = h times the second half;
    the edge weights  w = adj times the softmax, over ALL edges, of the leaky-rectified scores;
    the result  out n = the sum over the edges e with row e = n of  w e times  h (col e).
  The reference does this with two matrix products, gathers and one accumulating scatter. The kernel pads h to 50048
  rows, gets both score columns from one tiled matrix product, gathers them, applies the same weight operations, and
  then walks the edges 128 at a time: for each group it builds the messages  w e times h (col e)  as a product of a
  one-hot-weight matrix with the padded table, tile by tile, and adds to an accumulator kept across the groups the
  product of the transposed one-hot matrix of the row indices with the messages; at the end it drops the 48 padding
  rows. Over the extended reals a one-hot product is the selected entry (zero times anything is zero, zero plus
  anything is that thing), a format change is the identity, and regrouping a sum changes nothing, so the two results
  are the same array: the specification's (Proof/Spec.lean). The index range is what makes the padded table's gathers
  read the rows the reference's gathers read.

  The three frames: the kernel's two are the generated frame certificates; the reference's is its run with the
  result dropped. The idealization rewrote nothing, so its statement is trivial.
-/
import proofs.«430319_j52965536694517_1_alg».proof.Defs
import proofs.«430319_j52965536694517_1_alg».proof.Proof.Gen.Kernel
import proofs.«430319_j52965536694517_1_alg».proof.Proof.Gen.Kernel.Skeleton
import proofs.«430319_j52965536694517_1_alg».proof.Proof.Gen.Kernel.Loops
import proofs.«430319_j52965536694517_1_alg».proof.Proof.Gen.Kernel.Launch
import proofs.«430319_j52965536694517_1_alg».proof.Proof.Gen.Kernel.Points
import proofs.«430319_j52965536694517_1_alg».proof.Proof.Gen.Kernel.Frame
import proofs.«430319_j52965536694517_1_alg».proof.Proof.Gen.KernelIdeal
import proofs.«430319_j52965536694517_1_alg».proof.Proof.Gen.KernelIdeal.Skeleton
import proofs.«430319_j52965536694517_1_alg».proof.Proof.Gen.KernelIdeal.Loops
import proofs.«430319_j52965536694517_1_alg».proof.Proof.Gen.KernelIdeal.Launch
import proofs.«430319_j52965536694517_1_alg».proof.Proof.Gen.KernelIdeal.Points
import proofs.«430319_j52965536694517_1_alg».proof.Proof.Gen.KernelIdeal.Frame
import proofs.«430319_j52965536694517_1_alg».proof.Proof.Gen.ReferenceIdeal
import proofs.«430319_j52965536694517_1_alg».proof.Proof.Gen.Pre_finite_inputs
import proofs.«430319_j52965536694517_1_alg».proof.Proof.KernelValue
import proofs.«430319_j52965536694517_1_alg».proof.Proof.RefRun
import proofs.«430319_j52965536694517_1_alg».proof.Proof.RefValue
import proofs.«430319_j52965536694517_1_alg».proof.Proof.PreRanges
import Idealize.ShloMosaic.Adequacy
import Idealize.ShloMosaic.Init

noncomputable section

namespace Cert.Proof

open Idealize.ShloMosaic Idealize.SL.Sem

/-- The kernel as compiled: the generated frame. -/
theorem frame_k : Cert.frame_Kernel := fun m ρ _ => Cert.Kernel.Gen.frame m ρ

/-- The kernel read over the extended reals: the generated frame. -/
theorem frame_ki : Cert.frame_KernelIdeal := fun m ρ _ => Cert.KernelIdeal.Gen.frame m ρ

/-- The reference: its run, the result dropped. -/
theorem frame_ri : Cert.frame_ReferenceIdeal := fun m ρ _ =>
  (θ_run (Cert.ReferenceIdeal.defs (F := Ideal)) _ _).mono (fun _ h c => (h c).2) (Cert.RefRun.run m ρ)

/-- The precondition gives every row and column index of the kernel's launch a node's number. -/
theorem ranges (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, 0 ≤ (Cert.KernelValue.rowsIn m c i).toInt ∧ (Cert.KernelValue.rowsIn m c i).toInt < 50000)
      ∧ (∀ i, 0 ≤ (Cert.KernelValue.colsIn m c i).toInt ∧ (Cert.KernelValue.colsIn m c i).toInt < 50000) :=
  Cert.PreRanges.ranges_of_pre (F := Ideal) _ _ _ _ _ (hpre c)

/-- Both programs end at the specification's array of the kernel's launch: the kernel by its value, the reference by
    its run and its value at the arguments the two launches share. -/
theorem algebraic : Cert.algebraic_KernelIdeal_ReferenceIdeal := by
  intro m ρ m' ρ' hpre hagree
  have hr := fun c => (ranges m hpre c).1
  have hc := fun c => (ranges m hpre c).2
  refine ⟨fun c => Cert.Spec.out Cert.KernelIdeal.Chain.tfK (Cert.KernelValue.featIn m c) (Cert.KernelValue.attIn m c)
      (Cert.KernelValue.adjIn m c) (Cert.KernelValue.rowsIn m c) (Cert.KernelValue.colsIn m c),
    Cert.KernelValue.run m ρ hr hc, ?_⟩
  refine (θ_run (Cert.ReferenceIdeal.defs (F := Ideal)) _ _).mono (fun _ h c => ⟨(h c).1.trans ?_, (h c).2⟩)
    (Cert.RefRun.run m' ρ')
  rw [(hagree c).1, (hagree c).2.1, (hagree c).2.2.1, (hagree c).2.2.2.1, (hagree c).2.2.2.2]
  exact Cert.RefValue.refTerm_eq_out _ _ _ _ _ (hr c) (hc c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
